-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x131072 : Shape := ⟨2, ![2, 131072]⟩
abbrev S512x256 : Shape := ⟨2, ![512, 256]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S512 .f32) (main_arg6 : FVec F S128x512 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128x512 .f32 := Host.absf main_arg6
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x256 .f32) (main_arg1 : IVec S2x131072 32) (main_arg2 : FVec F S512x256 .f32) (main_arg3 : FVec F S512 .f32) (main_arg4 : FVec F S512 .f32) (main_arg5 : FVec F S512 .f32) (main_arg6 : FVec F S128x512 .f32) (main_arg7 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S8192x256 : Shape := ⟨2, ![8192, 256]⟩
abbrev S2x131072 : Shape := ⟨2, ![2, 131072]⟩
abbrev S512x256 : Shape := ⟨2, ![512, 256]⟩
abbrev S512 : Shape := ⟨1, ![512]⟩
abbrev S128x512 : Shape := ⟨2, ![128, 512]⟩
abbrev S128 : Shape := ⟨1, ![128]⟩
abbrev S256x512 : Shape := ⟨2, ![256, 512]⟩
abbrev S512x128 : Shape := ⟨2, ![512, 128]⟩
abbrev S1x512 : Shape := ⟨2, ![1, 512]⟩
abbrev S1x128 : Shape := ⟨2, ![1, 128]⟩
abbrev S8192x512 : Shape := ⟨2, ![8192, 512]⟩
abbrev S1024x256 : Shape := ⟨2, ![1024, 256]⟩
abbrev S1024x512 : Shape := ⟨2, ![1024, 512]⟩
abbrev S_ : Shape := ⟨0, ![]⟩
abbrev S8192x128 : Shape := ⟨2, ![8192, 128]⟩
abbrev S1024x128 : Shape := ⟨2, ![1024, 128]⟩
abbrev S8192x8192 : Shape := ⟨2, ![8192, 8192]⟩
abbrev S512x512 : Shape := ⟨2, ![512, 512]⟩
abbrev S512x1 : Shape := ⟨2, ![512, 1]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩

abbrev nBuf : Space → Nat
  | .hbm => 55
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S2x131072, .i32⟩
  | .hbm, ⟨2, _⟩ => ⟨S512x256, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S256x512, .f32⟩
  | .hbm, ⟨9, _⟩ => ⟨S512x128, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x128, .f32⟩
  | .hbm, ⟨14, _⟩ => ⟨S8192x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S8192x128, .f32⟩
  | .hbm, ⟨30, _⟩ => ⟨S8192x8192, .f32⟩
  | .hbm, ⟨31, _⟩ => ⟨S1x131072, .i32⟩
  | .hbm, ⟨32, _⟩ => ⟨S131072, .i32⟩
  | .hbm, ⟨33, _⟩ => ⟨S1x131072, .i32⟩
  | .hbm, ⟨34, _⟩ => ⟨S131072, .i32⟩
  | .hbm, ⟨35, _⟩ => ⟨S_, .i32⟩
  | .hbm, ⟨36, _⟩ => ⟨S131072, .i32⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S_, .i32⟩
  | .hbm, ⟨43, _⟩ => ⟨S131072, .i32⟩
  | .hbm, ⟨44, _⟩ => ⟨S131072, .i1⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S131072, .i32⟩
  | .hbm, ⟨49, _⟩ => ⟨S131072x1, .i32⟩
  | .hbm, ⟨50, _⟩ => ⟨S131072x1, .i32⟩
  | .hbm, ⟨51, _⟩ => ⟨S131072x2, .i32⟩
  | .hbm, ⟨52, _⟩ => ⟨S_, .f32⟩
  | .hbm, ⟨53, _⟩ => ⟨S131072, .f32⟩
  | .hbm, ⟨54, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x512, .f32⟩
  | .local _ .vmem, ⟨25, _⟩ => ⟨S512x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S512x256_S256x512_1_0 : S512x256.Transposes [1, 0] S256x512
  transposes_S128x512_S512x128_1_0 : S128x512.Transposes [1, 0] S512x128
  shapeCasts_S512_S1x512 : S512.ShapeCasts S1x512
  shapeCasts_S128_S1x128 : S128.ShapeCasts S1x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  bcast_S_S1x512 : S_.BroadcastsInDim S1x512 (![] : Fin 0 → Fin S1x512.rank)
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  dot_S1024x256_S256x512_S1024x512_1_0_0_1_n_n_wf : DotDims.WF S1024x256 S256x512 S1024x512 [1] [0] [0] [1] [] []
  dot_S1024x512_S512x128_S1024x128_1_0_0_1_n_n_wf : DotDims.WF S1024x512 S512x128 S1024x128 [1] [0] [0] [1] [] []
  dot_S512x128_S512x128_S512x512_1_1_0_0_n_n_wf : DotDims.WF S512x128 S512x128 S512x512 [1] [1] [0] [0] [] []
  scatter_S8192x8192_S131072x2_S131072_n_01_01_1_wf : ScatterDims.WF S8192x8192 S131072x2 S131072 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S8192x128.size a
  hwx1_7 : ∀ i : grid1.Coords, EltTy.bits .f32 = 32 ∨ (Rect.block (s := S8192x128) S1024x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S8192x128.size a
  hwx2_0 : ∀ i : grid2.Coords, EltTy.bits .f32 = 32 ∨ (Rect.block (s := S8192x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S8192x128.size a
  hwx2_1 : ∀ i : grid2.Coords, EltTy.bits .f32 = 32 ∨ (Rect.block (s := S8192x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S8192x8192.size a
  hwx2_2 : ∀ i : grid2.Coords, EltTy.bits .f32 = 32 ∨ (Rect.block (s := S8192x8192) S512x512.size (cc2_transform_2 i) (hinb2_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v6_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v16) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S2x131072 : Shape := ⟨2, ![2, 131072]⟩
abbrev S512x256 : Shape := ⟨2, ![512, 256]⟩
abbrev S512 : Shape := ⟨1, ![512]⟩
abbrev S128x512 : Shape := ⟨2, ![128, 512]⟩
abbrev S128 : Shape := ⟨1, ![128]⟩
abbrev S256x512 : Shape := ⟨2, ![256, 512]⟩
abbrev S8192x512 : Shape := ⟨2, ![8192, 512]⟩
abbrev S1x512 : Shape := ⟨2, ![1, 512]⟩
abbrev S_ : Shape := ⟨0, ![]⟩
abbrev S512x128 : Shape := ⟨2, ![512, 128]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩
abbrev S1x131072 : Shape := ⟨2, ![1, 131072]⟩
abbrev S131072 : Shape := ⟨1, ![131072]⟩
abbrev S131072x1 : Shape := ⟨2, ![131072, 1]⟩
abbrev S131072x2 : Shape := ⟨2, ![131072, 2]⟩

abbrev nBuf : Space → Nat
  | .hbm => 117
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x131072, .i32⟩
  | .hbm, ⟨2, _⟩ => ⟨S512x256, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S256x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S512x128, .f32⟩
  | .hbm, ⟨61, _⟩ => ⟨S8192x128, .f32⟩
  | .hbm, ⟨62, _⟩ => ⟨S1x128, .f32⟩
  | .hbm, ⟨63, _⟩ => ⟨S8192x128, .f32⟩
  | .hbm, ⟨64, _⟩ => ⟨S8192x128, .f32⟩
  | .hbm, ⟨65, _⟩ => ⟨S128x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .i1⟩
  | .hbm, ⟨76, _⟩ => ⟨S8192x8192, .i1⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S_, .i1⟩
  | .hbm, ⟨84, _⟩ => ⟨S8192x8192, .i1⟩
  | .hbm, ⟨85, _⟩ => ⟨S8192x8192, .i1⟩
  | .hbm, ⟨86, _⟩ => ⟨S_, .f32⟩
  | .hbm, ⟨87, _⟩ => ⟨S8192x8192, .f32⟩
  | .hbm, ⟨88, _⟩ => ⟨S8192x8192, .i1⟩
  | .hbm, ⟨89, _⟩ => ⟨S8192x8192, .i1⟩
  | .hbm, ⟨90, _⟩ => ⟨S_, .f32⟩
  | .hbm, ⟨91, _⟩ => ⟨S8192x8192, .f32⟩
  | .hbm, ⟨92, _⟩ => ⟨S8192x8192, .f32⟩
  | .hbm, ⟨93, _⟩ => ⟨S1x131072, .i32⟩
  | .hbm, ⟨94, _⟩ => ⟨S131072, .i32⟩
  | .hbm, ⟨95, _⟩ => ⟨S1x131072, .i32⟩
  | .hbm, ⟨96, _⟩ => ⟨S131072, .i32⟩
  | .hbm, ⟨97, _⟩ => ⟨S_, .i32⟩
  | .hbm, ⟨98, _⟩ => ⟨S131072, .i32⟩
  | .hbm, ⟨99, _⟩ => ⟨S131072, .i1⟩
  | .hbm, ⟨100, _⟩ => ⟨S_, .i32⟩
  | .hbm, ⟨101, _⟩ => ⟨S131072, .i32⟩
  | .hbm, ⟨102, _⟩ => ⟨S131072, .i32⟩
  | .hbm, ⟨103, _⟩ => ⟨S131072, .i32⟩
  | .hbm, ⟨104, _⟩ => ⟨S_, .i32⟩
  | .hbm, ⟨105, _⟩ => ⟨S131072, .i32⟩
  | .hbm, ⟨106, _⟩ => ⟨S131072, .i1⟩
  | .hbm, ⟨107, _⟩ => ⟨S_, .i32⟩
  | .hbm, ⟨108, _⟩ => ⟨S131072, .i32⟩
  | .hbm, ⟨109, _⟩ => ⟨S131072, .i32⟩
  | .hbm, ⟨110, _⟩ => ⟨S131072, .i32⟩
  | .hbm, ⟨111, _⟩ => ⟨S131072x1, .i32⟩
  | .hbm, ⟨112, _⟩ => ⟨S131072x1, .i32⟩
  | .hbm, ⟨113, _⟩ => ⟨S131072x2, .i32⟩
  | .hbm, ⟨114, _⟩ => ⟨S_, .f32⟩
  | .hbm, ⟨115, _⟩ => ⟨S131072, .f32⟩
  | .hbm, ⟨116, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call1_cst : Ref sig .tc := ⟨.hbm, 57, rfl⟩
abbrev main_call1_v0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_2 : Ref sig .tc := ⟨.hbm, 69, rfl⟩
abbrev main_v34 : Ref sig .tc := ⟨.hbm, 70, rfl⟩
abbrev main_v35 : Ref sig .tc := ⟨.hbm, 71, rfl⟩
abbrev main_cst_3 : Ref sig .tc := ⟨.hbm, 72, rfl⟩
abbrev main_v36 : Ref sig .tc := ⟨.hbm, 73, rfl⟩
abbrev main_v37 : Ref sig .tc := ⟨.hbm, 74, rfl⟩
abbrev main_c_4 : Ref sig .tc := ⟨.hbm, 75, rfl⟩
abbrev main_v38 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_6 : Ref sig .tc := ⟨.hbm, 90, rfl⟩
abbrev main_call3_v0 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_c_7 : Ref sig .tc := ⟨.hbm, 97, rfl⟩
abbrev main_v48 : Ref sig .tc := ⟨.hbm, 98, rfl⟩
abbrev main_v49 : Ref sig .tc := ⟨.hbm, 99, rfl⟩
abbrev main_c_8 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_9 : Ref sig .tc := ⟨.hbm, 104, rfl⟩
abbrev main_v53 : Ref sig .tc := ⟨.hbm, 105, rfl⟩
abbrev main_v54 : Ref sig .tc := ⟨.hbm, 106, rfl⟩
abbrev main_c_10 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_11 : Ref sig .tc := ⟨.hbm, 114, rfl⟩
abbrev main_v61 : Ref sig .tc := ⟨.hbm, 115, rfl⟩
abbrev main_v62 : Ref sig .tc := ⟨.hbm, 116, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S512_d0 : S8192x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S8192x512 : S_.BroadcastsInDim S8192x512 (![] : Fin 0 → Fin S8192x512.rank)
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  dot_S8192x256_S256x512_S8192x512_1_0_0_1_n_n_wf : DotDims.WF S8192x256 S256x512 S8192x512 [1] [0] [0] [1] [] []
  dot_S8192x512_S512x128_S8192x128_1_0_0_1_n_n_wf : DotDims.WF S8192x512 S512x128 S8192x128 [1] [0] [0] [1] [] []
  dot_S8192x128_S128x8192_S8192x8192_1_0_0_1_n_n_wf : DotDims.WF S8192x128 S128x8192 S8192x8192 [1] [0] [0] [1] [] []
  scatter_S8192x8192_S131072x2_S131072_n_01_01_1_wf : ScatterDims.WF S8192x8192 S131072x2 S131072 [] [0, 1] [0, 1] 1

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf

class Facts : Prop extends Facts₀ where

variable [Facts]
-- ==== Proof.Mlp1Run.lean ====
import proofs.«121768_j5368709120801_1_alg».proof.Proof.Gen.KernelIdeal.Launch
import proofs.«121768_j5368709120801_1_alg».proof.Proof.Gen.KernelIdeal.Skeleton
import proofs.«121768_j5368709120801_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel body on any whole staging memrefs

One triple per case of the body's two conditionals on the grid point: the first point (the accumulators reset), a middle
point (neither), the last point (the accumulators copied to the two sums' output blocks). Each is stated over the
contents read through the memrefs: the inputs at `x`, `w`, `b`; the block of h left at x·w1ᵀ + b1
(`k0_pay3 x w b`); each accumulator left at its contents before plus the block's column sums
(`k0_pay4`, `k0_pay5`); an output block the case does not store into handed back as found. -/

/-! ## Whole-buffer loads and stores, read back

The body loads and stores every buffer through the rectangle that is all of it (zero offsets, the buffer's own
extents). A load through it reads the contents; a store through it, made last, leaves its payload; a load after such
a store reads that payload. -/

section WholeRect

variable {sig' : RefSig} {κ : Kind} {sp : Space} {S : Shape} {e : EltTy} {Val : EltTy → Type}

/-- The zero offsets of a rank-2 buffer, as a constant function. -/
theorem off00 : (![0, 0] : Fin 2 → Nat) = fun _ => 0 := funext fun a => by fin_cases a <;> rfl

/-- A load through the whole-buffer rectangle reads the buffer. -/
theorem readAt_whole0 (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- After a last store through the whole-buffer rectangle the buffer reads as that store's payload. -/
theorem read_writes_whole0 [∀ e, Nonempty (Val e)] (v : View sig' κ sp S e) (f : v.ty.Contents Val) {off : Fin S.rank → Nat}
    (h : off = fun _ => 0) (inb : ∀ a, off a + S.size a ≤ S.size a) (P : S.Idx → Val e) (L : List (View.Piece Val S e)) :
    v.read Val (v.writes Val f ((⟨Rect.unit off S.size inb, P⟩ : View.Piece Val S e) :: L)) = P :=
  (View.read_writes_eq_canon v f _ fun y => ⟨_, List.mem_cons_self, View.mem_set_unit_zero h inb y⟩).trans
    (View.canon_cons_unit_zero h inb P L)

/-- A load through it after such a store reads the payload. -/
theorem readCov_whole0 [∀ e, Nonempty (Val e)] (v : View sig' κ sp S e) {off : Fin S.rank → Nat}
    (h : off = fun _ => 0) (inb : ∀ a, off a + S.size a ≤ S.size a) (P : S.Idx → Val e) (L : List (View.Piece Val S e)) :
    v.readCov ((⟨Rect.unit off S.size inb, P⟩ : View.Piece Val S e) :: L) (Rect.unit off S.size inb).toLoadRect = P := by
  rw [View.readCov_eq_canon_ld v _ _ fun y => ⟨_, List.mem_cons_self, View.mem_set_unit_zero h inb y⟩,
    View.canon_cons_unit_zero h inb, View.ld_unit_zero h inb]

end WholeRect

/-! ## The body's two conditions -/

/-- The condition of the body's first conditional (the reset of the accumulators), from the grid coordinates. -/
abbrev cond0_0 (i : grid0.Coords) : Prop := (Scalar.cmpi .ne (Scalar.extui (Scalar.cmpi .eq (BitVec.ofNat 32 (i 0).val) 0#32)) 0#32) = 1#1
/-- The condition of its second (the copy of the accumulators to the outputs). -/
abbrev cond0_1 (i : grid0.Coords) : Prop := k0_cond2 i = 1#1

/-! ## The three cases -/

set_option maxHeartbeats 1000000 in
/-- THE FIRST POINT (the reset taken, the copy not): the accumulators, found at anything, are zeroed and then
    take the first block's column sums; the sums' output blocks are handed back untouched. -/
theorem run0_A (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (hc0 : cond0_0 i) (hc1 : ¬cond0_1 i)
    (x : Vec F S1024x256 .f32) (w : Vec F S256x512 .f32) (b : Vec F S1x512 .f32)
    (xi5 xi6 : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare xi5 ∗ owns (c : Thread nD τ) arg6 fullShare xi6
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare w ∗ owns (c : Thread nD τ) arg3 fullShare b
            ∗ owns (c : Thread nD τ) arg4 fullShare (k0_pay3 x w b) ∗ owns (c : Thread nD τ) arg5 fullShare xi5 ∗ owns (c : Thread nD τ) arg6 fullShare xi6
            ∗ owns (c : Thread nD τ) arg7 fullShare (k0_pay4 x w b (k0_pay1 (F := F))) ∗ owns (c : Thread nD τ) arg8 fullShare (k0_pay5 x w b (k0_pay2 (F := F)))) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  subst hf1 hf2 hf3 hf5 hf6
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole0 arg4.view f4 off00, readAt_whole0 arg1.view f1 off00, readAt_whole0 arg2.view f2 off00, readAt_whole0 arg3.view f3 off00]
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole0 arg7.view f7 off00, readAt_whole0 arg1.view f1 off00, readAt_whole0 arg2.view f2 off00, readAt_whole0 arg3.view f3 off00]; unfold run0_A.sl.v12 run0_A.sl.H7_1; rw [readCov_whole0 arg7.view off00]
  · iexists _; isplitr
    swap; · iexact H8
    ipureintro
    rw [read_writes_whole0 arg8.view f8 off00, readAt_whole0 arg1.view f1 off00, readAt_whole0 arg2.view f2 off00, readAt_whole0 arg3.view f3 off00]; unfold run0_A.sl.v19 run0_A.sl.H8_1; rw [readCov_whole0 arg8.view off00]

set_option maxHeartbeats 1000000 in
/-- A MIDDLE POINT (neither conditional taken): the accumulators, found at `a1`, `a2`, take the block's column
    sums; the sums' output blocks are handed back untouched. -/
theorem run0_B (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (hc0 : ¬cond0_0 i) (hc1 : ¬cond0_1 i)
    (x : Vec F S1024x256 .f32) (w : Vec F S256x512 .f32) (b : Vec F S1x512 .f32)
    (xi5 xi6 a1 a2 : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare xi5 ∗ owns (c : Thread nD τ) arg6 fullShare xi6
        ∗ owns (c : Thread nD τ) arg7 fullShare a1 ∗ owns (c : Thread nD τ) arg8 fullShare a2
        ∗ (iprop(owns (c : Thread nD τ) arg1 fullShare x ∗ owns (c : Thread nD τ) arg2 fullShare w ∗ owns (c : Thread nD τ) arg3 fullShare b
            ∗ owns (c : Thread nD τ) arg4 fullShare (k0_pay3 x w b) ∗ owns (c : Thread nD τ) arg5 fullShare xi5 ∗ owns (c : Thread nD τ) arg6 fullShare xi6
            ∗ owns (c : Thread nD τ) arg7 fullShare (k0_pay4 x w b a1) ∗ owns (c : Thread nD τ) arg8 fullShare (k0_pay5 x w b a2)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  subst hf1 hf2 hf3 hf5 hf6 hf7 hf8
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole0 arg4.view f4 off00, readAt_whole0 arg1.view f1 off00, readAt_whole0 arg2.view f2 off00, readAt_whole0 arg3.view f3 off00]
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole0 arg7.view f7 off00, readAt_whole0 arg1.view f1 off00, readAt_whole0 arg2.view f2 off00, readAt_whole0 arg3.view f3 off00, readAt_whole0 arg7.view f7 off00]
  · iexists _; isplitr
    swap; · iexact H8
    ipureintro
    rw [read_writes_whole0 arg8.view f8 off00, readAt_whole0 arg1.view f1 off00, readAt_whole0 arg2.view f2 off00, readAt_whole0 arg3.view f3 off00, readAt_whole0 arg8.view f8 off00]

set_option maxHeartbeats 1000000 in
/-- THE LAST POINT (the copy taken, the reset not): the accumulators take the block's column sums and are then
    copied whole into the two sums' output blocks, found at anything. -/
theorem run0_C (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (hc0 : ¬cond0_0 i) (hc1 : cond0_1 i)
    (x : Vec F S1024x256 .f32) (w : Vec F S256x512 .f32) (b : Vec F S1x512 .f32)
    (a1 a2 : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a1 ∗ owns (c : Thread nD τ) arg8 fullShare a2
        ∗ (iprop(owns (c : Thread nD τ) arg1 fullShare x ∗ owns (c : Thread nD τ) arg2 fullShare w ∗ owns (c : Thread nD τ) arg3 fullShare b
            ∗ owns (c : Thread nD τ) arg4 fullShare (k0_pay3 x w b) ∗ owns (c : Thread nD τ) arg5 fullShare (k0_pay4 x w b a1) ∗ owns (c : Thread nD τ) arg6 fullShare (k0_pay5 x w b a2)
            ∗ owns (c : Thread nD τ) arg7 fullShare (k0_pay4 x w b a1) ∗ owns (c : Thread nD τ) arg8 fullShare (k0_pay5 x w b a2)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  subst hf1 hf2 hf3 hf7 hf8
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole0 arg4.view f4 off00, readAt_whole0 arg1.view f1 off00, readAt_whole0 arg2.view f2 off00, readAt_whole0 arg3.view f3 off00]
  isplitl [H5]
  · iexists _; isplitr
    swap; · iexact H5
    ipureintro
    rw [read_writes_whole0 arg5.view f5 off00]; unfold run0_C.sl.v30 run0_C.sl.H7_1; rw [readCov_whole0 arg7.view off00, readAt_whole0 arg1.view f1 off00, readAt_whole0 arg2.view f2 off00, readAt_whole0 arg3.view f3 off00, readAt_whole0 arg7.view f7 off00]
  isplitl [H6]
  · iexists _; isplitr
    swap; · iexact H6
    ipureintro
    rw [read_writes_whole0 arg6.view f6 off00]; unfold run0_C.sl.v32 run0_C.sl.H8_1; rw [readCov_whole0 arg8.view off00, readAt_whole0 arg1.view f1 off00, readAt_whole0 arg2.view f2 off00, readAt_whole0 arg3.view f3 off00, readAt_whole0 arg8.view f8 off00]
  isplitl [H7]
  · iexists _; isplitr
    swap; · iexact H7
    ipureintro
    unfold run0_C.sl.H7_1; rw [read_writes_whole0 arg7.view f7 off00, readAt_whole0 arg1.view f1 off00, readAt_whole0 arg2.view f2 off00, readAt_whole0 arg3.view f3 off00, readAt_whole0 arg7.view f7 off00]
  · iexists _; isplitr
    swap; · iexact H8
    ipureintro
    unfold run0_C.sl.H8_1; rw [read_writes_whole0 arg8.view f8 off00, readAt_whole0 arg1.view f1 off00, readAt_whole0 arg2.view f2 off00, readAt_whole0 arg3.view f3 off00, readAt_whole0 arg8.view f8 off00]

end Cert.KernelIdeal.Hand

end
-- ==== Proof.Mlp1.lean ====
import proofs.«121768_j5368709120801_1_alg».proof.Proof.Mlp1Run
import proofs.«121768_j5368709120801_1_alg».proof.Proof.Gen.KernelIdeal.Launch
import proofs.«121768_j5368709120801_1_alg».proof.Proof.Gen.KernelIdeal.Skeleton
import proofs.«121768_j5368709120801_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first layer's kernel (h = x·w1ᵀ + b1 per block of 1024 rows, with the column sums of h and
    of h² accumulated across the eight blocks), at the region-entry contents `V`. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-buffer rectangles the body loads and stores through -/

/-- All of a [1024, 256] buffer (the block of x). -/
abbrev rX0 : Rect S1024x256 := Rect.unit (s := S1024x256) ![0, 0] S1024x256.size inb_S1024x256_S1024x256_0_0
/-- All of a [256, 512] buffer (w1ᵀ). -/
abbrev rW0 : Rect S256x512 := Rect.unit (s := S256x512) ![0, 0] S256x512.size inb_S256x512_S256x512_0_0
/-- All of a [1, 512] buffer (b1; each accumulator; each of the two sums' output blocks). -/
abbrev rB0 : Rect S1x512 := Rect.unit (s := S1x512) ![0, 0] S1x512.size inb_S1x512_S1x512_0_0
/-- All of a [1024, 512] buffer (the block of h). -/
abbrev rH0 : Rect S1024x512 := Rect.unit (s := S1024x512) ![0, 0] S1024x512.size inb_S1024x512_S1024x512_0_0

/-! ## The accumulators, point by point -/

/-- What the two accumulators (the running column sums of h and of h²) hold after the first `n` points: they
    start from the zero rows, and every point adds its block's column sums. -/
def accAt0 (c : Dev nD) : ℕ → Vec F S1x512 .f32 × Vec F S1x512 .f32
  | 0 => (k0_pay1, k0_pay2)
  | n + 1 =>
    if h : n < cfg0.N then
      (k0_pay4 (iblk0 V c 0 ⟨n, h⟩) (iblk0 V c 1 ⟨n, h⟩) (iblk0 V c 2 ⟨n, h⟩) (accAt0 c n).1,
       k0_pay5 (iblk0 V c 0 ⟨n, h⟩) (iblk0 V c 1 ⟨n, h⟩) (iblk0 V c 2 ⟨n, h⟩) (accAt0 c n).2)
    else accAt0 c n

/-- After point `t` of the grid: that point's block's column sums added to what was there before it. -/
theorem accAt0_at (c : Dev nD) (t : Fin cfg0.N) :
    accAt0 V c (t.val + 1)
      = (k0_pay4 (iblk0 V c 0 t) (iblk0 V c 1 t) (iblk0 V c 2 t) (accAt0 V c t.val).1,
         k0_pay5 (iblk0 V c 0 t) (iblk0 V c 1 t) (iblk0 V c 2 t) (accAt0 V c t.val).2) :=
  (dif_pos t.isLt).trans rfl

/-- After one point: the first block's column sums added to the zero rows. -/
theorem accAt0_one (c : Dev nD) :
    accAt0 V c 1 = (k0_pay4 (iblk0 V c 0 t0_0) (iblk0 V c 1 t0_0) (iblk0 V c 2 t0_0) (k0_pay1 (F := F)),
                    k0_pay5 (iblk0 V c 0 t0_0) (iblk0 V c 1 t0_0) (iblk0 V c 2 t0_0) (k0_pay2 (F := F))) :=
  accAt0_at V c t0_0

/-- After a later point: that point's block's column sums added to what the points before left. -/
theorem accAt0_succ (c : Dev nD) (n : ℕ) (hn : n + 1 < 8) :
    accAt0 V c (n + 2)
      = (k0_pay4 (iblk0 V c 0 ⟨n + 1, lt_of_lt_of_eq hn N_0.symm⟩) (iblk0 V c 1 ⟨n + 1, lt_of_lt_of_eq hn N_0.symm⟩) (iblk0 V c 2 ⟨n + 1, lt_of_lt_of_eq hn N_0.symm⟩) (accAt0 V c (n + 1)).1,
         k0_pay5 (iblk0 V c 0 ⟨n + 1, lt_of_lt_of_eq hn N_0.symm⟩) (iblk0 V c 1 ⟨n + 1, lt_of_lt_of_eq hn N_0.symm⟩) (iblk0 V c 2 ⟨n + 1, lt_of_lt_of_eq hn N_0.symm⟩) (accAt0 V c (n + 1)).2) :=
  accAt0_at V c ⟨n + 1, lt_of_lt_of_eq hn N_0.symm⟩

/-- The two components after point `t`, -/
theorem accAt0_fst (c : Dev nD) (t : Fin cfg0.N) :
    (accAt0 V c (t.val + 1)).1 = k0_pay4 (iblk0 V c 0 t) (iblk0 V c 1 t) (iblk0 V c 2 t) (accAt0 V c t.val).1 := by
  rw [accAt0_at]
theorem accAt0_snd (c : Dev nD) (t : Fin cfg0.N) :
    (accAt0 V c (t.val + 1)).2 = k0_pay5 (iblk0 V c 0 t) (iblk0 V c 1 t) (iblk0 V c 2 t) (accAt0 V c t.val).2 := by
  rw [accAt0_at]
/-- and before the first point: the zero rows. -/
theorem accAt0_fst_zero (c : Dev nD) (n : ℕ) (h0 : n = 0) : (accAt0 V c n).1 = k0_pay1 := by subst h0; rfl
theorem accAt0_snd_zero (c : Dev nD) (n : ℕ) (h0 : n = 0) : (accAt0 V c n).2 = k0_pay2 := by subst h0; rfl

/-! ## The invariant between points -/

/-- The two accumulators, as the kernel is handed them: whole scoped buffers of its own. -/
abbrev scM0_0 : Memref sig .tc .vmem S1x512 .f32 := Memref.whole cc0_scratch0
abbrev scM0_1 : Memref sig .tc .vmem S1x512 .f32 := Memref.whole cc0_scratch1

/-- The core's other scoped buffers that are no staging buffer of this region (the later regions' staging
    buffers), each whole at some contents: the body touches none of them. -/
def restTail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The region's invariant before position `n`: before the first point the scoped rest at anything; afterwards
    the two accumulators at what the points so far have summed, the other scoped buffers at anything, and the
    generator register at some state. -/
def PhiS0 (c : Dev nD) : ℕ → sProp 𝕄
  | 0 => Pipeline.ΦA spec0 c
  | n + 1 => iprop((owns (c : Thread nD τ) scM0_0 fullShare (accAt0 V c (n + 1)).1
      ∗ owns (c : Thread nD τ) scM0_1 fullShare (accAt0 V c (n + 1)).2 ∗ restTail0 (F := F) c) ∗ (∃ r, prngReg c r))

theorem PhiS0_zero (c : Dev nD) (n : ℕ) (hz : n = 0) : PhiS0 V c n = Pipeline.ΦA spec0 c := by
  subst hz; rfl

/-- Before a point that is not the first: the accumulators at what the points before have summed. -/
theorem PhiS0_pos (c : Dev nD) (n : ℕ) (hz : n ≠ 0) :
    PhiS0 V c n = iprop((owns (c : Thread nD τ) scM0_0 fullShare (accAt0 V c n).1
      ∗ owns (c : Thread nD τ) scM0_1 fullShare (accAt0 V c n).2 ∗ restTail0 (F := F) c) ∗ (∃ r, prngReg c r)) := by
  cases n with
  | zero => exact absurd rfl hz
  | succ n => rfl

/-- The scoped rest with the two accumulators set apart as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)
          ∗ restTail0 (F := F) c) ∗ (∃ r, prngReg c r)) := by
  unfold Pipeline.ΦA restTail0; rw [scopedRest0_eq]; simp only [scM0_0, scM0_1, owns_whole]; try rfl

/-! ## The pipeline's proof data -/

/-- The proof data of this region's pipeline on core `c`: the arrays as the region finds them; after the body at
    point `t` each input's buffer at its block, the block of h at the one store of x·w1ᵀ + b1, the two sums'
    output blocks at the one copy of the accumulators (read only at the last point, where they are written back);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => View.canon [⟨rH0, k0_pay3 (View.ld (iblk0 V c 0 t) rX0) (View.ld (iblk0 V c 1 t) rW0) (View.ld (iblk0 V c 2 t) rB0)⟩]
    | ⟨4, _⟩ => View.canon [⟨rB0, (accAt0 V c (t.val + 1)).1⟩]
    | ⟨5, _⟩ => View.canon [⟨rB0, (accAt0 V c (t.val + 1)).2⟩]
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t
    = View.canon [⟨rH0, k0_pay3 (View.ld (iblk0 V c 0 t) rX0) (View.ld (iblk0 V c 1 t) rW0) (View.ld (iblk0 V c 2 t) rB0)⟩] := by dsimp only [dat0]
theorem after0_4 (c : Dev nD) (t : Fin cfg0.N) : (dat0 V c).after 4 t = View.canon [⟨rB0, (accAt0 V c (t.val + 1)).1⟩] := by dsimp only [dat0]
theorem after0_5 (c : Dev nD) (t : Fin cfg0.N) : (dat0 V c).after 5 t = View.canon [⟨rB0, (accAt0 V c (t.val + 1)).2⟩] := by dsimp only [dat0]

/-- The same with the whole-buffer loads and the covering stores read through: the block of h is x·w1ᵀ + b1 of
    the point's input blocks, -/
theorem after0_3_clean (c : Dev nD) (t : Fin cfg0.N) : (dat0 V c).after 3 t
    = k0_pay3 (iblk0 V c 0 t) (iblk0 V c 1 t) (iblk0 V c 2 t) := by
  rw [after0_3, View.canon_unit_zero (S := S1024x512) off00, View.ld_unit_zero (S := S1024x256) off00,
    View.ld_unit_zero (S := S256x512) off00, View.ld_unit_zero (S := S1x512) off00]
/-- and the sums' output blocks are the accumulators after the point. -/
theorem after0_4_clean (c : Dev nD) (t : Fin cfg0.N) : (dat0 V c).after 4 t = (accAt0 V c (t.val + 1)).1 := by
  rw [after0_4, View.canon_unit_zero (S := S1x512) off00]
theorem after0_5_clean (c : Dev nD) (t : Fin cfg0.N) : (dat0 V c).after 5 t = (accAt0 V c (t.val + 1)).2 := by
  rw [after0_5, View.canon_unit_zero (S := S1x512) off00]

/-! ## What the body finds in the inputs' buffers -/

/-- Each input's current staging buffer holds its block at every point, fetched there or not: the body leaves the
    block in place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The conditions, and where the two sums' windows are idle, point by point -/

/-- The reset is taken at the first point only, -/
theorem hcond0_0 : ∀ t : Fin cfg0.N, cond0_0 (grid0.coords t) ↔ t.val = 0 :=
  (by decide +kernel : ∀ t : Fin grid0.N, cond0_0 (grid0.coords t) ↔ t.val = 0)
/-- the copy at the last point only. -/
theorem hcond0_1 : ∀ t : Fin cfg0.N, cond0_1 (grid0.coords t) ↔ t.val = 7 :=
  (by decide +kernel : ∀ t : Fin grid0.N, cond0_1 (grid0.coords t) ↔ t.val = 7)

/-- The inputs' windows and the window of h are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy is not taken the two sums' windows are idle and not written back; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- where it is taken they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' memrefs hold their blocks; the point is the first, the last or one between,
    which decides the two conditionals and so which case of the kernel's run applies; the invariant hands the body
    the accumulators at what the points before have summed (at anything before the first point, where the body
    resets them) and takes them back with this point's block added; where the copy is not taken the two sums'
    windows are idle and their buffers go back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [PhiS0_pos V c (t.val + 1) (Nat.succ_ne_zero _), accAt0_fst, accAt0_snd]
  rw [show (dat0 V c).leavesExact 0 t = owns (c : Thread nD τ) (st0_0 t) fullShare ((dat0 V c).after 0 t) from by
        unfold Dat.leavesExact; rw [liveAt0_0 t], after0_0]
  rw [show (dat0 V c).leavesExact 1 t = owns (c : Thread nD τ) (st0_1 t) fullShare ((dat0 V c).after 1 t) from by
        unfold Dat.leavesExact; rw [liveAt0_1 t], after0_1]
  rw [show (dat0 V c).leavesExact 2 t = owns (c : Thread nD τ) (st0_2 t) fullShare ((dat0 V c).after 2 t) from by
        unfold Dat.leavesExact; rw [liveAt0_2 t], after0_2]
  rw [show (dat0 V c).leavesExact 3 t = owns (c : Thread nD τ) (st0_3 t) fullShare ((dat0 V c).after 3 t) from by
        unfold Dat.leavesExact; rw [liveAt0_3 t], after0_3_clean]
  have hN : t.val < 8 := lt_of_lt_of_eq t.isLt (show cfg0.N = 8 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [PhiS0_zero V c _ h0, PhiA0_eq, accAt0_fst_zero V c _ h0, accAt0_snd_zero V c _ h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (run0_A c Set.univ (grid0.coords t) _ _ _ _ _ _ _ _ _ _ _ _ _ _ _ _ hc0 hc1 (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS0_pos V c _ h0]
    by_cases h7 : t.val = 7
    · have hc0 : ¬cond0_0 (grid0.coords t) := fun h => h0 ((hcond0_0 t).mp h)
      have hc1 : cond0_1 (grid0.coords t) := (hcond0_1 t).mpr h7
      rw [show (dat0 V c).leavesExact 4 t = owns (c : Thread nD τ) (st0_4 t) fullShare ((dat0 V c).after 4 t) from by
        unfold Dat.leavesExact; rw [liveAt0_4 t hc1], after0_4_clean, accAt0_fst]
      rw [show (dat0 V c).leavesExact 5 t = owns (c : Thread nD τ) (st0_5 t) fullShare ((dat0 V c).after 5 t) from by
        unfold Dat.leavesExact; rw [liveAt0_5 t hc1], after0_5_clean, accAt0_snd]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_C c Set.univ (grid0.coords t) _ _ _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => h0 ((hcond0_0 t).mp h)
      have hc1 : ¬cond0_1 (grid0.coords t) := fun h => h7 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_B c Set.univ (grid0.coords t) _ _ _ _ _ _ _ _ _ _ _ _ _ _ _ _ hc0 hc1 (iblk0 V c 0 t) (iblk0 V c 1 t) (iblk0 V c 2 t) _ _ _ _ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-! ## The body obligation, the entry and the exit of the invariant -/

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the scoped rest back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 8 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.KernelIdeal.Hand

end
-- ==== Proof.Mlp2.lean ====
/-
  The second custom call of the program (pipeline 1, a grid of 8 row blocks): what its body does to the staging
  buffers, generically in the float family. The body reads each of its seven input blocks once and stores one
  whole block — the rectified, normalised hidden rows times the second weight matrix plus the second bias — into
  the output window's buffer. Stated at a parameter `V`, the TensorCore's buffer contents when the region is
  entered: each window's block at a point, the output buffer after the body as a function of the input blocks,
  the body's triple, the pipeline's proof data and the body obligation at every point.
-/
import proofs.«121768_j5368709120801_1_alg».proof.Proof.Gen.KernelIdeal.Launch
import proofs.«121768_j5368709120801_1_alg».proof.Proof.Gen.KernelIdeal.Skeleton
import proofs.«121768_j5368709120801_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_S1024x512 : Rect S1024x512 := Rect.unit (s := S1024x512) ![0, 0] S1024x512.size inb_S1024x512_S1024x512_0_0
abbrev r1_S1x512 : Rect S1x512 := Rect.unit (s := S1x512) ![0, 0] S1x512.size inb_S1x512_S1x512_0_0
abbrev r1_S512x128 : Rect S512x128 := Rect.unit (s := S512x128) ![0, 0] S512x128.size inb_S512x128_S512x128_0_0
abbrev r1_S1x128 : Rect S1x128 := Rect.unit (s := S1x128) ![0, 0] S1x128.size inb_S1x128_S1x128_0_0
abbrev r1_S1024x128 : Rect S1024x128 := Rect.unit (s := S1024x128) ![0, 0] S1024x128.size inb_S1024x128_S1024x128_0_0

/-! ## What the body leaves in the output window's buffer -/

/-- Window 7's staging buffer after the body, from the input windows' blocks: its one store, of the payload over
    what the seven loads read. -/
def out1_7 (x0 : Vec F S1024x512 .f32) (x1 x2 x3 x4 : Vec F S1x512 .f32) (x5 : Vec F S512x128 .f32) (x6 : Vec F S1x128 .f32) : Vec F S1024x128 .f32 :=
  View.canon [⟨r1_S1024x128, k1_pay1 (View.ld x0 r1_S1024x512) (View.ld x1 r1_S1x512) (View.ld x2 r1_S1x512) (View.ld x3 r1_S1x512) (View.ld x4 r1_S1x512) (View.ld x5 r1_S512x128) (View.ld x6 r1_S1x128)⟩]

/-- The store tiles the buffer, so it covers it. -/
theorem cover1_7 (p0 : Vec F S1024x128 .f32) (y : S1024x128.Idx) :
    ∃ pc ∈ ([⟨r1_S1024x128, p0⟩] : List (View.Piece (Elt F) S1024x128 .f32)), y ∈ pc.1.set :=
  View.cover_of_tiled [⟨r1_S1024x128, p0⟩] S1024x128.size (by rfl) y

/-! ## The body's triple -/

set_option maxHeartbeats 4000000 in
/-- The body on whole staging memrefs, the inputs' at read contents `xW` and the output's at anything, runs to the
    continuation holding the inputs' as they were and the output's at `out1_7` of the inputs'. -/
theorem sound_kernel1 (c : Dev nD) (E : Set ℕ) (i : grid1.Coords)
    (arg0 : Memref sig .tc .vmem S1024x512 .f32) (harg0 : arg0.IsWhole) (arg1 : Memref sig .tc .vmem S1x512 .f32) (harg1 : arg1.IsWhole)
    (arg2 : Memref sig .tc .vmem S1x512 .f32) (harg2 : arg2.IsWhole) (arg3 : Memref sig .tc .vmem S1x512 .f32) (harg3 : arg3.IsWhole)
    (arg4 : Memref sig .tc .vmem S1x512 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (x0 : Vec F S1024x512 .f32) (x1 x2 x3 x4 : Vec F S1x512 .f32) (x5 : Vec F S512x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp2_kernel i arg0 harg0 arg1 harg1 arg2 harg2 arg3 harg3 arg4 harg4 arg5 harg5 arg6 harg6 arg7 harg7) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Adj.lean ====
import proofs.«121768_j5368709120801_1_alg».proof.Proof.Gen.KernelIdeal.Launch
import proofs.«121768_j5368709120801_1_alg».proof.Proof.Gen.KernelIdeal.Skeleton
import proofs.«121768_j5368709120801_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third custom call (the pairwise-score kernel), pipeline 2, on a 16 × 16 grid

Both input windows of this call read ONE array (the embeddings): window 0 the row block of the point's first
coordinate, window 1 the row block of its second. The core therefore holds that array's ownership in two halves,
one per input window, for as long as the pipeline runs; the output window's array is held whole. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the window
    is not fetched its block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x128 := Rect.unit (s := S512x128) ![0, 0] S512x128.size inb_S512x128_S512x128_0_0
abbrev r2_2 : Rect S512x512 := Rect.unit (s := S512x512) ![0, 0] S512x512.size inb_S512x512_S512x512_0_0

/-! ## What the body leaves in the output window's buffer -/

/-- The output window's staging buffer after the body at the point of coordinates `i`, from the two input blocks:
    its one whole-block store, whose payload reads the coordinates (the strict-upper-triangle mask compares global
    row and column numbers). -/
def out2_2 (i : grid2.Coords) (x0 x1 : Vec F S512x128 .f32) : Vec F S512x512 .f32 :=
  View.canon [⟨r2_2, k2_pay1 i (View.ld x0 r2_0) (View.ld x1 r2_0)⟩]

/-- The one store covers the buffer. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's triple -/

set_option maxHeartbeats 1000000 in
/-- The kernel body on whole staging memrefs — the two inputs' at read contents `x0`, `x1`, the output's at anything —
    runs to the continuation holding the inputs' as they were and the output's at `out2_2 i x0 x1`. -/
theorem sound_kernel2 (c : Dev nD) (E : Set ℕ) (i : grid2.Coords)
    (arg2 : Memref sig .tc .vmem S512x128 .f32) (harg2 : arg2.IsWhole) (arg3 : Memref sig .tc .vmem S512x128 .f32) (harg3 : arg3.IsWhole)
    (arg4 : Memref sig .tc .vmem S512x512 .f32) (harg4 : arg4.IsWhole)
    (x0 x1 : Vec F S512x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 i x0 x1)) -∗ K ⟨⟩))
      ⊢ wp frame (wpE (defs₀ (F := F)) Variants.none c none) E (cc2__adj_kernel i arg2 harg2 arg3 harg3 arg4 harg4) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the point's coordinates and the two input blocks;
    the invariant the scoped rest and the generator register, untouched; nothing owed; the one input array's
    ownership halved between the two windows that read it, the output's array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

/-- The shares: the two halves of the full share for the two windows on the one input array, the full share for the
    output's. -/
theorem share2_0 (c : Dev nD) : (dat2 V c).share 0 = fullShare.left := by unfold Dat.share; rfl
theorem share2_1 (c : Dev nD) : (dat2 V c).share 1 = fullShare.right := by unfold Dat.share; rfl
theorem share2_2 (c : Dev nD) : (dat2 V c).share 2 = fullShare := by unfold Dat.share; rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The region's arrays, one by one -/

/-- The two arrays the three windows name. -/
theorem arr_image2 : Finset.univ.image (Pipeline.arrRef spec2) = ([main_v16, main_v17] : List (Ref sig .tc)).toFinset := by decide

/-- The buffers behind the windows' arrays, each whole: the input array and the output array. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_v16) ↦{fullShare} V' main_v16) ∗ (((c : Thread nD τ).loc main_v17) ↦{fullShare} V' main_v17)) := by
  unfold Pipeline.arrBufs
  exact bigSep_eq_bigSepL_of_eq [main_v16, main_v17] arr_image2 (by decide) _

/-- The proof data's arrays at contents `G`: the input array at the left half of the full share for window 0 and at
    the right half for window 1, the output array whole. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v16) ↦{fullShare.left} G 0) ∗ (((c : Thread nD τ).loc main_v16) ↦{fullShare.right} G 1)
          ∗ (((c : Thread nD τ).loc main_v17) ↦{fullShare} G 2)) := by
  unfold Dat.arrays
  rw [bigSep_W2, (arr_whole2 0).set_eq_univ, (arr_whole2 2).set_eq_univ, share2_0, share2_1, share2_2]

end Region2

/-! ## The region's arrays out of the core's unscoped buffers, and back

The thread state between two items of the program holds every unscoped buffer whole at a valuation `W`. At the region's
entry the two arrays the windows name are taken out of it — the input array's full share split in its two halves, one
per window —, the other buffers staying behind; at the exit the halves are joined again and the output array, at what the
write-backs left, is put back. -/

section InOut
variable (W : Dev nD → Valuation τ sig (Elt F))

/-- The region-entry contents the proof data take: the valuation read at the TensorCore's references. -/
abbrev VofW : (c : Dev nD) → (b : Ref sig .tc) → Buf (Elt F) ((c : Thread nD τ).loc b) := fun c b => W c b

/-- Every unscoped buffer that is neither of the region's two arrays, whole at the valuation's contents. -/
def rest2 (c : Dev nD) (W : Valuation τ sig (Elt F)) : sProp 𝕄 :=
  Pipeline.unscopedRest (Ix := Unit) (Name := ℕ) (U := UR sig nD τ) (Lvl := ℕ) spec2 c (fun b => W b)

/-- ENTRY: every unscoped buffer whole at `W` is the proof data's arrays at their entry contents — the input array's
    full share split in its two halves — beside the other unscoped buffers. -/
theorem split2 (c : Dev nD) :
    StableHlo.held (c : Thread nD τ) (Pipeline.ucRefs τ sig) (W c)
      ⊢ (iprop((dat2 (VofW W) c).arrays ((dat2 (VofW W) c).arrAt · 0) ∗ rest2 c (W c)) : sProp 𝕄) := by
  rw [← Pipeline.unscopedBufs_held (Ix := Unit) (Name := ℕ) (U := UR sig nD τ) (Lvl := ℕ) c (W c),
    Pipeline.unscopedBufs_split₀ cfgs 2 winFacts₀2.arr_unscoped c (fun b => W c b)]
  refine sep_mono (?_ : (Pipeline.arrBufs (Ix := Unit) (Name := ℕ) (U := UR sig nD τ) (Lvl := ℕ) spec2 c (VofW W c) : sProp 𝕄) ⊢ _) .rfl
  rw [arrBufs2_eq, arrays2_eq]
  rw [show (dat2 (VofW W) c).arrAt 0 0 = (dat2 (VofW W) c).A 0 from rfl, show (dat2 (VofW W) c).arrAt 1 0 = (dat2 (VofW W) c).A 1 from rfl,
    show (dat2 (VofW W) c).arrAt 2 0 = (dat2 (VofW W) c).A 2 from rfl, A_eq2, A_eq2, A_eq2]
  iintro ⟨H16, H17⟩
  ihave H := (pointsTo_share (PosShare.mem_left_op_right fullShare)).1 $$ H16
  icases H with ⟨Hl, Hr⟩
  isplitl [Hl]; · iexact Hl
  isplitl [Hr]; · iexact Hr
  iexact H17

/-- EXIT: the arrays at what the write-backs leave — the input array unchanged, its two halves joined again — and the
    other unscoped buffers are every unscoped buffer whole at `W` updated at the output array. -/
theorem join2 (c : Dev nD) :
    (iprop((dat2 (VofW W) c).arrays ((dat2 (VofW W) c).arrAt · cfg2.N) ∗ rest2 c (W c)) : sProp 𝕄)
      ⊢ StableHlo.held (c : Thread nD τ) (Pipeline.ucRefs τ sig)
          (Function.update (W c) (Proc.devRef .tc main_v17) ((dat2 (VofW W) c).arrAt 2 cfg2.N)) := by
  rw [arrays2_eq, (dat2 (VofW W) c).arrAt_in 0 rfl, (dat2 (VofW W) c).arrAt_in 1 rfl, A_eq2, A_eq2]
  generalize (dat2 (VofW W) c).arrAt 2 cfg2.N = X
  rw [← Pipeline.unscopedBufs_held (Ix := Unit) (Name := ℕ) (U := UR sig nD τ) (Lvl := ℕ) c (Function.update (W c) (Proc.devRef .tc main_v17) X),
    Pipeline.unscopedBufs_split₀ cfgs 2 winFacts₀2.arr_unscoped c (fun b => Function.update (W c) (Proc.devRef .tc main_v17) X b)]
  refine sep_mono (?_ : _ ⊢ (Pipeline.arrBufs (Ix := Unit) (Name := ℕ) (U := UR sig nD τ) (Lvl := ℕ) spec2 c
      (fun b => Function.update (W c) (Proc.devRef .tc main_v17) X b) : sProp 𝕄)) (Entails.of_eq ?_)
  · rw [arrBufs2_eq, Function.update_self,
      Function.update_of_ne (StableHlo.devRef_ne_of_ne (by decide) : (Proc.devRef .tc main_v16 : DevRef τ sig) ≠ Proc.devRef .tc main_v17)]
    iintro ⟨Hl, Hr, H17⟩
    isplitl [Hl Hr]
    · iapply (pointsTo_share (PosShare.mem_left_op_right fullShare)).2
      isplitl [Hl]; · iexact Hl
      iexact Hr
    iexact H17
  · unfold rest2 Pipeline.unscopedRest
    exact bigSep_congr fun b hb => by
      have hne : b ≠ main_v17 := fun e => (Finset.mem_sdiff.mp hb).2 (by rw [arr_image2, e]; decide)
      beta_reduce
      rw [Function.update_of_ne (StableHlo.devRef_ne_of_ne hne)]

end InOut

end Cert.KernelIdeal.Hand

end
-- ==== Proof.Bounds.lean ====
/-
  The contents of the TensorCore's buffers at every boundary between two items of the program, as a fold from the
  launch memory: a host stretch rewrites the buffers its operations write and leaves the rest; a kernel region leaves
  its windows' arrays at what the pipeline's write-backs leave and every other buffer as it was. Definitions and
  their first consequences only.
-/
import proofs.«121768_j5368709120801_1_alg».proof.Proof.Mlp1
import proofs.«121768_j5368709120801_1_alg».proof.Proof.Mlp2
import proofs.«121768_j5368709120801_1_alg».proof.Proof.Adj
import proofs.«121768_j5368709120801_1_alg».proof.Proof.Gen.KernelIdeal.Regions
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary between two items of the program: a fold from the launch memory -/

/-- Core `c`'s buffers at launch. -/
abbrev W0 : Dev nD → Valuation τ sig (Elt F) := fun c b => m ((c : Thread nD τ).1, b)
/-- After the first host stretch (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves, and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
/-- The same read at the TensorCore's references (what region 1's proof data take). -/
abbrev V3 : (c : Dev nD) → (b : Ref sig .tc) → Buf (Elt F) ((c : Thread nD τ).loc b) := fun c b => W3 m c b
/-- At region 1's exit (which is region 2's entry: no host operation stands between the two): its arrays at what the
    pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents, and what region 2's proof data take). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its one output array at what the pipeline's write-backs leave, every other buffer (the
    array its two input windows read among them) as entered. -/
def W5 (c : Dev nD) : Valuation τ sig (Elt F) :=
  Function.update (W4 m c) (Proc.devRef .tc main_v17) ((dat2 (V4 m) c).arrAt 2 cfg2.N)
theorem W5_v17 (c : Dev nD) : W5 m c (Proc.devRef .tc main_v17) = (dat2 (V4 m) c).arrAt 2 cfg2.N := by
  unfold W5; exact Function.update_self _ _ _
theorem W5_of_ne (c : Dev nD) (b : Ref sig .tc) (hb : b ≠ main_v17) :
    W5 m c (Proc.devRef .tc b) = W4 m c (Proc.devRef .tc b) := by
  unfold W5; exact Function.update_of_ne (StableHlo.devRef_ne_of_ne hb) _ _
/-- The same read at the TensorCore's references (region 2's exit contents). -/
abbrev V5 : (c : Dev nD) → (b : Ref sig .tc) → Buf (Elt F) ((c : Thread nD τ).loc b) := fun c b => W5 m c b

/-- After the last host stretch: the contents the program returns with. -/
abbrev W6 : Dev nD → Valuation τ sig (Elt F) := fun c => StableHlo.after hostOps3 (W5 m c)
/-- The same read at the TensorCore's references. -/
abbrev V6 : (c : Dev nD) → (b : Ref sig .tc) → Buf (Elt F) ((c : Thread nD τ).loc b) := fun c b => W6 m c b

/-! ## The arguments end as launched

No host operation writes an argument, and no region has one among its output arrays, so the fold at an argument's
buffer walks back to the launch memory. -/

/-- `main_arg0` ends as launched: no host stretch writes it, region 0 only reads it (through an input window) and no other region has it among its arrays. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- `main_arg1` ends as launched: no host stretch writes it and no region has it among its arrays. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` ends as launched: no host stretch writes it and no region has it among its arrays. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` ends as launched: no host stretch writes it and no region has it among its arrays. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` ends as launched: no host stretch writes it and no region has it among its arrays. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` ends as launched: no host stretch writes it and no region has it among its arrays. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` ends as launched: no host stretch writes it and no region has it among its arrays. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` ends as launched: no host stretch writes it and no region has it among its arrays. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps3 _ hostOps3_writes (by decide)
    _ = W4 m c (Proc.devRef .tc main_arg7) := W5_of_ne m c main_arg7 (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

end Cert.KernelIdeal.Hand

end
-- ==== Proof.RunBase.lean ====
/-
  What the launch of the whole program is assembled from, shared by its three kernel regions: the family of the
  pipelines' proof data (each at the contents its region is entered from), the thread state that rides beside the
  buffers (the generator register, nothing owed), and a host stretch as an item of the program.
-/
import proofs.«121768_j5368709120801_1_alg».proof.Proof.Bounds
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

/-- Every pipeline's proof data, each at its region's entry contents: a literal case split on the pipeline, so that
    the family at a numeral reduces to that region's data. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)

/-- A host stretch as an item: its operations run over the unscoped buffers held whole at the contents `W`, `R`
    riding along, and leave them at the contents the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's contents, the
    generator register at some state. -/
abbrev Tₙ (c : Dev nD) : sProp 𝕄 := iprop(StableHlo.held (c : Thread nD τ) (Pipeline.ucRefs τ sig) (W6 m c) ∗ ∃ r, prngReg c r)

end Cert.KernelIdeal.Hand

end
-- ==== Proof.RunReg0.lean ====
/-
  The first custom call as an item of the program: the kernel region entered from every unscoped buffer held whole at
  the contents the first host stretch leaves, and left with its windows' arrays at what the pipeline's write-backs leave.
-/
import proofs.«121768_j5368709120801_1_alg».proof.Proof.RunBase
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 0 (the first custom call) over the thread state: entered from every unscoped buffer at `W1`, left at `W2`.
    Its arrays are split out of the unscoped buffers and put back at the exit contents; the generator register and the
    scoped rest go into the region's invariant at the first point and come out of it after the last; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg1.lean ====
/-
  The second custom call as an item of the program: the kernel region entered from every unscoped buffer held whole at
  the contents the second host stretch leaves, and left with its windows' arrays at what the pipeline's write-backs leave.
-/
import proofs.«121768_j5368709120801_1_alg».proof.Proof.RunBase
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 1 (the second custom call) over the thread state: entered from every unscoped buffer at `W3`, left at `W4`,
    which the third custom call is entered from directly. Its arrays are split out of the unscoped buffers and put
    back at the exit contents; the generator register goes into the region's invariant and out; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg2.lean ====
/-
  The third custom call as an item of the program: the kernel region entered directly from what the second custom call
  leaves, its two input windows reading one array, and left with its output array at what the write-backs leave.
-/
import proofs.«121768_j5368709120801_1_alg».proof.Proof.RunBase
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 2 (the third custom call) over the thread state: entered from every unscoped buffer at `W4`, left at `W5`.
    Its two input windows read ONE array, so the arrays are not pairwise distinct buffers: at the entry that array's
    ownership is split in two halves, one per input window, and at the exit the halves are joined again, the output
    array put back at what the write-backs left. The generator register goes into the region's invariant and out;
    nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := rest2 c (W4 m c)
  hentry c := by
    rw [Pipeline.ownSems0_none]
    have hsplit : StableHlo.held (c : Thread nD τ) (Pipeline.ucRefs τ sig) (W4 m c)
        ⊢ (iprop((pdats m 2 c).arrays ((pdats m 2 c).arrAt · 0) ∗ rest2 c (W4 m c)) : sProp 𝕄) := split2 (W4 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays ((pdats m 2 c).arrAt · cfg2.N) ∗ rest2 c (W4 m c)) : sProp 𝕄)
        ⊢ StableHlo.held (c : Thread nD τ) (Pipeline.ucRefs τ sig) (W5 m c) := join2 (W4 m) c
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

end Cert.KernelIdeal.Hand

end
-- ==== Proof.Run.lean ====
/-
  The launch of the whole program: its six items in order (three host stretches, three kernel regions), each entered
  from the thread state the one before it leaves, from the launch memory to the return; at the return every unscoped
  buffer of every core holds the last boundary's contents.
-/
import proofs.«121768_j5368709120801_1_alg».proof.Proof.RunReg0
import proofs.«121768_j5368709120801_1_alg».proof.Proof.RunReg1
import proofs.«121768_j5368709120801_1_alg».proof.Proof.RunReg2
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as items, and the launch -/

/-- The program's six items in order: a host stretch from its boundary's contents, a region per custom call; the
    second and the third custom call follow each other directly. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]

/-- The program IS the run of its items. -/
theorem main_run (c : Dev nD) : main (F := F) c = Pipeline.Seg.run (segs m) := (main_chain c).trans (by chain_rfl)

set_option backward.isDefEq.respectTransparency.types false in
/-- THE RUN. At the compiled mesh, from any memory with zero counters, every weakly fair execution of the program on
    the TensorCores terminates, nothing faulting, and every final state holds EVERY unscoped buffer of every core at the
    last boundary's contents `W6`: the launch over the items, each item entered from what the one before it left, the
    last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c b hb => h c b hb)

end Cert.KernelIdeal.Hand

end
-- ==== Proof.Bits.Mlp1Run.lean ====
import proofs.«121768_j5368709120801_1_alg».proof.Proof.Gen.Kernel.Launch
import proofs.«121768_j5368709120801_1_alg».proof.Proof.Gen.Kernel.Skeleton
import proofs.«121768_j5368709120801_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel body on any whole staging memrefs

One triple per case of the body's two conditionals on the grid point: the first point (the accumulators reset), a middle
point (neither), the last point (the accumulators copied to the two sums' output blocks). Each is stated over the
contents read through the memrefs: the inputs at `x`, `w`, `b`; the block of h left at x·w1ᵀ + b1
(`k0_pay3 x w b`); each accumulator left at its contents before plus the block's column sums
(`k0_pay4`, `k0_pay5`); an output block the case does not store into handed back as found. -/

/-! ## Whole-buffer loads and stores, read back

The body loads and stores every buffer through the rectangle that is all of it (zero offsets, the buffer's own
extents). A load through it reads the contents; a store through it, made last, leaves its payload; a load after such
a store reads that payload. -/

section WholeRect

variable {sig' : RefSig} {κ : Kind} {sp : Space} {S : Shape} {e : EltTy} {Val : EltTy → Type}

/-- The zero offsets of a rank-2 buffer, as a constant function. -/
theorem off00 : (![0, 0] : Fin 2 → Nat) = fun _ => 0 := funext fun a => by fin_cases a <;> rfl

/-- A load through the whole-buffer rectangle reads the buffer. -/
theorem readAt_whole0 (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- After a last store through the whole-buffer rectangle the buffer reads as that store's payload. -/
theorem read_writes_whole0 [∀ e, Nonempty (Val e)] (v : View sig' κ sp S e) (f : v.ty.Contents Val) {off : Fin S.rank → Nat}
    (h : off = fun _ => 0) (inb : ∀ a, off a + S.size a ≤ S.size a) (P : S.Idx → Val e) (L : List (View.Piece Val S e)) :
    v.read Val (v.writes Val f ((⟨Rect.unit off S.size inb, P⟩ : View.Piece Val S e) :: L)) = P :=
  (View.read_writes_eq_canon v f _ fun y => ⟨_, List.mem_cons_self, View.mem_set_unit_zero h inb y⟩).trans
    (View.canon_cons_unit_zero h inb P L)

/-- A load through it after such a store reads the payload. -/
theorem readCov_whole0 [∀ e, Nonempty (Val e)] (v : View sig' κ sp S e) {off : Fin S.rank → Nat}
    (h : off = fun _ => 0) (inb : ∀ a, off a + S.size a ≤ S.size a) (P : S.Idx → Val e) (L : List (View.Piece Val S e)) :
    v.readCov ((⟨Rect.unit off S.size inb, P⟩ : View.Piece Val S e) :: L) (Rect.unit off S.size inb).toLoadRect = P := by
  rw [View.readCov_eq_canon_ld v _ _ fun y => ⟨_, List.mem_cons_self, View.mem_set_unit_zero h inb y⟩,
    View.canon_cons_unit_zero h inb, View.ld_unit_zero h inb]

end WholeRect

/-! ## The body's two conditions -/

/-- The condition of the body's first conditional (the reset of the accumulators), from the grid coordinates. -/
abbrev cond0_0 (i : grid0.Coords) : Prop := (Scalar.cmpi .ne (Scalar.extui (Scalar.cmpi .eq (BitVec.ofNat 32 (i 0).val) 0#32)) 0#32) = 1#1
/-- The condition of its second (the copy of the accumulators to the outputs). -/
abbrev cond0_1 (i : grid0.Coords) : Prop := k0_cond2 i = 1#1

/-! ## The three cases -/

set_option maxHeartbeats 1000000 in
/-- THE FIRST POINT (the reset taken, the copy not): the accumulators, found at anything, are zeroed and then
    take the first block's column sums; the sums' output blocks are handed back untouched. -/
theorem run0_A (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (hc0 : cond0_0 i) (hc1 : ¬cond0_1 i)
    (x : Vec F S1024x256 .f32) (w : Vec F S256x512 .f32) (b : Vec F S1x512 .f32)
    (xi5 xi6 : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare xi5 ∗ owns (c : Thread nD τ) arg6 fullShare xi6
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare w ∗ owns (c : Thread nD τ) arg3 fullShare b
            ∗ owns (c : Thread nD τ) arg4 fullShare (k0_pay3 x w b) ∗ owns (c : Thread nD τ) arg5 fullShare xi5 ∗ owns (c : Thread nD τ) arg6 fullShare xi6
            ∗ owns (c : Thread nD τ) arg7 fullShare (k0_pay4 x w b (k0_pay1 (F := F))) ∗ owns (c : Thread nD τ) arg8 fullShare (k0_pay5 x w b (k0_pay2 (F := F)))) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  subst hf1 hf2 hf3 hf5 hf6
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole0 arg4.view f4 off00, readAt_whole0 arg1.view f1 off00, readAt_whole0 arg2.view f2 off00, readAt_whole0 arg3.view f3 off00]
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole0 arg7.view f7 off00, readAt_whole0 arg1.view f1 off00, readAt_whole0 arg2.view f2 off00, readAt_whole0 arg3.view f3 off00]; unfold run0_A.sl.v12 run0_A.sl.H7_1; rw [readCov_whole0 arg7.view off00]
  · iexists _; isplitr
    swap; · iexact H8
    ipureintro
    rw [read_writes_whole0 arg8.view f8 off00, readAt_whole0 arg1.view f1 off00, readAt_whole0 arg2.view f2 off00, readAt_whole0 arg3.view f3 off00]; unfold run0_A.sl.v19 run0_A.sl.H8_1; rw [readCov_whole0 arg8.view off00]

set_option maxHeartbeats 1000000 in
/-- A MIDDLE POINT (neither conditional taken): the accumulators, found at `a1`, `a2`, take the block's column
    sums; the sums' output blocks are handed back untouched. -/
theorem run0_B (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (hc0 : ¬cond0_0 i) (hc1 : ¬cond0_1 i)
    (x : Vec F S1024x256 .f32) (w : Vec F S256x512 .f32) (b : Vec F S1x512 .f32)
    (xi5 xi6 a1 a2 : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare xi5 ∗ owns (c : Thread nD τ) arg6 fullShare xi6
        ∗ owns (c : Thread nD τ) arg7 fullShare a1 ∗ owns (c : Thread nD τ) arg8 fullShare a2
        ∗ (iprop(owns (c : Thread nD τ) arg1 fullShare x ∗ owns (c : Thread nD τ) arg2 fullShare w ∗ owns (c : Thread nD τ) arg3 fullShare b
            ∗ owns (c : Thread nD τ) arg4 fullShare (k0_pay3 x w b) ∗ owns (c : Thread nD τ) arg5 fullShare xi5 ∗ owns (c : Thread nD τ) arg6 fullShare xi6
            ∗ owns (c : Thread nD τ) arg7 fullShare (k0_pay4 x w b a1) ∗ owns (c : Thread nD τ) arg8 fullShare (k0_pay5 x w b a2)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  subst hf1 hf2 hf3 hf5 hf6 hf7 hf8
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole0 arg4.view f4 off00, readAt_whole0 arg1.view f1 off00, readAt_whole0 arg2.view f2 off00, readAt_whole0 arg3.view f3 off00]
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole0 arg7.view f7 off00, readAt_whole0 arg1.view f1 off00, readAt_whole0 arg2.view f2 off00, readAt_whole0 arg3.view f3 off00, readAt_whole0 arg7.view f7 off00]
  · iexists _; isplitr
    swap; · iexact H8
    ipureintro
    rw [read_writes_whole0 arg8.view f8 off00, readAt_whole0 arg1.view f1 off00, readAt_whole0 arg2.view f2 off00, readAt_whole0 arg3.view f3 off00, readAt_whole0 arg8.view f8 off00]

set_option maxHeartbeats 1000000 in
/-- THE LAST POINT (the copy taken, the reset not): the accumulators take the block's column sums and are then
    copied whole into the two sums' output blocks, found at anything. -/
theorem run0_C (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (hc0 : ¬cond0_0 i) (hc1 : cond0_1 i)
    (x : Vec F S1024x256 .f32) (w : Vec F S256x512 .f32) (b : Vec F S1x512 .f32)
    (a1 a2 : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a1 ∗ owns (c : Thread nD τ) arg8 fullShare a2
        ∗ (iprop(owns (c : Thread nD τ) arg1 fullShare x ∗ owns (c : Thread nD τ) arg2 fullShare w ∗ owns (c : Thread nD τ) arg3 fullShare b
            ∗ owns (c : Thread nD τ) arg4 fullShare (k0_pay3 x w b) ∗ owns (c : Thread nD τ) arg5 fullShare (k0_pay4 x w b a1) ∗ owns (c : Thread nD τ) arg6 fullShare (k0_pay5 x w b a2)
            ∗ owns (c : Thread nD τ) arg7 fullShare (k0_pay4 x w b a1) ∗ owns (c : Thread nD τ) arg8 fullShare (k0_pay5 x w b a2)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  subst hf1 hf2 hf3 hf7 hf8
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_whole0 arg4.view f4 off00, readAt_whole0 arg1.view f1 off00, readAt_whole0 arg2.view f2 off00, readAt_whole0 arg3.view f3 off00]
  isplitl [H5]
  · iexists _; isplitr
    swap; · iexact H5
    ipureintro
    rw [read_writes_whole0 arg5.view f5 off00]; unfold run0_C.sl.v30 run0_C.sl.H7_1; rw [readCov_whole0 arg7.view off00, readAt_whole0 arg1.view f1 off00, readAt_whole0 arg2.view f2 off00, readAt_whole0 arg3.view f3 off00, readAt_whole0 arg7.view f7 off00]
  isplitl [H6]
  · iexists _; isplitr
    swap; · iexact H6
    ipureintro
    rw [read_writes_whole0 arg6.view f6 off00]; unfold run0_C.sl.v32 run0_C.sl.H8_1; rw [readCov_whole0 arg8.view off00, readAt_whole0 arg1.view f1 off00, readAt_whole0 arg2.view f2 off00, readAt_whole0 arg3.view f3 off00, readAt_whole0 arg8.view f8 off00]
  isplitl [H7]
  · iexists _; isplitr
    swap; · iexact H7
    ipureintro
    unfold run0_C.sl.H7_1; rw [read_writes_whole0 arg7.view f7 off00, readAt_whole0 arg1.view f1 off00, readAt_whole0 arg2.view f2 off00, readAt_whole0 arg3.view f3 off00, readAt_whole0 arg7.view f7 off00]
  · iexists _; isplitr
    swap; · iexact H8
    ipureintro
    unfold run0_C.sl.H8_1; rw [read_writes_whole0 arg8.view f8 off00, readAt_whole0 arg1.view f1 off00, readAt_whole0 arg2.view f2 off00, readAt_whole0 arg3.view f3 off00, readAt_whole0 arg8.view f8 off00]

end Cert.Kernel.Hand

end
-- ==== Proof.Bits.Mlp1.lean ====
import proofs.«121768_j5368709120801_1_alg».proof.Proof.Bits.Mlp1Run
import proofs.«121768_j5368709120801_1_alg».proof.Proof.Gen.Kernel.Launch
import proofs.«121768_j5368709120801_1_alg».proof.Proof.Gen.Kernel.Skeleton
import proofs.«121768_j5368709120801_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first layer's kernel (h = x·w1ᵀ + b1 per block of 1024 rows, with the column sums of h and
    of h² accumulated across the eight blocks), at the region-entry contents `V`. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-buffer rectangles the body loads and stores through -/

/-- All of a [1024, 256] buffer (the block of x). -/
abbrev rX0 : Rect S1024x256 := Rect.unit (s := S1024x256) ![0, 0] S1024x256.size inb_S1024x256_S1024x256_0_0
/-- All of a [256, 512] buffer (w1ᵀ). -/
abbrev rW0 : Rect S256x512 := Rect.unit (s := S256x512) ![0, 0] S256x512.size inb_S256x512_S256x512_0_0
/-- All of a [1, 512] buffer (b1; each accumulator; each of the two sums' output blocks). -/
abbrev rB0 : Rect S1x512 := Rect.unit (s := S1x512) ![0, 0] S1x512.size inb_S1x512_S1x512_0_0
/-- All of a [1024, 512] buffer (the block of h). -/
abbrev rH0 : Rect S1024x512 := Rect.unit (s := S1024x512) ![0, 0] S1024x512.size inb_S1024x512_S1024x512_0_0

/-! ## The accumulators, point by point -/

/-- What the two accumulators (the running column sums of h and of h²) hold after the first `n` points: they
    start from the zero rows, and every point adds its block's column sums. -/
def accAt0 (c : Dev nD) : ℕ → Vec F S1x512 .f32 × Vec F S1x512 .f32
  | 0 => (k0_pay1, k0_pay2)
  | n + 1 =>
    if h : n < cfg0.N then
      (k0_pay4 (iblk0 V c 0 ⟨n, h⟩) (iblk0 V c 1 ⟨n, h⟩) (iblk0 V c 2 ⟨n, h⟩) (accAt0 c n).1,
       k0_pay5 (iblk0 V c 0 ⟨n, h⟩) (iblk0 V c 1 ⟨n, h⟩) (iblk0 V c 2 ⟨n, h⟩) (accAt0 c n).2)
    else accAt0 c n

/-- After point `t` of the grid: that point's block's column sums added to what was there before it. -/
theorem accAt0_at (c : Dev nD) (t : Fin cfg0.N) :
    accAt0 V c (t.val + 1)
      = (k0_pay4 (iblk0 V c 0 t) (iblk0 V c 1 t) (iblk0 V c 2 t) (accAt0 V c t.val).1,
         k0_pay5 (iblk0 V c 0 t) (iblk0 V c 1 t) (iblk0 V c 2 t) (accAt0 V c t.val).2) :=
  (dif_pos t.isLt).trans rfl

/-- After one point: the first block's column sums added to the zero rows. -/
theorem accAt0_one (c : Dev nD) :
    accAt0 V c 1 = (k0_pay4 (iblk0 V c 0 t0_0) (iblk0 V c 1 t0_0) (iblk0 V c 2 t0_0) (k0_pay1 (F := F)),
                    k0_pay5 (iblk0 V c 0 t0_0) (iblk0 V c 1 t0_0) (iblk0 V c 2 t0_0) (k0_pay2 (F := F))) :=
  accAt0_at V c t0_0

/-- After a later point: that point's block's column sums added to what the points before left. -/
theorem accAt0_succ (c : Dev nD) (n : ℕ) (hn : n + 1 < 8) :
    accAt0 V c (n + 2)
      = (k0_pay4 (iblk0 V c 0 ⟨n + 1, lt_of_lt_of_eq hn N_0.symm⟩) (iblk0 V c 1 ⟨n + 1, lt_of_lt_of_eq hn N_0.symm⟩) (iblk0 V c 2 ⟨n + 1, lt_of_lt_of_eq hn N_0.symm⟩) (accAt0 V c (n + 1)).1,
         k0_pay5 (iblk0 V c 0 ⟨n + 1, lt_of_lt_of_eq hn N_0.symm⟩) (iblk0 V c 1 ⟨n + 1, lt_of_lt_of_eq hn N_0.symm⟩) (iblk0 V c 2 ⟨n + 1, lt_of_lt_of_eq hn N_0.symm⟩) (accAt0 V c (n + 1)).2) :=
  accAt0_at V c ⟨n + 1, lt_of_lt_of_eq hn N_0.symm⟩

/-- The two components after point `t`, -/
theorem accAt0_fst (c : Dev nD) (t : Fin cfg0.N) :
    (accAt0 V c (t.val + 1)).1 = k0_pay4 (iblk0 V c 0 t) (iblk0 V c 1 t) (iblk0 V c 2 t) (accAt0 V c t.val).1 := by
  rw [accAt0_at]
theorem accAt0_snd (c : Dev nD) (t : Fin cfg0.N) :
    (accAt0 V c (t.val + 1)).2 = k0_pay5 (iblk0 V c 0 t) (iblk0 V c 1 t) (iblk0 V c 2 t) (accAt0 V c t.val).2 := by
  rw [accAt0_at]
/-- and before the first point: the zero rows. -/
theorem accAt0_fst_zero (c : Dev nD) (n : ℕ) (h0 : n = 0) : (accAt0 V c n).1 = k0_pay1 := by subst h0; rfl
theorem accAt0_snd_zero (c : Dev nD) (n : ℕ) (h0 : n = 0) : (accAt0 V c n).2 = k0_pay2 := by subst h0; rfl

/-! ## The invariant between points -/

/-- The two accumulators, as the kernel is handed them: whole scoped buffers of its own. -/
abbrev scM0_0 : Memref sig .tc .vmem S1x512 .f32 := Memref.whole cc0_scratch0
abbrev scM0_1 : Memref sig .tc .vmem S1x512 .f32 := Memref.whole cc0_scratch1

/-- The core's other scoped buffers that are no staging buffer of this region (the later regions' staging
    buffers), each whole at some contents: the body touches none of them. -/
def restTail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The region's invariant before position `n`: before the first point the scoped rest at anything; afterwards
    the two accumulators at what the points so far have summed, the other scoped buffers at anything, and the
    generator register at some state. -/
def PhiS0 (c : Dev nD) : ℕ → sProp 𝕄
  | 0 => Pipeline.ΦA spec0 c
  | n + 1 => iprop((owns (c : Thread nD τ) scM0_0 fullShare (accAt0 V c (n + 1)).1
      ∗ owns (c : Thread nD τ) scM0_1 fullShare (accAt0 V c (n + 1)).2 ∗ restTail0 (F := F) c) ∗ (∃ r, prngReg c r))

theorem PhiS0_zero (c : Dev nD) (n : ℕ) (hz : n = 0) : PhiS0 V c n = Pipeline.ΦA spec0 c := by
  subst hz; rfl

/-- Before a point that is not the first: the accumulators at what the points before have summed. -/
theorem PhiS0_pos (c : Dev nD) (n : ℕ) (hz : n ≠ 0) :
    PhiS0 V c n = iprop((owns (c : Thread nD τ) scM0_0 fullShare (accAt0 V c n).1
      ∗ owns (c : Thread nD τ) scM0_1 fullShare (accAt0 V c n).2 ∗ restTail0 (F := F) c) ∗ (∃ r, prngReg c r)) := by
  cases n with
  | zero => exact absurd rfl hz
  | succ n => rfl

/-- The scoped rest with the two accumulators set apart as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)
          ∗ restTail0 (F := F) c) ∗ (∃ r, prngReg c r)) := by
  unfold Pipeline.ΦA restTail0; rw [scopedRest0_eq]; simp only [scM0_0, scM0_1, owns_whole]; try rfl

/-! ## The pipeline's proof data -/

/-- The proof data of this region's pipeline on core `c`: the arrays as the region finds them; after the body at
    point `t` each input's buffer at its block, the block of h at the one store of x·w1ᵀ + b1, the two sums'
    output blocks at the one copy of the accumulators (read only at the last point, where they are written back);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => View.canon [⟨rH0, k0_pay3 (View.ld (iblk0 V c 0 t) rX0) (View.ld (iblk0 V c 1 t) rW0) (View.ld (iblk0 V c 2 t) rB0)⟩]
    | ⟨4, _⟩ => View.canon [⟨rB0, (accAt0 V c (t.val + 1)).1⟩]
    | ⟨5, _⟩ => View.canon [⟨rB0, (accAt0 V c (t.val + 1)).2⟩]
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t
    = View.canon [⟨rH0, k0_pay3 (View.ld (iblk0 V c 0 t) rX0) (View.ld (iblk0 V c 1 t) rW0) (View.ld (iblk0 V c 2 t) rB0)⟩] := by dsimp only [dat0]
theorem after0_4 (c : Dev nD) (t : Fin cfg0.N) : (dat0 V c).after 4 t = View.canon [⟨rB0, (accAt0 V c (t.val + 1)).1⟩] := by dsimp only [dat0]
theorem after0_5 (c : Dev nD) (t : Fin cfg0.N) : (dat0 V c).after 5 t = View.canon [⟨rB0, (accAt0 V c (t.val + 1)).2⟩] := by dsimp only [dat0]

/-- The same with the whole-buffer loads and the covering stores read through: the block of h is x·w1ᵀ + b1 of
    the point's input blocks, -/
theorem after0_3_clean (c : Dev nD) (t : Fin cfg0.N) : (dat0 V c).after 3 t
    = k0_pay3 (iblk0 V c 0 t) (iblk0 V c 1 t) (iblk0 V c 2 t) := by
  rw [after0_3, View.canon_unit_zero (S := S1024x512) off00, View.ld_unit_zero (S := S1024x256) off00,
    View.ld_unit_zero (S := S256x512) off00, View.ld_unit_zero (S := S1x512) off00]
/-- and the sums' output blocks are the accumulators after the point. -/
theorem after0_4_clean (c : Dev nD) (t : Fin cfg0.N) : (dat0 V c).after 4 t = (accAt0 V c (t.val + 1)).1 := by
  rw [after0_4, View.canon_unit_zero (S := S1x512) off00]
theorem after0_5_clean (c : Dev nD) (t : Fin cfg0.N) : (dat0 V c).after 5 t = (accAt0 V c (t.val + 1)).2 := by
  rw [after0_5, View.canon_unit_zero (S := S1x512) off00]

/-! ## What the body finds in the inputs' buffers -/

/-- Each input's current staging buffer holds its block at every point, fetched there or not: the body leaves the
    block in place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The conditions, and where the two sums' windows are idle, point by point -/

/-- The reset is taken at the first point only, -/
theorem hcond0_0 : ∀ t : Fin cfg0.N, cond0_0 (grid0.coords t) ↔ t.val = 0 :=
  (by decide +kernel : ∀ t : Fin grid0.N, cond0_0 (grid0.coords t) ↔ t.val = 0)
/-- the copy at the last point only. -/
theorem hcond0_1 : ∀ t : Fin cfg0.N, cond0_1 (grid0.coords t) ↔ t.val = 7 :=
  (by decide +kernel : ∀ t : Fin grid0.N, cond0_1 (grid0.coords t) ↔ t.val = 7)

/-- The inputs' windows and the window of h are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the copy is not taken the two sums' windows are idle and not written back; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- where it is taken they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' memrefs hold their blocks; the point is the first, the last or one between,
    which decides the two conditionals and so which case of the kernel's run applies; the invariant hands the body
    the accumulators at what the points before have summed (at anything before the first point, where the body
    resets them) and takes them back with this point's block added; where the copy is not taken the two sums'
    windows are idle and their buffers go back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [PhiS0_pos V c (t.val + 1) (Nat.succ_ne_zero _), accAt0_fst, accAt0_snd]
  rw [show (dat0 V c).leavesExact 0 t = owns (c : Thread nD τ) (st0_0 t) fullShare ((dat0 V c).after 0 t) from by
        unfold Dat.leavesExact; rw [liveAt0_0 t], after0_0]
  rw [show (dat0 V c).leavesExact 1 t = owns (c : Thread nD τ) (st0_1 t) fullShare ((dat0 V c).after 1 t) from by
        unfold Dat.leavesExact; rw [liveAt0_1 t], after0_1]
  rw [show (dat0 V c).leavesExact 2 t = owns (c : Thread nD τ) (st0_2 t) fullShare ((dat0 V c).after 2 t) from by
        unfold Dat.leavesExact; rw [liveAt0_2 t], after0_2]
  rw [show (dat0 V c).leavesExact 3 t = owns (c : Thread nD τ) (st0_3 t) fullShare ((dat0 V c).after 3 t) from by
        unfold Dat.leavesExact; rw [liveAt0_3 t], after0_3_clean]
  have hN : t.val < 8 := lt_of_lt_of_eq t.isLt (show cfg0.N = 8 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [PhiS0_zero V c _ h0, PhiA0_eq, accAt0_fst_zero V c _ h0, accAt0_snd_zero V c _ h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (run0_A c Set.univ (grid0.coords t) _ _ _ _ _ _ _ _ _ _ _ _ _ _ _ _ hc0 hc1 (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS0_pos V c _ h0]
    by_cases h7 : t.val = 7
    · have hc0 : ¬cond0_0 (grid0.coords t) := fun h => h0 ((hcond0_0 t).mp h)
      have hc1 : cond0_1 (grid0.coords t) := (hcond0_1 t).mpr h7
      rw [show (dat0 V c).leavesExact 4 t = owns (c : Thread nD τ) (st0_4 t) fullShare ((dat0 V c).after 4 t) from by
        unfold Dat.leavesExact; rw [liveAt0_4 t hc1], after0_4_clean, accAt0_fst]
      rw [show (dat0 V c).leavesExact 5 t = owns (c : Thread nD τ) (st0_5 t) fullShare ((dat0 V c).after 5 t) from by
        unfold Dat.leavesExact; rw [liveAt0_5 t hc1], after0_5_clean, accAt0_snd]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_C c Set.univ (grid0.coords t) _ _ _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => h0 ((hcond0_0 t).mp h)
      have hc1 : ¬cond0_1 (grid0.coords t) := fun h => h7 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_B c Set.univ (grid0.coords t) _ _ _ _ _ _ _ _ _ _ _ _ _ _ _ _ hc0 hc1 (iblk0 V c 0 t) (iblk0 V c 1 t) (iblk0 V c 2 t) _ _ _ _ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-! ## The body obligation, the entry and the exit of the invariant -/

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the scoped rest back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 8 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.Kernel.Hand

end
-- ==== Proof.Bits.Mlp2.lean ====
/-
  The second custom call of the program (pipeline 1, a grid of 8 row blocks): what its body does to the staging
  buffers, generically in the float family. The body reads each of its seven input blocks once and stores one
  whole block — the rectified, normalised hidden rows times the second weight matrix plus the second bias — into
  the output window's buffer. Stated at a parameter `V`, the TensorCore's buffer contents when the region is
  entered: each window's block at a point, the output buffer after the body as a function of the input blocks,
  the body's triple, the pipeline's proof data and the body obligation at every point.
-/
import proofs.«121768_j5368709120801_1_alg».proof.Proof.Gen.Kernel.Launch
import proofs.«121768_j5368709120801_1_alg».proof.Proof.Gen.Kernel.Skeleton
import proofs.«121768_j5368709120801_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_S1024x512 : Rect S1024x512 := Rect.unit (s := S1024x512) ![0, 0] S1024x512.size inb_S1024x512_S1024x512_0_0
abbrev r1_S1x512 : Rect S1x512 := Rect.unit (s := S1x512) ![0, 0] S1x512.size inb_S1x512_S1x512_0_0
abbrev r1_S512x128 : Rect S512x128 := Rect.unit (s := S512x128) ![0, 0] S512x128.size inb_S512x128_S512x128_0_0
abbrev r1_S1x128 : Rect S1x128 := Rect.unit (s := S1x128) ![0, 0] S1x128.size inb_S1x128_S1x128_0_0
abbrev r1_S1024x128 : Rect S1024x128 := Rect.unit (s := S1024x128) ![0, 0] S1024x128.size inb_S1024x128_S1024x128_0_0

/-! ## What the body leaves in the output window's buffer -/

/-- Window 7's staging buffer after the body, from the input windows' blocks: its one store, of the payload over
    what the seven loads read. -/
def out1_7 (x0 : Vec F S1024x512 .f32) (x1 x2 x3 x4 : Vec F S1x512 .f32) (x5 : Vec F S512x128 .f32) (x6 : Vec F S1x128 .f32) : Vec F S1024x128 .f32 :=
  View.canon [⟨r1_S1024x128, k1_pay1 (View.ld x0 r1_S1024x512) (View.ld x1 r1_S1x512) (View.ld x2 r1_S1x512) (View.ld x3 r1_S1x512) (View.ld x4 r1_S1x512) (View.ld x5 r1_S512x128) (View.ld x6 r1_S1x128)⟩]

/-- The store tiles the buffer, so it covers it. -/
theorem cover1_7 (p0 : Vec F S1024x128 .f32) (y : S1024x128.Idx) :
    ∃ pc ∈ ([⟨r1_S1024x128, p0⟩] : List (View.Piece (Elt F) S1024x128 .f32)), y ∈ pc.1.set :=
  View.cover_of_tiled [⟨r1_S1024x128, p0⟩] S1024x128.size (by rfl) y

/-! ## The body's triple -/

set_option maxHeartbeats 4000000 in
/-- The body on whole staging memrefs, the inputs' at read contents `xW` and the output's at anything, runs to the
    continuation holding the inputs' as they were and the output's at `out1_7` of the inputs'. -/
theorem sound_kernel1 (c : Dev nD) (E : Set ℕ) (i : grid1.Coords)
    (arg0 : Memref sig .tc .vmem S1024x512 .f32) (harg0 : arg0.IsWhole) (arg1 : Memref sig .tc .vmem S1x512 .f32) (harg1 : arg1.IsWhole)
    (arg2 : Memref sig .tc .vmem S1x512 .f32) (harg2 : arg2.IsWhole) (arg3 : Memref sig .tc .vmem S1x512 .f32) (harg3 : arg3.IsWhole)
    (arg4 : Memref sig .tc .vmem S1x512 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S1024x128 .f32) (harg7 : arg7.IsWhole)
    (x0 : Vec F S1024x512 .f32) (x1 x2 x3 x4 : Vec F S1x512 .f32) (x5 : Vec F S512x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp2_kernel i arg0 harg0 arg1 harg1 arg2 harg2 arg3 harg3 arg4 harg4 arg5 harg5 arg6 harg6 arg7 harg7) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Adj.lean ====
import proofs.«121768_j5368709120801_1_alg».proof.Proof.Gen.Kernel.Launch
import proofs.«121768_j5368709120801_1_alg».proof.Proof.Gen.Kernel.Skeleton
import proofs.«121768_j5368709120801_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third custom call (the pairwise-score kernel), pipeline 2, on a 16 × 16 grid

Both input windows of this call read ONE array (the embeddings): window 0 the row block of the point's first
coordinate, window 1 the row block of its second. The core therefore holds that array's ownership in two halves,
one per input window, for as long as the pipeline runs; the output window's array is held whole. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the window
    is not fetched its block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x128 := Rect.unit (s := S512x128) ![0, 0] S512x128.size inb_S512x128_S512x128_0_0
abbrev r2_2 : Rect S512x512 := Rect.unit (s := S512x512) ![0, 0] S512x512.size inb_S512x512_S512x512_0_0

/-! ## What the body leaves in the output window's buffer -/

/-- The output window's staging buffer after the body at the point of coordinates `i`, from the two input blocks:
    its one whole-block store, whose payload reads the coordinates (the strict-upper-triangle mask compares global
    row and column numbers). -/
def out2_2 (i : grid2.Coords) (x0 x1 : Vec F S512x128 .f32) : Vec F S512x512 .f32 :=
  View.canon [⟨r2_2, k2_pay1 i (View.ld x0 r2_0) (View.ld x1 r2_0)⟩]

/-- The one store covers the buffer. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's triple -/

set_option maxHeartbeats 1000000 in
/-- The kernel body on whole staging memrefs — the two inputs' at read contents `x0`, `x1`, the output's at anything —
    runs to the continuation holding the inputs' as they were and the output's at `out2_2 i x0 x1`. -/
theorem sound_kernel2 (c : Dev nD) (E : Set ℕ) (i : grid2.Coords)
    (arg2 : Memref sig .tc .vmem S512x128 .f32) (harg2 : arg2.IsWhole) (arg3 : Memref sig .tc .vmem S512x128 .f32) (harg3 : arg3.IsWhole)
    (arg4 : Memref sig .tc .vmem S512x512 .f32) (harg4 : arg4.IsWhole)
    (x0 x1 : Vec F S512x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 i x0 x1)) -∗ K ⟨⟩))
      ⊢ wp frame (wpE (defs₀ (F := F)) Variants.none c none) E (cc2__adj_kernel i arg2 harg2 arg3 harg3 arg4 harg4) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the point's coordinates and the two input blocks;
    the invariant the scoped rest and the generator register, untouched; nothing owed; the one input array's
    ownership halved between the two windows that read it, the output's array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

/-- The shares: the two halves of the full share for the two windows on the one input array, the full share for the
    output's. -/
theorem share2_0 (c : Dev nD) : (dat2 V c).share 0 = fullShare.left := by unfold Dat.share; rfl
theorem share2_1 (c : Dev nD) : (dat2 V c).share 1 = fullShare.right := by unfold Dat.share; rfl
theorem share2_2 (c : Dev nD) : (dat2 V c).share 2 = fullShare := by unfold Dat.share; rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The region's arrays, one by one -/

/-- The two arrays the three windows name. -/
theorem arr_image2 : Finset.univ.image (Pipeline.arrRef spec2) = ([main_v16, main_v17] : List (Ref sig .tc)).toFinset := by decide

/-- The buffers behind the windows' arrays, each whole: the input array and the output array. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_v16) ↦{fullShare} V' main_v16) ∗ (((c : Thread nD τ).loc main_v17) ↦{fullShare} V' main_v17)) := by
  unfold Pipeline.arrBufs
  exact bigSep_eq_bigSepL_of_eq [main_v16, main_v17] arr_image2 (by decide) _

/-- The proof data's arrays at contents `G`: the input array at the left half of the full share for window 0 and at
    the right half for window 1, the output array whole. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v16) ↦{fullShare.left} G 0) ∗ (((c : Thread nD τ).loc main_v16) ↦{fullShare.right} G 1)
          ∗ (((c : Thread nD τ).loc main_v17) ↦{fullShare} G 2)) := by
  unfold Dat.arrays
  rw [bigSep_W2, (arr_whole2 0).set_eq_univ, (arr_whole2 2).set_eq_univ, share2_0, share2_1, share2_2]

end Region2

/-! ## The region's arrays out of the core's unscoped buffers, and back

The thread state between two items of the program holds every unscoped buffer whole at a valuation `W`. At the region's
entry the two arrays the windows name are taken out of it — the input array's full share split in its two halves, one
per window —, the other buffers staying behind; at the exit the halves are joined again and the output array, at what the
write-backs left, is put back. -/

section InOut
variable (W : Dev nD → Valuation τ sig (Elt F))

/-- The region-entry contents the proof data take: the valuation read at the TensorCore's references. -/
abbrev VofW : (c : Dev nD) → (b : Ref sig .tc) → Buf (Elt F) ((c : Thread nD τ).loc b) := fun c b => W c b

/-- Every unscoped buffer that is neither of the region's two arrays, whole at the valuation's contents. -/
def rest2 (c : Dev nD) (W : Valuation τ sig (Elt F)) : sProp 𝕄 :=
  Pipeline.unscopedRest (Ix := Unit) (Name := ℕ) (U := UR sig nD τ) (Lvl := ℕ) spec2 c (fun b => W b)

/-- ENTRY: every unscoped buffer whole at `W` is the proof data's arrays at their entry contents — the input array's
    full share split in its two halves — beside the other unscoped buffers. -/
theorem split2 (c : Dev nD) :
    StableHlo.held (c : Thread nD τ) (Pipeline.ucRefs τ sig) (W c)
      ⊢ (iprop((dat2 (VofW W) c).arrays ((dat2 (VofW W) c).arrAt · 0) ∗ rest2 c (W c)) : sProp 𝕄) := by
  rw [← Pipeline.unscopedBufs_held (Ix := Unit) (Name := ℕ) (U := UR sig nD τ) (Lvl := ℕ) c (W c),
    Pipeline.unscopedBufs_split₀ cfgs 2 winFacts₀2.arr_unscoped c (fun b => W c b)]
  refine sep_mono (?_ : (Pipeline.arrBufs (Ix := Unit) (Name := ℕ) (U := UR sig nD τ) (Lvl := ℕ) spec2 c (VofW W c) : sProp 𝕄) ⊢ _) .rfl
  rw [arrBufs2_eq, arrays2_eq]
  rw [show (dat2 (VofW W) c).arrAt 0 0 = (dat2 (VofW W) c).A 0 from rfl, show (dat2 (VofW W) c).arrAt 1 0 = (dat2 (VofW W) c).A 1 from rfl,
    show (dat2 (VofW W) c).arrAt 2 0 = (dat2 (VofW W) c).A 2 from rfl, A_eq2, A_eq2, A_eq2]
  iintro ⟨H16, H17⟩
  ihave H := (pointsTo_share (PosShare.mem_left_op_right fullShare)).1 $$ H16
  icases H with ⟨Hl, Hr⟩
  isplitl [Hl]; · iexact Hl
  isplitl [Hr]; · iexact Hr
  iexact H17

/-- EXIT: the arrays at what the write-backs leave — the input array unchanged, its two halves joined again — and the
    other unscoped buffers are every unscoped buffer whole at `W` updated at the output array. -/
theorem join2 (c : Dev nD) :
    (iprop((dat2 (VofW W) c).arrays ((dat2 (VofW W) c).arrAt · cfg2.N) ∗ rest2 c (W c)) : sProp 𝕄)
      ⊢ StableHlo.held (c : Thread nD τ) (Pipeline.ucRefs τ sig)
          (Function.update (W c) (Proc.devRef .tc main_v17) ((dat2 (VofW W) c).arrAt 2 cfg2.N)) := by
  rw [arrays2_eq, (dat2 (VofW W) c).arrAt_in 0 rfl, (dat2 (VofW W) c).arrAt_in 1 rfl, A_eq2, A_eq2]
  generalize (dat2 (VofW W) c).arrAt 2 cfg2.N = X
  rw [← Pipeline.unscopedBufs_held (Ix := Unit) (Name := ℕ) (U := UR sig nD τ) (Lvl := ℕ) c (Function.update (W c) (Proc.devRef .tc main_v17) X),
    Pipeline.unscopedBufs_split₀ cfgs 2 winFacts₀2.arr_unscoped c (fun b => Function.update (W c) (Proc.devRef .tc main_v17) X b)]
  refine sep_mono (?_ : _ ⊢ (Pipeline.arrBufs (Ix := Unit) (Name := ℕ) (U := UR sig nD τ) (Lvl := ℕ) spec2 c
      (fun b => Function.update (W c) (Proc.devRef .tc main_v17) X b) : sProp 𝕄)) (Entails.of_eq ?_)
  · rw [arrBufs2_eq, Function.update_self,
      Function.update_of_ne (StableHlo.devRef_ne_of_ne (by decide) : (Proc.devRef .tc main_v16 : DevRef τ sig) ≠ Proc.devRef .tc main_v17)]
    iintro ⟨Hl, Hr, H17⟩
    isplitl [Hl Hr]
    · iapply (pointsTo_share (PosShare.mem_left_op_right fullShare)).2
      isplitl [Hl]; · iexact Hl
      iexact Hr
    iexact H17
  · unfold rest2 Pipeline.unscopedRest
    exact bigSep_congr fun b hb => by
      have hne : b ≠ main_v17 := fun e => (Finset.mem_sdiff.mp hb).2 (by rw [arr_image2, e]; decide)
      beta_reduce
      rw [Function.update_of_ne (StableHlo.devRef_ne_of_ne hne)]

end InOut

end Cert.Kernel.Hand

end
-- ==== Proof.Bits.Bounds.lean ====
/-
  The contents of the TensorCore's buffers at every boundary between two items of the program, as a fold from the
  launch memory: a host stretch rewrites the buffers its operations write and leaves the rest; a kernel region leaves
  its windows' arrays at what the pipeline's write-backs leave and every other buffer as it was. Definitions and
  their first consequences only.
-/
import proofs.«121768_j5368709120801_1_alg».proof.Proof.Bits.Mlp1
import proofs.«121768_j5368709120801_1_alg».proof.Proof.Bits.Mlp2
import proofs.«121768_j5368709120801_1_alg».proof.Proof.Bits.Adj
import proofs.«121768_j5368709120801_1_alg».proof.Proof.Gen.Kernel.Regions
import Idealize.ShloMosaic.Lib.Pipeline.FrameSuffix
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary between two items of the program: a fold from the launch memory -/

/-- Core `c`'s buffers at launch. -/
abbrev W0 : Dev nD → Valuation τ sig (Elt F) := fun c b => m ((c : Thread nD τ).1, b)
/-- After the first host stretch (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves, and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
/-- The same read at the TensorCore's references (what region 1's proof data take). -/
abbrev V3 : (c : Dev nD) → (b : Ref sig .tc) → Buf (Elt F) ((c : Thread nD τ).loc b) := fun c b => W3 m c b
/-- At region 1's exit (which is region 2's entry: no host operation stands between the two): its arrays at what the
    pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents, and what region 2's proof data take). -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its one output array at what the pipeline's write-backs leave, every other buffer (the
    array its two input windows read among them) as entered. -/
def W5 (c : Dev nD) : Valuation τ sig (Elt F) :=
  Function.update (W4 m c) (Proc.devRef .tc main_v17) ((dat2 (V4 m) c).arrAt 2 cfg2.N)
theorem W5_v17 (c : Dev nD) : W5 m c (Proc.devRef .tc main_v17) = (dat2 (V4 m) c).arrAt 2 cfg2.N := by
  unfold W5; exact Function.update_self _ _ _
theorem W5_of_ne (c : Dev nD) (b : Ref sig .tc) (hb : b ≠ main_v17) :
    W5 m c (Proc.devRef .tc b) = W4 m c (Proc.devRef .tc b) := by
  unfold W5; exact Function.update_of_ne (StableHlo.devRef_ne_of_ne hb) _ _
/-- The same read at the TensorCore's references (region 2's exit contents). -/
abbrev V5 : (c : Dev nD) → (b : Ref sig .tc) → Buf (Elt F) ((c : Thread nD τ).loc b) := fun c b => W5 m c b

/-- After the last host stretch: the contents the program returns with. -/
abbrev W6 : Dev nD → Valuation τ sig (Elt F) := fun c => StableHlo.after hostOps3 (W5 m c)
/-- The same read at the TensorCore's references. -/
abbrev V6 : (c : Dev nD) → (b : Ref sig .tc) → Buf (Elt F) ((c : Thread nD τ).loc b) := fun c b => W6 m c b

/-! ## The arguments end as launched

No host operation writes an argument, and no region has one among its output arrays, so the fold at an argument's
buffer walks back to the launch memory. -/

/-- `main_arg0` ends as launched: no host stretch writes it, region 0 only reads it (through an input window) and no other region has it among its arrays. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- `main_arg1` ends as launched: no host stretch writes it and no region has it among its arrays. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` ends as launched: no host stretch writes it and no region has it among its arrays. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` ends as launched: no host stretch writes it and no region has it among its arrays. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` ends as launched: no host stretch writes it and no region has it among its arrays. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` ends as launched: no host stretch writes it and no region has it among its arrays. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide)
    _ = W4 m c (Proc.devRef .tc main_arg5) := W5_of_ne m c main_arg5 (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` ends as launched: no host stretch writes it and no region has it among its arrays. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` ends as launched: no host stretch writes it and no region has it among its arrays. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps3 _ hostOps3_writes (by decide)
    _ = W4 m c (Proc.devRef .tc main_arg7) := W5_of_ne m c main_arg7 (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

end Cert.Kernel.Hand

end
-- ==== Proof.Bits.RunBase.lean ====
/-
  What the launch of the whole program is assembled from, shared by its three kernel regions: the family of the
  pipelines' proof data (each at the contents its region is entered from), the thread state that rides beside the
  buffers (the generator register, nothing owed), and a host stretch as an item of the program.
-/
import proofs.«121768_j5368709120801_1_alg».proof.Proof.Bits.Bounds
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

/-- Every pipeline's proof data, each at its region's entry contents: a literal case split on the pipeline, so that
    the family at a numeral reduces to that region's data. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)

/-- A host stretch as an item: its operations run over the unscoped buffers held whole at the contents `W`, `R`
    riding along, and leave them at the contents the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's contents, the
    generator register at some state. -/
abbrev Tₙ (c : Dev nD) : sProp 𝕄 := iprop(StableHlo.held (c : Thread nD τ) (Pipeline.ucRefs τ sig) (W6 m c) ∗ ∃ r, prngReg c r)

end Cert.Kernel.Hand

end
-- ==== Proof.Bits.RunReg0.lean ====
/-
  The first custom call as an item of the program: the kernel region entered from every unscoped buffer held whole at
  the contents the first host stretch leaves, and left with its windows' arrays at what the pipeline's write-backs leave.
-/
import proofs.«121768_j5368709120801_1_alg».proof.Proof.Bits.RunBase
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 0 (the first custom call) over the thread state: entered from every unscoped buffer at `W1`, left at `W2`.
    Its arrays are split out of the unscoped buffers and put back at the exit contents; the generator register and the
    scoped rest go into the region's invariant at the first point and come out of it after the last; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.RunReg1.lean ====
/-
  The second custom call as an item of the program: the kernel region entered from every unscoped buffer held whole at
  the contents the second host stretch leaves, and left with its windows' arrays at what the pipeline's write-backs leave.
-/
import proofs.«121768_j5368709120801_1_alg».proof.Proof.Bits.RunBase
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 1 (the second custom call) over the thread state: entered from every unscoped buffer at `W3`, left at `W4`,
    which the third custom call is entered from directly. Its arrays are split out of the unscoped buffers and put
    back at the exit contents; the generator register goes into the region's invariant and out; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.RunReg2.lean ====
/-
  The third custom call as an item of the program: the kernel region entered directly from what the second custom call
  leaves, its two input windows reading one array, and left with its output array at what the write-backs leave.
-/
import proofs.«121768_j5368709120801_1_alg».proof.Proof.Bits.RunBase
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 2 (the third custom call) over the thread state: entered from every unscoped buffer at `W4`, left at `W5`.
    Its two input windows read ONE array, so the arrays are not pairwise distinct buffers: at the entry that array's
    ownership is split in two halves, one per input window, and at the exit the halves are joined again, the output
    array put back at what the write-backs left. The generator register goes into the region's invariant and out;
    nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := rest2 c (W4 m c)
  hentry c := by
    rw [Pipeline.ownSems0_none]
    have hsplit : StableHlo.held (c : Thread nD τ) (Pipeline.ucRefs τ sig) (W4 m c)
        ⊢ (iprop((pdats m 2 c).arrays ((pdats m 2 c).arrAt · 0) ∗ rest2 c (W4 m c)) : sProp 𝕄) := split2 (W4 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays ((pdats m 2 c).arrAt · cfg2.N) ∗ rest2 c (W4 m c)) : sProp 𝕄)
        ⊢ StableHlo.held (c : Thread nD τ) (Pipeline.ucRefs τ sig) (W5 m c) := join2 (W4 m) c
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

end Cert.Kernel.Hand

end
-- ==== Proof.Bits.Run.lean ====
/-
  The launch of the whole program: its six items in order (three host stretches, three kernel regions), each entered
  from the thread state the one before it leaves, from the launch memory to the return; at the return every unscoped
  buffer of every core holds the last boundary's contents.
-/
import proofs.«121768_j5368709120801_1_alg».proof.Proof.Bits.RunReg0
import proofs.«121768_j5368709120801_1_alg».proof.Proof.Bits.RunReg1
import proofs.«121768_j5368709120801_1_alg».proof.Proof.Bits.RunReg2
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as items, and the launch -/

/-- The program's six items in order: a host stretch from its boundary's contents, a region per custom call; the
    second and the third custom call follow each other directly. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]

/-- The program IS the run of its items. -/
theorem main_run (c : Dev nD) : main (F := F) c = Pipeline.Seg.run (segs m) := (main_chain c).trans (by chain_rfl)

set_option backward.isDefEq.respectTransparency.types false in
/-- THE RUN. At the compiled mesh, from any memory with zero counters, every weakly fair execution of the program on
    the TensorCores terminates, nothing faulting, and every final state holds EVERY unscoped buffer of every core at the
    last boundary's contents `W6`: the launch over the items, each item entered from what the one before it left, the
    last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c b hb => h c b hb)

end Cert.Kernel.Hand

end
-- ==== Proof.KernelHost0.lean ====
/-
  The first stretch of host operations of the kernel program (two transposes, four reshapes to a leading unit
  axis), read at an index, over any contents of the TensorCore's buffers: each result array at literal coordinates
  is the argument array at the matching coordinates, and the arrays the stretch does not write are as they were.
-/
import proofs.«121768_j5368709120801_1_alg».proof.Proof.Gen.KernelIdeal.Launch
import proofs.«121768_j5368709120801_1_alg».proof.Proof.Gen.KernelIdeal.Regions
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

variable (Wv : Valuation τ sig (Elt Ideal))

/-- The transposed first weight matrix at (k, j) is the argument at (j, k). -/
theorem host0_v0 (k : Fin 256) (j : Fin 512) :
    (StableHlo.after hostOps0 Wv (Proc.devRef .tc main_v0) : S256x512.Idx → EReal) (ix2 k j)
      = (Wv (Proc.devRef .tc main_arg2) : S512x256.Idx → EReal) (ix2 j k) := by
  have e : (StableHlo.after hostOps0 Wv (Proc.devRef .tc main_v0) : S256x512.Idx → EReal)
      = transpose S256x512 [1, 0] (Wv (Proc.devRef .tc main_arg2) : S512x256.Idx → EReal) transposes_S512x256_S256x512_1_0 := by
    after_results
  rw [e]; exact transpose_ix2_apply _ _ k j

/-- The transposed second weight matrix at (j, o) is the argument at (o, j). -/
theorem host0_v1 (j : Fin 512) (o : Fin 128) :
    (StableHlo.after hostOps0 Wv (Proc.devRef .tc main_v1) : S512x128.Idx → EReal) (ix2 j o)
      = (Wv (Proc.devRef .tc main_arg6) : S128x512.Idx → EReal) (ix2 o j) := by
  have e : (StableHlo.after hostOps0 Wv (Proc.devRef .tc main_v1) : S512x128.Idx → EReal)
      = transpose S512x128 [1, 0] (Wv (Proc.devRef .tc main_arg6) : S128x512.Idx → EReal) transposes_S128x512_S512x128_1_0 := by
    after_results
  rw [e]; exact transpose_ix2_apply _ _ j o

/-- The first bias as a one-row matrix, at (0, j), is the argument at j. -/
theorem host0_v2 (u : Fin 1) (j : Fin 512) :
    (StableHlo.after hostOps0 Wv (Proc.devRef .tc main_v2) : S1x512.Idx → EReal) (ix2 u j)
      = (Wv (Proc.devRef .tc main_arg3) : S512.Idx → EReal) (ix1 j) := by
  have e : (StableHlo.after hostOps0 Wv (Proc.devRef .tc main_v2) : S1x512.Idx → EReal)
      = shapeCast S1x512 (Wv (Proc.devRef .tc main_arg3) : S512.Idx → EReal) shapeCasts_S512_S1x512 := by
    after_results; rfl
  rw [e]; exact shapeCast_a_1a_apply _ _ u j

/-- The scale as a one-row matrix. -/
theorem host0_v3 (u : Fin 1) (j : Fin 512) :
    (StableHlo.after hostOps0 Wv (Proc.devRef .tc main_v3) : S1x512.Idx → EReal) (ix2 u j)
      = (Wv (Proc.devRef .tc main_arg4) : S512.Idx → EReal) (ix1 j) := by
  have e : (StableHlo.after hostOps0 Wv (Proc.devRef .tc main_v3) : S1x512.Idx → EReal)
      = shapeCast S1x512 (Wv (Proc.devRef .tc main_arg4) : S512.Idx → EReal) shapeCasts_S512_S1x512 := by
    after_results; rfl
  rw [e]; exact shapeCast_a_1a_apply _ _ u j

/-- The shift as a one-row matrix. -/
theorem host0_v4 (u : Fin 1) (j : Fin 512) :
    (StableHlo.after hostOps0 Wv (Proc.devRef .tc main_v4) : S1x512.Idx → EReal) (ix2 u j)
      = (Wv (Proc.devRef .tc main_arg5) : S512.Idx → EReal) (ix1 j) := by
  have e : (StableHlo.after hostOps0 Wv (Proc.devRef .tc main_v4) : S1x512.Idx → EReal)
      = shapeCast S1x512 (Wv (Proc.devRef .tc main_arg5) : S512.Idx → EReal) shapeCasts_S512_S1x512 := by
    after_results; rfl
  rw [e]; exact shapeCast_a_1a_apply _ _ u j

/-- The second bias as a one-row matrix. -/
theorem host0_v5 (u : Fin 1) (o : Fin 128) :
    (StableHlo.after hostOps0 Wv (Proc.devRef .tc main_v5) : S1x128.Idx → EReal) (ix2 u o)
      = (Wv (Proc.devRef .tc main_arg7) : S128.Idx → EReal) (ix1 o) := by
  have e : (StableHlo.after hostOps0 Wv (Proc.devRef .tc main_v5) : S1x128.Idx → EReal)
      = shapeCast S1x128 (Wv (Proc.devRef .tc main_arg7) : S128.Idx → EReal) shapeCasts_S128_S1x128 := by
    after_results; rfl
  rw [e]; exact shapeCast_a_1a_apply _ _ u o

/-- An array the stretch does not write is as it was. -/
theorem host0_of (r : Ref sig .tc) (h : r ∉ hostOps0_W) :
    StableHlo.after hostOps0 Wv (Proc.devRef .tc r) = Wv (Proc.devRef .tc r) :=
  StableHlo.after_of_writes_sub hostOps0 _ hostOps0_writes h

end Cert.KernelIdeal.Hand

end
-- ==== Proof.Spec.lean ====
/-
  The mathematics both programs compute, as functions of the argument arrays read at literal coordinates,
  on the extended reals. Every array is a curried function of its coordinates (`Fin 8192 → Fin 256 → EReal` for
  an [8192, 256] array), so that nothing here mentions a program's shapes.

  * `hid`      the hidden layer  h = x · W1ᵀ + b1                      ([8192, 512])
  * `colSum`, `colSumSq`   the column sums of h and of h²               ([512])
  * `mean`     Σ h / 8192
  * `varMoment`  E[h²] − (E h)²  — the kernel's variance (second moment minus squared mean)
  * `varCentred` Σ (h − E h)² / (8192 − 0) — the reference's variance (mean squared deviation)
  * `istd`     1 / √(var + ε)
  * `act`      max ((h − μ) · istd · γ + β, 0)
  * `emb`      act · W2ᵀ + b2                                          ([8192, 128])
  * `score`    emb · embᵀ                                              ([8192, 8192])
  * `adj`      σ(score) kept strictly above the diagonal where σ ≥ 1/2, else 0
  The two variances agree on finite data (`Cert.Spec`'s law lives in its own module); everything else is shared.
-/
import Idealize.ShloMosaic.PureOps.Ideal

noncomputable section

namespace Cert.Spec

open Idealize.ShloMosaic
open scoped BigOperators

/-- The float literal 8192.0 (the batch size as both programs spell it). -/
def c8192 : EReal := Ideal.ofBits .f32 0x46000000#32
/-- The float literal the programs add to the variance (the f32 nearest 1e-5). -/
def eps : EReal := Ideal.ofBits .f32 0x3727C5AC#32
/-- The float literal 0.5, the keep threshold. -/
def half : EReal := Ideal.ofBits .f32 0x3F000000#32
/-- The float literal 0.0. -/
def zero : EReal := Ideal.ofBits .f32 0x00000000#32

/-- h = x · W1ᵀ + b1. -/
def hid (x : Fin 8192 → Fin 256 → EReal) (w1 : Fin 512 → Fin 256 → EReal) (b1 : Fin 512 → EReal) :
    Fin 8192 → Fin 512 → EReal :=
  fun i j => (∑ k : Fin 256, x i k * w1 j k) + b1 j

/-- Column sums over the 8192 rows. -/
def colSum (h : Fin 8192 → Fin 512 → EReal) : Fin 512 → EReal := fun j => ∑ i : Fin 8192, h i j
/-- Column sums of the squares. -/
def colSumSq (h : Fin 8192 → Fin 512 → EReal) : Fin 512 → EReal := fun j => ∑ i : Fin 8192, h i j * h i j

/-- The batch mean of each column. -/
def mean (h : Fin 8192 → Fin 512 → EReal) : Fin 512 → EReal := fun j => Ideal.div (colSum h j) c8192

/-- The kernel's variance: the second moment minus the squared mean. -/
def varMoment (h : Fin 8192 → Fin 512 → EReal) : Fin 512 → EReal :=
  fun j => Ideal.div (colSumSq h j) c8192 - mean h j * mean h j

/-- The reference's variance: the mean of the squared deviations from the mean, the divisor spelt 8192 − 0
    (the count minus the degrees of freedom removed, none). -/
def varCentred (h : Fin 8192 → Fin 512 → EReal) : Fin 512 → EReal :=
  fun j => Ideal.div (∑ i : Fin 8192, (h i j - mean h j) * (h i j - mean h j)) (c8192 - (0 : EReal))

/-- 1 / √(v + ε). -/
def istd (v : Fin 512 → EReal) : Fin 512 → EReal := fun j => Ideal.rsqrt (v j + eps)

/-- The normalised, scaled, shifted and rectified hidden layer. -/
def act (h : Fin 8192 → Fin 512 → EReal) (mu is g b : Fin 512 → EReal) : Fin 8192 → Fin 512 → EReal :=
  fun i j => max ((h i j - mu j) * is j * g j + b j) zero

/-- emb = a · W2ᵀ + b2. -/
def emb (a : Fin 8192 → Fin 512 → EReal) (w2 : Fin 128 → Fin 512 → EReal) (b2 : Fin 128 → EReal) :
    Fin 8192 → Fin 128 → EReal :=
  fun i o => (∑ j : Fin 512, a i j * w2 o j) + b2 o

/-- score = e · eᵀ. -/
def score (e : Fin 8192 → Fin 128 → EReal) : Fin 8192 → Fin 8192 → EReal :=
  fun i j => ∑ k : Fin 128, e i k * e j k

/-- The dense adjacency before the edge list is written in: σ(score) where the row is strictly below the column
    and σ(score) ≥ 1/2, else 0. -/
def adj (e : Fin 8192 → Fin 128 → EReal) : Fin 8192 → Fin 8192 → EReal :=
  fun i j => if i.val < j.val ∧ half ≤ Ideal.logistic (score e i j) then Ideal.logistic (score e i j) else zero

/-- The embedding as the KERNEL computes it from the arguments (variance by moments). -/
def embKernel (x : Fin 8192 → Fin 256 → EReal) (w1 : Fin 512 → Fin 256 → EReal) (b1 g b : Fin 512 → EReal)
    (w2 : Fin 128 → Fin 512 → EReal) (b2 : Fin 128 → EReal) : Fin 8192 → Fin 128 → EReal :=
  emb (act (hid x w1 b1) (mean (hid x w1 b1)) (istd (varMoment (hid x w1 b1))) g b) w2 b2

/-- The embedding as the REFERENCE computes it from the arguments (variance by squared deviations). -/
def embReference (x : Fin 8192 → Fin 256 → EReal) (w1 : Fin 512 → Fin 256 → EReal) (b1 g b : Fin 512 → EReal)
    (w2 : Fin 128 → Fin 512 → EReal) (b2 : Fin 128 → EReal) : Fin 8192 → Fin 128 → EReal :=
  emb (act (hid x w1 b1) (mean (hid x w1 b1)) (istd (varCentred (hid x w1 b1))) g b) w2 b2

end Cert.Spec

end
-- ==== Proof.KernelHost1.lean ====
/-
  The second stretch of host operations of the kernel program, read at an index, over any contents of the
  TensorCore's buffers: from the column sums S and the column sums of squares Q (one-row matrices) it computes
  the mean S / 8192 and the reciprocal standard deviation 1 / √((Q / 8192 − mean · mean) + ε); the arrays the
  stretch does not write are as they were.
-/
import proofs.«121768_j5368709120801_1_alg».proof.Proof.Gen.KernelIdeal.Launch
import proofs.«121768_j5368709120801_1_alg».proof.Proof.Gen.KernelIdeal.Regions
import proofs.«121768_j5368709120801_1_alg».proof.Proof.Spec
import Idealize.ShloMosaic.Lib.ValueIdx
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx

variable (Wv : Valuation τ sig (Elt Ideal))

/-- The mean: the column sum divided by the float 8192. -/
theorem host1_v8 (u : Fin 1) (j : Fin 512) :
    (StableHlo.after hostOps1 Wv (Proc.devRef .tc main_v8) : S1x512.Idx → EReal) (ix2 u j)
      = Ideal.div ((Wv (Proc.devRef .tc main_v6_1) : S1x512.Idx → EReal) (ix2 u j)) Cert.Spec.c8192 := by
  have e : (StableHlo.after hostOps1 Wv (Proc.devRef .tc main_v8) : S1x512.Idx → EReal)
      = Host.divf (Wv (Proc.devRef .tc main_v6_1) : FVec Ideal S1x512 .f32)
          (broadcastInDim S1x512 ![] bcast_S_S1x512 (constant (F := Ideal) S_ .f32 0x46000000#32)) := by
    after_results
  rw [e]; rfl

/-- The reciprocal standard deviation, from the second moment minus the squared mean. -/
theorem host1_v15 (u : Fin 1) (j : Fin 512) :
    (StableHlo.after hostOps1 Wv (Proc.devRef .tc main_v15) : S1x512.Idx → EReal) (ix2 u j)
      = Ideal.rsqrt ((Ideal.div ((Wv (Proc.devRef .tc main_v6_2) : S1x512.Idx → EReal) (ix2 u j)) Cert.Spec.c8192
            - Ideal.div ((Wv (Proc.devRef .tc main_v6_1) : S1x512.Idx → EReal) (ix2 u j)) Cert.Spec.c8192
              * Ideal.div ((Wv (Proc.devRef .tc main_v6_1) : S1x512.Idx → EReal) (ix2 u j)) Cert.Spec.c8192)
          + Cert.Spec.eps) := by
  have e : (StableHlo.after hostOps1 Wv (Proc.devRef .tc main_v15) : S1x512.Idx → EReal)
      = Host.rsqrt (addf (subf
            (Host.divf (Wv (Proc.devRef .tc main_v6_2) : FVec Ideal S1x512 .f32)
              (broadcastInDim S1x512 ![] bcast_S_S1x512 (constant (F := Ideal) S_ .f32 0x46000000#32)))
            (mulf
              (Host.divf (Wv (Proc.devRef .tc main_v6_1) : FVec Ideal S1x512 .f32)
                (broadcastInDim S1x512 ![] bcast_S_S1x512 (constant (F := Ideal) S_ .f32 0x46000000#32)))
              (Host.divf (Wv (Proc.devRef .tc main_v6_1) : FVec Ideal S1x512 .f32)
                (broadcastInDim S1x512 ![] bcast_S_S1x512 (constant (F := Ideal) S_ .f32 0x46000000#32)))))
          (broadcastInDim S1x512 ![] bcast_S_S1x512 (constant (F := Ideal) S_ .f32 0x3727C5AC#32))) := by
    after_results
  rw [e]; rfl

/-- An array the stretch does not write is as it was. -/
theorem host1_of (r : Ref sig .tc) (h : r ∉ hostOps1_W) :
    StableHlo.after hostOps1 Wv (Proc.devRef .tc r) = Wv (Proc.devRef .tc r) :=
  StableHlo.after_of_writes_sub hostOps1 _ hostOps1_writes h

end Cert.KernelIdeal.Hand

end
-- ==== Proof.KernelChain.lean ====
/-
  The kernel program's value, assembled from its pieces: given the three regions' value laws (what each region's
  result arrays hold, as functions of the contents the region finds), the dense adjacency the last region leaves is
  the specification's adjacency of the embedding computed from the argument arrays. The argument arrays pass
  unchanged through the host stretches and the regions that do not write them; the first host stretch transposes the
  two weight matrices and gives the four vectors a leading unit axis; the second computes the mean and the reciprocal
  standard deviation from the column sums.
-/
import proofs.«121768_j5368709120801_1_alg».proof.Proof.Bounds
import proofs.«121768_j5368709120801_1_alg».proof.Proof.KernelHost0
import proofs.«121768_j5368709120801_1_alg».proof.Proof.KernelHost1
import proofs.«121768_j5368709120801_1_alg».proof.Proof.Spec

noncomputable section

namespace Cert.KernelIdeal.Hand

open Cert.KernelIdeal Cert.KernelIdeal.Gen
open Idealize.ShloMosaic Idealize.ShloMosaic.TcCoe Idealize.ShloMosaic.ValueIdx
set_option pp.maxSteps 5000
set_option pp.deepTerms false

variable (m : (ℓ : Loc nD τ sig) → Buf (Elt Ideal) ℓ)

/-! ## The argument arrays as curried functions of their coordinates -/

/-- The input rows, [8192, 256]. -/
abbrev kvX (c : Dev nD) : Fin 8192 → Fin 256 → EReal :=
  fun a k => (m ((c : Thread nD τ).loc main_arg0) : S8192x256.Idx → EReal) (ix2 a k)
/-- The first weight matrix, [512, 256]. -/
abbrev kvW1 (c : Dev nD) : Fin 512 → Fin 256 → EReal :=
  fun j k => (m ((c : Thread nD τ).loc main_arg2) : S512x256.Idx → EReal) (ix2 j k)
/-- The first bias, [512]. -/
abbrev kvB1 (c : Dev nD) : Fin 512 → EReal := fun j => (m ((c : Thread nD τ).loc main_arg3) : S512.Idx → EReal) (ix1 j)
/-- The scale, [512]. -/
abbrev kvG (c : Dev nD) : Fin 512 → EReal := fun j => (m ((c : Thread nD τ).loc main_arg4) : S512.Idx → EReal) (ix1 j)
/-- The shift, [512]. -/
abbrev kvB (c : Dev nD) : Fin 512 → EReal := fun j => (m ((c : Thread nD τ).loc main_arg5) : S512.Idx → EReal) (ix1 j)
/-- The second weight matrix, [128, 512]. -/
abbrev kvW2 (c : Dev nD) : Fin 128 → Fin 512 → EReal :=
  fun o j => (m ((c : Thread nD τ).loc main_arg6) : S128x512.Idx → EReal) (ix2 o j)
/-- The second bias, [128]. -/
abbrev kvB2 (c : Dev nD) : Fin 128 → EReal := fun o => (m ((c : Thread nD τ).loc main_arg7) : S128.Idx → EReal) (ix1 o)
/-- The hidden layer of the arguments. -/
abbrev kvHid (c : Dev nD) : Fin 8192 → Fin 512 → EReal := Cert.Spec.hid (kvX m c) (kvW1 m c) (kvB1 m c)

/-! ## Region 0's entry: the arguments through the first host stretch -/

theorem kv1_X (c : Dev nD) :
    (fun (a : Fin 8192) (k : Fin 256) => (V1 m c main_arg0 : S8192x256.Idx → EReal) (ix2 a k)) = kvX m c := by
  funext a k
  show (StableHlo.after hostOps0 (W0 m c) (Proc.devRef .tc main_arg0) : S8192x256.Idx → EReal) (ix2 a k) = _
  rw [host0_of (W0 m c) main_arg0 (by decide)]

theorem kv1_W1 (c : Dev nD) :
    (fun (j : Fin 512) (k : Fin 256) => (V1 m c main_v0 : S256x512.Idx → EReal) (ix2 k j)) = kvW1 m c := by
  funext j k
  exact host0_v0 (W0 m c) k j

theorem kv1_B1 (c : Dev nD) :
    (fun (j : Fin 512) => (V1 m c main_v2 : S1x512.Idx → EReal) (ix2 0 j)) = kvB1 m c := by
  funext j
  exact host0_v2 (W0 m c) 0 j

/-! ## The three regions' value laws, as hypotheses: what each region's result arrays hold, as functions of the
contents `V` the region finds -/

/-- Region 0: the hidden layer, its column sums and the column sums of its squares. -/
def KvLaw0 : Prop :=
  ∀ (V : (c : Dev nD) → (b : Ref sig .tc) → Buf (Elt Ideal) ((c : Thread nD τ).loc b)) (c : Dev nD),
    (∀ (i : Fin 8192) (j : Fin 512), ((dat0 V c).arrAt 3 cfg0.N : S8192x512.Idx → EReal) (ix2 i j)
        = Cert.Spec.hid (fun a k => (V c main_arg0 : S8192x256.Idx → EReal) (ix2 a k))
            (fun j k => (V c main_v0 : S256x512.Idx → EReal) (ix2 k j))
            (fun j => (V c main_v2 : S1x512.Idx → EReal) (ix2 0 j)) i j)
    ∧ (∀ j : Fin 512, ((dat0 V c).arrAt 4 cfg0.N : S1x512.Idx → EReal) (ix2 0 j)
        = Cert.Spec.colSum (Cert.Spec.hid (fun a k => (V c main_arg0 : S8192x256.Idx → EReal) (ix2 a k))
            (fun j k => (V c main_v0 : S256x512.Idx → EReal) (ix2 k j))
            (fun j => (V c main_v2 : S1x512.Idx → EReal) (ix2 0 j))) j)
    ∧ (∀ j : Fin 512, ((dat0 V c).arrAt 5 cfg0.N : S1x512.Idx → EReal) (ix2 0 j)
        = Cert.Spec.colSumSq (Cert.Spec.hid (fun a k => (V c main_arg0 : S8192x256.Idx → EReal) (ix2 a k))
            (fun j k => (V c main_v0 : S256x512.Idx → EReal) (ix2 k j))
            (fun j => (V c main_v2 : S1x512.Idx → EReal) (ix2 0 j))) j)

/-- Region 1: the embedding of the rectified, normalised hidden layer. -/
def KvLaw1 : Prop :=
  ∀ (V : (c : Dev nD) → (b : Ref sig .tc) → Buf (Elt Ideal) ((c : Thread nD τ).loc b)) (c : Dev nD)
    (i : Fin 8192) (o : Fin 128), ((dat1 V c).arrAt 7 cfg1.N : S8192x128.Idx → EReal) (ix2 i o)
      = Cert.Spec.emb (Cert.Spec.act (fun a j => (V c main_v6_0 : S8192x512.Idx → EReal) (ix2 a j))
            (fun j => (V c main_v8 : S1x512.Idx → EReal) (ix2 0 j)) (fun j => (V c main_v15 : S1x512.Idx → EReal) (ix2 0 j))
            (fun j => (V c main_v3 : S1x512.Idx → EReal) (ix2 0 j)) (fun j => (V c main_v4 : S1x512.Idx → EReal) (ix2 0 j)))
          (fun o j => (V c main_v1 : S512x128.Idx → EReal) (ix2 j o)) (fun o => (V c main_v5 : S1x128.Idx → EReal) (ix2 0 o)) i o

/-- Region 2: the dense adjacency of the embedding it finds. -/
def KvLaw2 : Prop :=
  ∀ (V : (c : Dev nD) → (b : Ref sig .tc) → Buf (Elt Ideal) ((c : Thread nD τ).loc b)) (c : Dev nD)
    (i j : Fin 8192), ((dat2 V c).arrAt 2 cfg2.N : S8192x8192.Idx → EReal) (ix2 i j)
      = Cert.Spec.adj (fun r k => (V c main_v16 : S8192x128.Idx → EReal) (ix2 r k)) i j

/-! ## Region 0's exit -/

/-- The hidden layer's array after region 0. -/
theorem kv2_h (l0 : KvLaw0) (c : Dev nD) (a : Fin 8192) (j : Fin 512) :
    (W2 m c (Proc.devRef .tc main_v6_0) : S8192x512.Idx → EReal) (ix2 a j) = kvHid m c a j := by
  have e : (W2 m c (Proc.devRef .tc main_v6_0) : S8192x512.Idx → EReal)
      = ((dat0 (V1 m) c).arrAt 3 cfg0.N : S8192x512.Idx → EReal) := W2_arr m c 3
  rw [e]
  refine ((l0 (V1 m) c).1 a j).trans ?_
  rw [kv1_X, kv1_W1, kv1_B1]

/-- The column sums after region 0. -/
theorem kv2_sum (l0 : KvLaw0) (c : Dev nD) (j : Fin 512) :
    (W2 m c (Proc.devRef .tc main_v6_1) : S1x512.Idx → EReal) (ix2 0 j) = Cert.Spec.colSum (kvHid m c) j := by
  have e : (W2 m c (Proc.devRef .tc main_v6_1) : S1x512.Idx → EReal)
      = ((dat0 (V1 m) c).arrAt 4 cfg0.N : S1x512.Idx → EReal) := W2_arr m c 4
  rw [e]
  refine ((l0 (V1 m) c).2.1 j).trans ?_
  rw [kv1_X, kv1_W1, kv1_B1]

/-- The column sums of squares after region 0. -/
theorem kv2_sumsq (l0 : KvLaw0) (c : Dev nD) (j : Fin 512) :
    (W2 m c (Proc.devRef .tc main_v6_2) : S1x512.Idx → EReal) (ix2 0 j) = Cert.Spec.colSumSq (kvHid m c) j := by
  have e : (W2 m c (Proc.devRef .tc main_v6_2) : S1x512.Idx → EReal)
      = ((dat0 (V1 m) c).arrAt 5 cfg0.N : S1x512.Idx → EReal) := W2_arr m c 5
  rw [e]
  refine ((l0 (V1 m) c).2.2 j).trans ?_
  rw [kv1_X, kv1_W1, kv1_B1]

/-! ## Region 1's entry: through the second host stretch -/

theorem kv3_H (l0 : KvLaw0) (c : Dev nD) :
    (fun (a : Fin 8192) (j : Fin 512) => (V3 m c main_v6_0 : S8192x512.Idx → EReal) (ix2 a j)) = kvHid m c := by
  funext a j
  show (StableHlo.after hostOps1 (W2 m c) (Proc.devRef .tc main_v6_0) : S8192x512.Idx → EReal) (ix2 a j) = _
  rw [host1_of (W2 m c) main_v6_0 (by decide)]
  exact kv2_h m l0 c a j

theorem kv3_MU (l0 : KvLaw0) (c : Dev nD) :
    (fun (j : Fin 512) => (V3 m c main_v8 : S1x512.Idx → EReal) (ix2 0 j)) = Cert.Spec.mean (kvHid m c) := by
  funext j
  refine (host1_v8 (W2 m c) 0 j).trans ?_
  rw [kv2_sum m l0 c j]
  rfl

theorem kv3_IS (l0 : KvLaw0) (c : Dev nD) :
    (fun (j : Fin 512) => (V3 m c main_v15 : S1x512.Idx → EReal) (ix2 0 j))
      = Cert.Spec.istd (Cert.Spec.varMoment (kvHid m c)) := by
  funext j
  refine (host1_v15 (W2 m c) 0 j).trans ?_
  rw [kv2_sum m l0 c j, kv2_sumsq m l0 c j]
  rfl

theorem kv3_G (c : Dev nD) :
    (fun (j : Fin 512) => (V3 m c main_v3 : S1x512.Idx → EReal) (ix2 0 j)) = kvG m c := by
  funext j
  show (StableHlo.after hostOps1 (W2 m c) (Proc.devRef .tc main_v3) : S1x512.Idx → EReal) (ix2 0 j) = _
  rw [host1_of (W2 m c) main_v3 (by decide), W2_of_ne m c main_v3 (by decide)]
  exact host0_v3 (W0 m c) 0 j

theorem kv3_B (c : Dev nD) :
    (fun (j : Fin 512) => (V3 m c main_v4 : S1x512.Idx → EReal) (ix2 0 j)) = kvB m c := by
  funext j
  show (StableHlo.after hostOps1 (W2 m c) (Proc.devRef .tc main_v4) : S1x512.Idx → EReal) (ix2 0 j) = _
  rw [host1_of (W2 m c) main_v4 (by decide), W2_of_ne m c main_v4 (by decide)]
  exact host0_v4 (W0 m c) 0 j

theorem kv3_W2 (c : Dev nD) :
    (fun (o : Fin 128) (j : Fin 512) => (V3 m c main_v1 : S512x128.Idx → EReal) (ix2 j o)) = kvW2 m c := by
  funext o j
  show (StableHlo.after hostOps1 (W2 m c) (Proc.devRef .tc main_v1) : S512x128.Idx → EReal) (ix2 j o) = _
  rw [host1_of (W2 m c) main_v1 (by decide), W2_of_ne m c main_v1 (by decide)]
  exact host0_v1 (W0 m c) j o

theorem kv3_B2 (c : Dev nD) :
    (fun (o : Fin 128) => (V3 m c main_v5 : S1x128.Idx → EReal) (ix2 0 o)) = kvB2 m c := by
  funext o
  show (StableHlo.after hostOps1 (W2 m c) (Proc.devRef .tc main_v5) : S1x128.Idx → EReal) (ix2 0 o) = _
  rw [host1_of (W2 m c) main_v5 (by decide), W2_of_ne m c main_v5 (by decide)]
  exact host0_v5 (W0 m c) 0 o

/-! ## Region 2's entry, and the adjacency it leaves -/

/-- The embedding as the kernel computes it from the arguments. -/
abbrev kvEmb (c : Dev nD) : Fin 8192 → Fin 128 → EReal :=
  Cert.Spec.embKernel (kvX m c) (kvW1 m c) (kvB1 m c) (kvG m c) (kvB m c) (kvW2 m c) (kvB2 m c)

theorem kv4_emb (l0 : KvLaw0) (l1 : KvLaw1) (c : Dev nD) :
    (fun (r : Fin 8192) (k : Fin 128) => (V4 m c main_v16 : S8192x128.Idx → EReal) (ix2 r k)) = kvEmb m c := by
  funext r k
  have e : (W4 m c (Proc.devRef .tc main_v16) : S8192x128.Idx → EReal)
      = ((dat1 (V3 m) c).arrAt 7 cfg1.N : S8192x128.Idx → EReal) := W4_arr m c 7
  show (W4 m c (Proc.devRef .tc main_v16) : S8192x128.Idx → EReal) (ix2 r k) = _
  rw [e]
  refine (l1 (V3 m) c r k).trans ?_
  rw [kv3_H m l0, kv3_MU m l0, kv3_IS m l0, kv3_G, kv3_B, kv3_W2, kv3_B2]
  rfl

/-- The dense adjacency region 2 leaves is the specification's adjacency of the kernel's embedding of the arguments. -/
theorem adj_of_laws (l0 : KvLaw0) (l1 : KvLaw1) (l2 : KvLaw2) (c : Dev nD) (i j : Fin 8192) :
    (W5 m c (Proc.devRef .tc main_v17) : S8192x8192.Idx → EReal) (ix2 i j) = Cert.Spec.adj (kvEmb m c) i j := by
  have e : (W5 m c (Proc.devRef .tc main_v17) : S8192x8192.Idx → EReal)
      = ((dat2 (V4 m) c).arrAt 2 cfg2.N : S8192x8192.Idx → EReal) := W5_v17 m c
  rw [e]
  refine (l2 (V4 m) c i j).trans ?_
  rw [kv4_emb m l0 l1]

/-- The edge list reaches the last host stretch as launched. -/
theorem kv5_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := host1_of (W2 m c) main_arg1 (by decide)
    _ = W1 m c (Proc.devRef .tc main_arg1) := W2_of_ne m c main_arg1 (by decide)
    _ = W0 m c (Proc.devRef .tc main_arg1) := host0_of (W0 m c) main_arg1 (by decide)
    _ = m ((c : Thread nD τ).loc main_arg1) := rfl

end Cert.KernelIdeal.Hand

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Mlp1Pay.lean ====
/-
  The first kernel's block computations read at an entry, on the extended reals.

  One grid step holds a [1024, 256] block x of the input rows, the whole [256, 512] transposed weight w and the
  [1, 512] bias row b. The block of the hidden layer it stores is h(p, q) = Σ_k x(p, k) · w(k, q) + b(0, q); the two
  running rows it keeps are acc(0, q) + Σ_p h(p, q) and acc(0, q) + Σ_p h(p, q)², and the rows it starts from are 0.
  Last, a sum over the 8192 rows of the whole array is regrouped as the sum over the 8 blocks of the sums over the
  1024 rows of a block.
-/
import proofs.«121768_j5368709120801_1_alg».proof.Proof.Gen.KernelIdeal.Skeleton
import proofs.«121768_j5368709120801_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

noncomputable section

namespace Cert.KernelIdeal.Hand

open Cert.KernelIdeal Cert.KernelIdeal.Gen
open Idealize.ShloMosaic Idealize.ShloMosaic.ValueIdx
open scoped BigOperators

/-- The stored block of the hidden layer at (p, q): the row of x against the column of w, plus the bias. -/
theorem pay3_apply (x : Vec Ideal S1024x256 .f32) (w : Vec Ideal S256x512 .f32) (b : Vec Ideal S1x512 .f32)
    (p : Fin 1024) (q : Fin 512) :
    k0_pay3 (F := Ideal) x w b (ix2 p q) = (∑ k : Fin 256, x (ix2 p k) * w (ix2 k q)) + b (ix2 0 q) := by
  unfold k0_pay3
  rw [addf_apply, shapeCast_self, shapeCast_self, broadcastTo_1b_ab_apply]
  congr 1
  exact PlainDot.matmul_zero_apply ⟨rfl, rfl, rfl, rfl, rfl, rfl⟩ _ x w p q

/-- The row the sums start from is 0 everywhere. -/
theorem pay1_apply (j : S1x512.Idx) : (k0_pay1 (F := Ideal)) j = 0 := by
  unfold k0_pay1
  rw [shapeCast_self, broadcast_apply]
  exact Ideal.ofBits_zero_f32

/-- The row the sums of squares start from is 0 everywhere. -/
theorem pay2_apply (j : S1x512.Idx) : (k0_pay2 (F := Ideal)) j = 0 := by
  unfold k0_pay2
  rw [shapeCast_self, broadcast_apply]
  exact Ideal.ofBits_zero_f32

/-- A sum over the rows of a [1024, 512] block, written for the reduction as the kernel prints it (its neutral
    element's evidence an equation between two copies of the zero word). -/
theorem colReduce_apply (src : FVec Ideal S1024x512 .f32) (hφ : FKind.Formats .f32)
    (hacc : (0x00000000#32 : BitVec 32) = 0x00000000#32) (q : Fin 512) :
    multiReduction .add [0] S512 src 0x00000000#32 reduces_S1024x512_S512 hφ hacc (ix1 q)
      = ∑ p : Fin 1024, src (ix2 p q) := by
  refine (Ideal.multiReduction_add_single src 0x00000000#32 reduces_S1024x512_S512 hφ hacc (ix1 q)).trans ?_
  refine Finset.sum_congr rfl fun p _ => congrArg src ?_
  funext a
  match a with
  | ⟨0, _⟩ => rfl
  | ⟨1, _⟩ => rfl

/-- The running row of sums after a block: what it held plus the block's column sums. -/
theorem pay4_apply (x : Vec Ideal S1024x256 .f32) (w : Vec Ideal S256x512 .f32) (b acc : Vec Ideal S1x512 .f32)
    (q : Fin 512) :
    k0_pay4 (F := Ideal) x w b acc (ix2 0 q)
      = acc (ix2 0 q) + ∑ p : Fin 1024, k0_pay3 (F := Ideal) x w b (ix2 p q) := by
  unfold k0_pay4
  rw [shapeCast_self, addf_apply, shapeCast_a_1a_apply]
  congr 1
  exact colReduce_apply _ _ _ q

/-- The running row of sums of squares after a block: what it held plus the block's column sums of squares. -/
theorem pay5_apply (x : Vec Ideal S1024x256 .f32) (w : Vec Ideal S256x512 .f32) (b acc : Vec Ideal S1x512 .f32)
    (q : Fin 512) :
    k0_pay5 (F := Ideal) x w b acc (ix2 0 q)
      = acc (ix2 0 q) + ∑ p : Fin 1024, k0_pay3 (F := Ideal) x w b (ix2 p q) * k0_pay3 (F := Ideal) x w b (ix2 p q) := by
  unfold k0_pay5
  rw [shapeCast_self, addf_apply, shapeCast_a_1a_apply]
  congr 1
  exact (colReduce_apply _ _ _ q).trans (Finset.sum_congr rfl fun p _ => mulf_apply _ _ _)

/-- A sum over 8192 rows, regrouped: 8 blocks of 1024 consecutive rows each. -/
theorem sum_rows_blocks {M : Type*} [AddCommMonoid M] (f : Fin 8192 → M) :
    ∑ i : Fin 8192, f i = ∑ t : Fin 8, ∑ p : Fin 1024, f ⟨1024 * t.val + p.val, by omega⟩ := by
  rw [← Finset.sum_product', Finset.univ_product_univ]
  rw [← Equiv.sum_comp (finProdFinEquiv (m := 8) (n := 1024)) f]
  refine Finset.sum_congr rfl fun tp _ => congrArg f (Fin.ext ?_)
  show tp.2.val + 1024 * tp.1.val = 1024 * tp.1.val + tp.2.val
  omega

end Cert.KernelIdeal.Hand

end
-- ==== Proof.Mlp1Geom.lean ====
/-
  The geometry of the first kernel's windows on its grid of 8 points. Point t holds rows 1024·t … 1024·t + 1023 of
  the input and of the hidden layer (windows 0 and 3); the weight, the bias row and the two rows of sums (windows 1,
  2, 4, 5) are whole arrays at block (0, 0) at every point. So the blocks of window 3 tile the [8192, 512] array, and
  the one block of window 4 (of window 5) that is written back — at point 7 — is its whole [1, 512] array.
-/
import proofs.«121768_j5368709120801_1_alg».proof.Proof.Gen.KernelIdeal.Launch
import proofs.«121768_j5368709120801_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

theorem hz : (![0, 0] : Fin 2 → Nat) = fun _ => 0 := funext fun a => by fin_cases a <;> rfl

/-- The printed index maps, decided over the grid: the row-block windows sit at block (t, 0), the others at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- An entry of the hidden-layer array is in point t's block iff each coordinate is in the block's range. -/
theorem mem_blk3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v6_0).slice (win0_3.rect t)).set ↔ _
  rw [View.set_slice_whole, Rect.mem_set_unit]
  exact Iff.rfl

/-- Row r of the hidden-layer array lies in the block of point r / 1024. -/
theorem cover3 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  refine ⟨⟨(i 0).val / 1024, by rw [show cfg0.N = 8 from N_0]; omega⟩, flush0_3 _, ?_⟩
  rw [mem_blk3]
  obtain ⟨-, -, -, -, -, -, e0, e1, -⟩ := idx_facts0 ⟨(i 0).val / 1024, by rw [show cfg0.N = 8 from N_0]; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ _ ∧ _ < (i 0).val / 1024 * 1024 + 1024; omega
  | ⟨1, _⟩ =>
    show win0_3.index _ (1 : Fin 2) * 512 ≤ (i 1).val ∧ (i 1).val < win0_3.index _ (1 : Fin 2) * 512 + 512
    rw [e1]; omega

theorem mem_blk4 (t : Fin cfg0.N) (i : S1x512.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v6_1).slice (win0_4.rect t)).set ↔ _
  rw [View.set_slice_whole, Rect.mem_set_unit]
  exact Iff.rfl

theorem mem_blk5 (t : Fin cfg0.N) (i : S1x512.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v6_2).slice (win0_5.rect t)).set ↔ _
  rw [View.set_slice_whole, Rect.mem_set_unit]
  exact Iff.rfl

/-- The last point's block of the row of sums is the whole row. -/
theorem cover4 (i : S1x512.Idx) :
    ∃ t : Fin cfg0.N, (cfg0.win 4).flush t = true ∧ i ∈ ((cfg0.win 4).blk t).view.set := by
  have hi0 : (i 0).val < 1 := (i 0).isLt
  have hi1 : (i 1).val < 512 := (i 1).isLt
  refine ⟨t0_7, (flush0_4 t0_7).mpr rfl, ?_⟩
  rw [mem_blk4]
  obtain ⟨-, -, -, -, -, -, -, -, e0, e1, -⟩ := idx_facts0 t0_7
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 512 ≤ (i 1).val ∧ (i 1).val < win0_4.index _ (1 : Fin 2) * 512 + 512
    rw [e1]; omega

/-- The last point's block of the row of sums of squares is the whole row. -/
theorem cover5 (i : S1x512.Idx) :
    ∃ t : Fin cfg0.N, (cfg0.win 5).flush t = true ∧ i ∈ ((cfg0.win 5).blk t).view.set := by
  have hi0 : (i 0).val < 1 := (i 0).isLt
  have hi1 : (i 1).val < 512 := (i 1).isLt
  refine ⟨t0_7, (flush0_5 t0_7).mpr rfl, ?_⟩
  rw [mem_blk5]
  obtain ⟨-, -, -, -, -, -, -, -, -, -, e0, e1⟩ := idx_facts0 t0_7
  intro a
  match a with
  | ⟨0, _⟩ =>
    show win0_5.index _ (0 : Fin 2) * 1 ≤ (i 0).val ∧ (i 0).val < win0_5.index _ (0 : Fin 2) * 1 + 1
    rw [e0]; omega
  | ⟨1, _⟩ =>
    show win0_5.index _ (1 : Fin 2) * 512 ≤ (i 1).val ∧ (i 1).val < win0_5.index _ (1 : Fin 2) * 512 + 512
    rw [e1]; omega

/-- The one point that writes the rows of sums back is point 7. -/
theorem flush4_iff (t : Fin cfg0.N) : (cfg0.win 4).flush t = true ↔ t.val = 7 := by
  have hN : cfg0.N = 8 := N_0
  have := t.isLt
  rw [flush0_4]; omega

theorem flush5_iff (t : Fin cfg0.N) : (cfg0.win 5).flush t = true ↔ t.val = 7 := by
  have hN : cfg0.N = 8 := N_0
  have := t.isLt
  rw [flush0_5]; omega

end Cert.KernelIdeal.Hand

end
-- ==== Proof.Mlp1Blocks.lean ====
/-
  The first kernel's blocks read at an entry. Point t's block of the input array, at (p, k), is the array at row
  1024·t + p, column k; its block of the hidden-layer array likewise; the blocks of the weight, the bias row and the
  two rows of sums are the arrays themselves.
-/
import proofs.«121768_j5368709120801_1_alg».proof.Proof.Mlp1Geom
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]

/-- A row of point t's block is a row of the array. -/
theorem row_lt (t : Fin cfg0.N) (p : Fin 1024) : 1024 * t.val + p.val < 8192 := by
  have hN : cfg0.N = 8 := N_0
  have := t.isLt; have := p.isLt; omega

/-- Point t's block of the input at (p, k): the input at (1024·t + p, k). -/
theorem read_blk0 (c : Dev nD) (A : Buf (Elt F) ((c : Thread nD τ).loc main_arg0)) (t : Fin cfg0.N)
    (p : Fin 1024) (k : Fin 256) :
    (((cfg0.win 0).blk t).view.read (Elt F) A : S1024x256.Idx → Elt F .f32) (ix2 p k)
      = (A : S8192x256.Idx → Elt F .f32) (ix2 ⟨1024 * t.val + p.val, row_lt t p⟩ k) := by
  obtain ⟨e0, e1, -⟩ := idx_facts0 t
  rw [View.read_apply]
  show A _ = A _
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 256 + 1 * k.val = k.val; rw [e1]; omega

/-- Every point's block of the transposed weight is the weight. -/
theorem read_blk1 (c : Dev nD) (A : Buf (Elt F) ((c : Thread nD τ).loc main_v0)) (t : Fin cfg0.N)
    (k : Fin 256) (q : Fin 512) :
    (((cfg0.win 1).blk t).view.read (Elt F) A : S256x512.Idx → Elt F .f32) (ix2 k q)
      = (A : S256x512.Idx → Elt F .f32) (ix2 k q) := by
  obtain ⟨-, -, e0, e1, -⟩ := idx_facts0 t
  rw [View.read_apply]
  show A _ = A _
  congr 1
  funext a
  apply Fin.ext
  match a with
  | ⟨0, _⟩ => show win0_1.index t (0 : Fin 2) * 256 + 1 * k.val = k.val; rw [e0]; omega
  | ⟨1, _⟩ => show win0_1.index t (1 : Fin 2) * 512 + 1 * q.val = q.val; rw [e1]; omega

/-- Every point's block of the bias row is the bias row. -/
theorem read_blk2 (c : Dev nD) (A : Buf (Elt F) ((c : Thread nD τ).loc main_v2)) (t : Fin cfg0.N)
    (u : Fin 1) (q : Fin 512) :
    (((cfg0.win 2).blk t).view.read (Elt F) A : S1x512.Idx → Elt F .f32) (ix2 u q)
      = (A : S1x512.Idx → Elt F .f32) (ix2 u q) := by
  obtain ⟨-, -, -, -, e0, e1, -⟩ := idx_facts0 t
  rw [View.read_apply]
  show A _ = A _
  congr 1
  funext a
  apply Fin.ext
  match a with
  | ⟨0, _⟩ => show win0_2.index t (0 : Fin 2) * 1 + 1 * u.val = u.val; rw [e0]; omega
  | ⟨1, _⟩ => show win0_2.index t (1 : Fin 2) * 512 + 1 * q.val = q.val; rw [e1]; omega

/-- Point t's block of a hidden-layer array at (p, q): the array at (1024·t + p, q). -/
theorem read_blk3 (c : Dev nD) (A : Buf (Elt F) ((c : Thread nD τ).loc main_v6_0)) (t : Fin cfg0.N)
    (p : Fin 1024) (q : Fin 512) :
    (((cfg0.win 3).blk t).view.read (Elt F) A : S1024x512.Idx → Elt F .f32) (ix2 p q)
      = (A : S8192x512.Idx → Elt F .f32) (ix2 ⟨1024 * t.val + p.val, row_lt t p⟩ q) := by
  obtain ⟨-, -, -, -, -, -, e0, e1, -⟩ := idx_facts0 t
  rw [View.read_apply]
  show A _ = A _
  congr 1
  funext a
  apply Fin.ext
  match a with
  | ⟨0, _⟩ => show win0_3.index t (0 : Fin 2) * 1024 + 1 * p.val = 1024 * t.val + p.val; rw [e0]; omega
  | ⟨1, _⟩ => show win0_3.index t (1 : Fin 2) * 512 + 1 * q.val = q.val; rw [e1]; omega

/-- Every point's block of a row of sums is the row. -/
theorem read_blk4 (c : Dev nD) (A : Buf (Elt F) ((c : Thread nD τ).loc main_v6_1)) (t : Fin cfg0.N) :
    (((cfg0.win 4).blk t).view.read (Elt F) A : S1x512.Idx → Elt F .f32) = (A : S1x512.Idx → Elt F .f32) := by
  obtain ⟨-, -, -, -, -, -, -, -, e0, e1, -⟩ := idx_facts0 t
  funext j
  rw [View.read_apply]
  show A _ = A _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 512 + 1 * (j 1).val = (j 1).val; rw [e1]; omega

/-- Every point's block of a row of sums of squares is the row. -/
theorem read_blk5 (c : Dev nD) (A : Buf (Elt F) ((c : Thread nD τ).loc main_v6_2)) (t : Fin cfg0.N) :
    (((cfg0.win 5).blk t).view.read (Elt F) A : S1x512.Idx → Elt F .f32) = (A : S1x512.Idx → Elt F .f32) := by
  obtain ⟨-, -, -, -, -, -, -, -, -, -, e0, e1⟩ := idx_facts0 t
  funext j
  rw [View.read_apply]
  show A _ = A _
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 512 + 1 * (j 1).val = (j 1).val; rw [e1]; omega

end Cert.KernelIdeal.Hand

end
-- ==== Proof.Mlp1Value.lean ====
/-
  What the first kernel's three result arrays hold after its run, on the extended reals, entry by entry.

  With x the [8192, 256] input, w the [256, 512] transposed weight and b the [1, 512] bias row as the region finds
  them, the hidden-layer array ends at h(i, j) = Σ_k x(i, k) · w(k, j) + b(0, j) — every point writes its block of
  1024 rows back and the blocks tile the array —, and the two [1, 512] rows end at the column sums Σ_i h(i, j) and
  Σ_i h(i, j)²: only the last point writes them back, its block is the whole row, and what it writes is the running
  rows after all 8 points, which are the sums over the blocks of the blocks' column sums (by induction on the number
  of points), regrouped as the sum over all 8192 rows.
-/
import proofs.«121768_j5368709120801_1_alg».proof.Proof.Mlp1
import proofs.«121768_j5368709120801_1_alg».proof.Proof.Mlp1Pay
import proofs.«121768_j5368709120801_1_alg».proof.Proof.Mlp1Blocks
import proofs.«121768_j5368709120801_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The arguments as curried functions -/

/-- The input rows. -/
abbrev mlp1_X (c : Dev nD) : Fin 8192 → Fin 256 → EReal := fun a k => V c main_arg0 (ix2 a k)
/-- The first layer's weight, row j the weights of hidden unit j (the array holds its transpose). -/
abbrev mlp1_W (c : Dev nD) : Fin 512 → Fin 256 → EReal := fun j k => V c main_v0 (ix2 k j)
/-- The first layer's bias (the array holds it as one row). -/
abbrev mlp1_B (c : Dev nD) : Fin 512 → EReal := fun j => V c main_v2 (ix2 0 j)

/-! ## A point's blocks, and the block of the hidden layer it computes -/

theorem iblk0_0_apply (c : Dev nD) (t : Fin cfg0.N) (p : Fin 1024) (k : Fin 256) :
    (iblk0 V c 0 t : S1024x256.Idx → EReal) (ix2 p k) = mlp1_X V c ⟨1024 * t.val + p.val, row_lt t p⟩ k :=
  read_blk0 (F := Ideal) c (V c main_arg0) t p k

theorem iblk0_1_apply (c : Dev nD) (t : Fin cfg0.N) (k : Fin 256) (q : Fin 512) :
    (iblk0 V c 1 t : S256x512.Idx → EReal) (ix2 k q) = mlp1_W V c q k :=
  read_blk1 (F := Ideal) c (V c main_v0) t k q

theorem iblk0_2_apply (c : Dev nD) (t : Fin cfg0.N) (q : Fin 512) :
    (iblk0 V c 2 t : S1x512.Idx → EReal) (ix2 0 q) = mlp1_B V c q :=
  read_blk2 (F := Ideal) c (V c main_v2) t 0 q

/-- Point t's block of the hidden layer at (p, q) is the hidden layer at row 1024·t + p. -/
theorem hblock_apply (c : Dev nD) (t : Fin cfg0.N) (p : Fin 1024) (q : Fin 512) :
    k0_pay3 (F := Ideal) (iblk0 V c 0 t) (iblk0 V c 1 t) (iblk0 V c 2 t) (ix2 p q)
      = Cert.Spec.hid (mlp1_X V c) (mlp1_W V c) (mlp1_B V c) ⟨1024 * t.val + p.val, row_lt t p⟩ q := by
  refine (pay3_apply _ _ _ p q).trans ?_
  show _ = (∑ k : Fin 256, mlp1_X V c ⟨1024 * t.val + p.val, row_lt t p⟩ k * mlp1_W V c q k) + mlp1_B V c q
  refine congrArg₂ (· + ·) (Finset.sum_congr rfl fun k _ => ?_) (iblk0_2_apply V c t q)
  exact congrArg₂ (· * ·) (iblk0_0_apply V c t p k) (iblk0_1_apply V c t k q)

/-! ## The hidden-layer array -/

/-- The hidden layer as contents of its array. -/
abbrev hidArr (c : Dev nD) : S8192x512.Idx → EReal := fun i => Cert.Spec.hid (mlp1_X V c) (mlp1_W V c) (mlp1_B V c) (i 0) (i 1)

/-- What point t writes back is its block of the hidden layer. -/
theorem flushed3_eq (c : Dev nD) (t : Fin cfg0.N) :
    (dat0 (F := Ideal) V c).flushed 3 t = ((cfg0.win 3).blk t).view.read (Elt Ideal) (hidArr V c) := by
  show (cfg0.win 3).cut (grid0.coords t) ((dat0 (F := Ideal) V c).after 3 t) = _
  rw [after0_3_clean]
  funext y
  obtain ⟨p, q, rfl⟩ : ∃ (p : Fin 1024) (q : Fin 512), y = ix2 p q := ⟨y 0, y 1, eq_ix2 y⟩
  refine Eq.trans ?_ (read_blk3 (F := Ideal) c (hidArr V c) t p q).symm
  exact hblock_apply V c t p q

/-- So the array ends holding the hidden layer. -/
theorem final3 (c : Dev nD) : (dat0 (F := Ideal) V c).arrAt 3 cfg0.N = hidArr V c :=
  (dat0 (F := Ideal) V c).arrAt_eq_of_cover 3 (hidArr V c) (fun t _ => flushed3_eq V c t) cover3

/-- The hidden-layer array after the region, read at (i, j). -/
theorem h_val (c : Dev nD) (i : Fin 8192) (j : Fin 512) :
    ((dat0 (F := Ideal) V c).arrAt 3 cfg0.N : S8192x512.Idx → EReal) (ix2 i j)
      = Cert.Spec.hid (mlp1_X V c) (mlp1_W V c) (mlp1_B V c) i j := by
  rw [final3]

/-! ## The running rows in closed form -/

/-- Column q of the hidden layer by row number (0 past the last row). -/
def hcol (c : Dev nD) (q : Fin 512) (r : ℕ) : EReal :=
  if h : r < 8192 then Cert.Spec.hid (mlp1_X V c) (mlp1_W V c) (mlp1_B V c) ⟨r, h⟩ q else 0

theorem hcol_of_lt (c : Dev nD) (q : Fin 512) (r : ℕ) (h : r < 8192) :
    hcol V c q r = Cert.Spec.hid (mlp1_X V c) (mlp1_W V c) (mlp1_B V c) ⟨r, h⟩ q := dif_pos h

/-- A block's column sum, by row number. -/
theorem block_sum (c : Dev nD) (t : Fin cfg0.N) (q : Fin 512) :
    ∑ p : Fin 1024, k0_pay3 (F := Ideal) (iblk0 V c 0 t) (iblk0 V c 1 t) (iblk0 V c 2 t) (ix2 p q)
      = ∑ p : Fin 1024, hcol V c q (1024 * t.val + p.val) :=
  Finset.sum_congr rfl fun p _ => (hblock_apply V c t p q).trans (hcol_of_lt V c q _ (row_lt t p)).symm

/-- A block's column sum of squares, by row number. -/
theorem block_sumsq (c : Dev nD) (t : Fin cfg0.N) (q : Fin 512) :
    ∑ p : Fin 1024, k0_pay3 (F := Ideal) (iblk0 V c 0 t) (iblk0 V c 1 t) (iblk0 V c 2 t) (ix2 p q)
        * k0_pay3 (F := Ideal) (iblk0 V c 0 t) (iblk0 V c 1 t) (iblk0 V c 2 t) (ix2 p q)
      = ∑ p : Fin 1024, hcol V c q (1024 * t.val + p.val) * hcol V c q (1024 * t.val + p.val) :=
  Finset.sum_congr rfl fun p _ => by
    rw [hblock_apply V c t p q, hcol_of_lt V c q _ (row_lt t p)]

/-- After n ≥ 1 points the running rows hold, at column q, the sums over the first n blocks of the blocks' column
    sums of the hidden layer and of its squares. -/
theorem acc_closed (c : Dev nD) (q : Fin 512) : ∀ n, 1 ≤ n → n ≤ 8 →
    (accAt0 V c n).1 (ix2 0 q) = ∑ t ∈ Finset.range n, ∑ p : Fin 1024, hcol V c q (1024 * t + p.val)
    ∧ (accAt0 V c n).2 (ix2 0 q)
        = ∑ t ∈ Finset.range n, ∑ p : Fin 1024, hcol V c q (1024 * t + p.val) * hcol V c q (1024 * t + p.val)
  | 0, h, _ => absurd h (by decide)
  | 1, _, _ => by
    rw [accAt0_one, Finset.sum_range_one, Finset.sum_range_one]
    refine ⟨?_, ?_⟩
    · refine (pay4_apply _ _ _ _ q).trans ?_
      rw [pay1_apply, zero_add]
      exact block_sum V c t0_0 q
    · refine (pay5_apply _ _ _ _ q).trans ?_
      rw [pay2_apply, zero_add]
      exact block_sumsq V c t0_0 q
  | n + 2, _, hn => by
    obtain ⟨ih1, ih2⟩ := acc_closed c q (n + 1) (Nat.succ_le_succ (Nat.zero_le n)) (by omega)
    rw [accAt0_succ V c n (by omega), Finset.sum_range_succ _ (n + 1), Finset.sum_range_succ _ (n + 1)]
    refine ⟨?_, ?_⟩
    · refine (pay4_apply _ _ _ _ q).trans ?_
      rw [ih1]
      exact congrArg _ (block_sum V c ⟨n + 1, _⟩ q)
    · refine (pay5_apply _ _ _ _ q).trans ?_
      rw [ih2]
      exact congrArg _ (block_sumsq V c ⟨n + 1, _⟩ q)

/-! ## The two rows of sums -/

/-- What the one write-back of the row of sums writes: the running row after all 8 points. -/
theorem flushed4_eq (c : Dev nD) (t : Fin cfg0.N) (hf : (cfg0.win 4).flush t = true) :
    (dat0 (F := Ideal) V c).flushed 4 t = ((cfg0.win 4).blk t).view.read (Elt Ideal) ((accAt0 V c 8).1) := by
  have h7 : t.val = 7 := (flush4_iff t).mp hf
  show (cfg0.win 4).cut (grid0.coords t) ((dat0 (F := Ideal) V c).after 4 t) = _
  rw [after0_4_clean, h7]
  exact (read_blk4 (F := Ideal) c _ t).symm

theorem flushed5_eq (c : Dev nD) (t : Fin cfg0.N) (hf : (cfg0.win 5).flush t = true) :
    (dat0 (F := Ideal) V c).flushed 5 t = ((cfg0.win 5).blk t).view.read (Elt Ideal) ((accAt0 V c 8).2) := by
  have h7 : t.val = 7 := (flush5_iff t).mp hf
  show (cfg0.win 5).cut (grid0.coords t) ((dat0 (F := Ideal) V c).after 5 t) = _
  rw [after0_5_clean, h7]
  exact (read_blk5 (F := Ideal) c _ t).symm

/-- So the rows end holding the running rows after all 8 points. -/
theorem final4 (c : Dev nD) : (dat0 (F := Ideal) V c).arrAt 4 cfg0.N = (accAt0 V c 8).1 :=
  (dat0 (F := Ideal) V c).arrAt_eq_of_cover 4 _ (flushed4_eq V c) cover4

theorem final5 (c : Dev nD) : (dat0 (F := Ideal) V c).arrAt 5 cfg0.N = (accAt0 V c 8).2 :=
  (dat0 (F := Ideal) V c).arrAt_eq_of_cover 5 _ (flushed5_eq V c) cover5

/-- The sum over the 8 blocks of the blocks' sums is the sum over the 8192 rows. -/
theorem blocks_total (c : Dev nD) (j : Fin 512) (g : EReal → EReal) :
    ∑ t ∈ Finset.range 8, ∑ p : Fin 1024, g (hcol V c j (1024 * t + p.val))
      = ∑ i : Fin 8192, g (Cert.Spec.hid (mlp1_X V c) (mlp1_W V c) (mlp1_B V c) i j) := by
  rw [sum_rows_blocks (fun i : Fin 8192 => g (Cert.Spec.hid (mlp1_X V c) (mlp1_W V c) (mlp1_B V c) i j)), Finset.sum_range]
  refine Finset.sum_congr rfl fun t _ => Finset.sum_congr rfl fun p _ => ?_
  rw [hcol_of_lt]

/-- The row of sums after the region, read at column j. -/
theorem sum_val (c : Dev nD) (j : Fin 512) :
    ((dat0 (F := Ideal) V c).arrAt 4 cfg0.N : S1x512.Idx → EReal) (ix2 0 j)
      = Cert.Spec.colSum (Cert.Spec.hid (mlp1_X V c) (mlp1_W V c) (mlp1_B V c)) j := by
  rw [final4]
  refine (acc_closed V c j 8 (by decide) (le_refl 8)).1.trans ?_
  exact blocks_total V c j id

/-- The row of sums of squares after the region, read at column j. -/
theorem sumsq_val (c : Dev nD) (j : Fin 512) :
    ((dat0 (F := Ideal) V c).arrAt 5 cfg0.N : S1x512.Idx → EReal) (ix2 0 j)
      = Cert.Spec.colSumSq (Cert.Spec.hid (mlp1_X V c) (mlp1_W V c) (mlp1_B V c)) j := by
  rw [final5]
  refine (acc_closed V c j 8 (by decide) (le_refl 8)).2.trans ?_
  exact blocks_total V c j (fun z => z * z)

end Cert.KernelIdeal.Hand

end
-- ==== Proof.Mlp2Value.lean ====
/-
  The second custom call's result array at the extended reals, entry by entry: the rectified, normalised hidden
  layer times the second weight matrix plus the second bias, as a function of the arrays the region finds.
  First the stored block at an index (the pointwise operations, the row broadcasts and the matrix product read at
  an entry), then the eight row blocks pieced into the [8192, 128] array: point t writes rows 1024·t … 1024·t + 1023.
-/
import proofs.«121768_j5368709120801_1_alg».proof.Proof.Mlp2
import proofs.«121768_j5368709120801_1_alg».proof.Proof.LibPlainDot
import proofs.«121768_j5368709120801_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The arrays the second custom call reads, as curried functions of their coordinates -/

/-- The hidden layer as the region finds it: an [8192, 512] array. -/
abbrev mlp2_H (c : Dev nD) : Fin 8192 → Fin 512 → EReal := fun a j => (V c main_v6_0 : S8192x512.Idx → EReal) (ix2 a j)
/-- The column means, a [1, 512] row. -/
abbrev mlp2_MU (c : Dev nD) : Fin 512 → EReal := fun j => (V c main_v8 : S1x512.Idx → EReal) (ix2 0 j)
/-- The inverse standard deviations, a [1, 512] row. -/
abbrev mlp2_IS (c : Dev nD) : Fin 512 → EReal := fun j => (V c main_v15 : S1x512.Idx → EReal) (ix2 0 j)
/-- The scale, a [1, 512] row. -/
abbrev mlp2_G (c : Dev nD) : Fin 512 → EReal := fun j => (V c main_v3 : S1x512.Idx → EReal) (ix2 0 j)
/-- The shift, a [1, 512] row. -/
abbrev mlp2_B (c : Dev nD) : Fin 512 → EReal := fun j => (V c main_v4 : S1x512.Idx → EReal) (ix2 0 j)
/-- The second weight matrix, stored transposed as [512, 128]: entry (o, j) of the matrix is entry (j, o) of the array. -/
abbrev mlp2_W2 (c : Dev nD) : Fin 128 → Fin 512 → EReal := fun o j => (V c main_v1 : S512x128.Idx → EReal) (ix2 j o)
/-- The second bias, a [1, 128] row. -/
abbrev mlp2_B2 (c : Dev nD) : Fin 128 → EReal := fun o => (V c main_v5 : S1x128.Idx → EReal) (ix2 0 o)

/-! ## The payload at an index -/

/-- The stored block at row `p`, column `q`, from the loaded blocks: the row of the first block is normalised by the
    four [1, 512] rows, rectified, multiplied into column `q` of the [512, 128] block and shifted by the last row. -/
theorem mlp2_pay_apply (x0 : Vec Ideal S1024x512 .f32) (x1 x2 x3 x4 : Vec Ideal S1x512 .f32) (x5 : Vec Ideal S512x128 .f32)
    (x6 : Vec Ideal S1x128 .f32) (p : Fin 1024) (q : Fin 128) :
    k1_pay1 x0 x1 x2 x3 x4 x5 x6 (ix2 p q)
      = (∑ j : Fin 512, max ((x0 (ix2 p j) - x1 (ix2 0 j)) * x2 (ix2 0 j) * x3 (ix2 0 j) + x4 (ix2 0 j)) Cert.Spec.zero * x5 (ix2 j q))
        + x6 (ix2 0 q) := by
  unfold k1_pay1
  simp only [shapeCast_self]
  rw [addf_apply, broadcastTo_1b_ab_apply]
  refine congrArg (· + x6 (ix2 0 q)) ?_
  refine (PlainDot.matmul_zero_apply ⟨rfl, rfl, rfl, rfl, rfl, rfl⟩ _ _ _ p q).trans ?_
  refine Finset.sum_congr rfl fun j _ => ?_
  rw [maximumf_apply, addf_apply, mulf_apply, mulf_apply, subf_apply, broadcastTo_1b_ab_apply, broadcastTo_1b_ab_apply,
    broadcastTo_1b_ab_apply, broadcastTo_1b_ab_apply, broadcast_apply]
  rfl

/-- The same when row `p` of the first block is row `i` of a hidden array and the other blocks are the whole rows and
    the whole transposed matrix: the entry of the embedding at row `i`. -/
theorem mlp2_pay_rows (x0 : Vec Ideal S1024x512 .f32) (x1 x2 x3 x4 : Vec Ideal S1x512 .f32) (x5 : Vec Ideal S512x128 .f32)
    (x6 : Vec Ideal S1x128 .f32) (Hf : Fin 8192 → Fin 512 → EReal) (mu is g b : Fin 512 → EReal)
    (w2 : Fin 128 → Fin 512 → EReal) (b2 : Fin 128 → EReal) (p : Fin 1024) (q : Fin 128) (i : Fin 8192)
    (h0 : ∀ j : Fin 512, x0 (ix2 p j) = Hf i j) (h1 : ∀ j : Fin 512, x1 (ix2 0 j) = mu j)
    (h2 : ∀ j : Fin 512, x2 (ix2 0 j) = is j) (h3 : ∀ j : Fin 512, x3 (ix2 0 j) = g j)
    (h4 : ∀ j : Fin 512, x4 (ix2 0 j) = b j) (h5 : ∀ j : Fin 512, x5 (ix2 j q) = w2 q j) (h6 : x6 (ix2 0 q) = b2 q) :
    k1_pay1 x0 x1 x2 x3 x4 x5 x6 (ix2 p q) = Cert.Spec.emb (Cert.Spec.act Hf mu is g b) w2 b2 i q := by
  rw [mlp2_pay_apply, h6]
  unfold Cert.Spec.emb Cert.Spec.act
  refine congrArg (· + b2 q) (Finset.sum_congr rfl fun j _ => ?_)
  rw [h0, h1, h2, h3, h4, h5]

/-! ## From blocks to the array -/

/-- The zero offsets, however spelt. -/
theorem mlp2_hz : (![0, 0] : Fin 2 → Nat) = fun _ => 0 := funext fun a => by fin_cases a <;> rfl

/-- What the result array ends holding: the embedding of the rectified normalised hidden layer, entry by entry. -/
def mlp2_embArr (c : Dev nD) : Buf (Elt Ideal) ((c : Thread nD τ).loc main_v16) :=
  fun (idx : S8192x128.Idx) => Cert.Spec.emb (Cert.Spec.act (mlp2_H V c) (mlp2_MU V c) (mlp2_IS V c) (mlp2_G V c) (mlp2_B V c))
    (mlp2_W2 V c) (mlp2_B2 V c) (idx 0) (idx 1)

/-- The printed index maps, decided over the grid: the hidden block and the result block at point `t` are row block `t`;
    every other window sits at block (0, 0) throughout. -/
theorem mlp2_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The grid has 8 points. -/
theorem mlp2_N : cfg1.N = 8 := N_1

/-- What point `t` writes back is block `t` of the embedding. -/
theorem mlp2_flushed_eq (c : Dev nD) (t : Fin cfg1.N) :
    (dat1 V c).flushed 7 t = ((cfg1.win 7).blk t).view.read (Elt Ideal) (mlp2_embArr V c) := by
  show (cfg1.win 7).cut (grid1.coords t) ((dat1 V c).after 7 t) = _
  rw [after1_7]
  unfold out1_7
  rw [View.canon_unit_zero mlp2_hz]
  simp only [View.ld_unit_zero (S := S1024x512) mlp2_hz, View.ld_unit_zero (S := S1x512) mlp2_hz, View.ld_unit_zero (S := S512x128) mlp2_hz,
    View.ld_unit_zero (S := S1x128) mlp2_hz]
  obtain ⟨e00, e01, e10, e11, e20, e21, e30, e31, e40, e41, e50, e51, e60, e61, e70, e71⟩ := mlp2_idx_facts t
  have ht : t.val < 8 := lt_of_lt_of_eq t.isLt mlp2_N
  funext (j : S1024x128.Idx)
  obtain ⟨p, q, rfl⟩ : ∃ (p : Fin 1024) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 p q)
    = mlp2_embArr V c (((cfg1.win 7).blk t).view.emb (ix2 p q))
  have hemb : ((cfg1.win 7).blk t).view.emb (ix2 p q) = (ix2 (⟨1024 * t.val + p.val, by omega⟩ : Fin 8192) q : S8192x128.Idx) := by
    funext a; apply Fin.ext
    match a with
    | ⟨0, _⟩ => show win1_7.index t (0 : Fin 2) * 1024 + 1 * p.val = 1024 * t.val + p.val; omega
    | ⟨1, _⟩ => show win1_7.index t (1 : Fin 2) * 128 + 1 * q.val = q.val; omega
  rw [hemb]
  show _ = Cert.Spec.emb (Cert.Spec.act (mlp2_H V c) (mlp2_MU V c) (mlp2_IS V c) (mlp2_G V c) (mlp2_B V c)) (mlp2_W2 V c) (mlp2_B2 V c)
    (⟨1024 * t.val + p.val, by omega⟩ : Fin 8192) q
  refine mlp2_pay_rows _ _ _ _ _ _ _ _ _ _ _ _ _ _ p q _ ?_ ?_ ?_ ?_ ?_ ?_ ?_
  · intro j
    show (V c main_v6_0 : S8192x512.Idx → EReal) (((cfg1.win 0).blk t).view.emb (ix2 p j))
      = (V c main_v6_0 : S8192x512.Idx → EReal) (ix2 (⟨1024 * t.val + p.val, by omega⟩ : Fin 8192) j)
    refine congrArg _ (funext fun a => Fin.ext ?_)
    match a with
    | ⟨0, _⟩ => show win1_0.index t (0 : Fin 2) * 1024 + 1 * p.val = 1024 * t.val + p.val; omega
    | ⟨1, _⟩ => show win1_0.index t (1 : Fin 2) * 512 + 1 * j.val = j.val; omega
  · intro j
    show (V c main_v8 : S1x512.Idx → EReal) (((cfg1.win 1).blk t).view.emb (ix2 (0 : Fin 1) j)) = (V c main_v8 : S1x512.Idx → EReal) (ix2 (0 : Fin 1) j)
    refine congrArg _ (funext fun a => Fin.ext ?_)
    match a with
    | ⟨0, _⟩ => show win1_1.index t (0 : Fin 2) * 1 + 1 * 0 = 0; omega
    | ⟨1, _⟩ => show win1_1.index t (1 : Fin 2) * 512 + 1 * j.val = j.val; omega
  · intro j
    show (V c main_v15 : S1x512.Idx → EReal) (((cfg1.win 2).blk t).view.emb (ix2 (0 : Fin 1) j)) = (V c main_v15 : S1x512.Idx → EReal) (ix2 (0 : Fin 1) j)
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * j.val = j.val; omega
  · intro j
    show (V c main_v3 : S1x512.Idx → EReal) (((cfg1.win 3).blk t).view.emb (ix2 (0 : Fin 1) j)) = (V c main_v3 : S1x512.Idx → EReal) (ix2 (0 : Fin 1) j)
    refine congrArg _ (funext fun a => Fin.ext ?_)
    match a with
    | ⟨0, _⟩ => show win1_3.index t (0 : Fin 2) * 1 + 1 * 0 = 0; omega
    | ⟨1, _⟩ => show win1_3.index t (1 : Fin 2) * 512 + 1 * j.val = j.val; omega
  · intro j
    show (V c main_v4 : S1x512.Idx → EReal) (((cfg1.win 4).blk t).view.emb (ix2 (0 : Fin 1) j)) = (V c main_v4 : S1x512.Idx → EReal) (ix2 (0 : Fin 1) j)
    refine congrArg _ (funext fun a => Fin.ext ?_)
    match a with
    | ⟨0, _⟩ => show win1_4.index t (0 : Fin 2) * 1 + 1 * 0 = 0; omega
    | ⟨1, _⟩ => show win1_4.index t (1 : Fin 2) * 512 + 1 * j.val = j.val; omega
  · intro j
    show (V c main_v1 : S512x128.Idx → EReal) (((cfg1.win 5).blk t).view.emb (ix2 j q)) = (V c main_v1 : S512x128.Idx → EReal) (ix2 j q)
    refine congrArg _ (funext fun a => Fin.ext ?_)
    match a with
    | ⟨0, _⟩ => show win1_5.index t (0 : Fin 2) * 512 + 1 * j.val = j.val; omega
    | ⟨1, _⟩ => show win1_5.index t (1 : Fin 2) * 128 + 1 * q.val = q.val; omega
  · show (V c main_v5 : S1x128.Idx → EReal) (((cfg1.win 6).blk t).view.emb (ix2 (0 : Fin 1) q)) = (V c main_v5 : S1x128.Idx → EReal) (ix2 (0 : Fin 1) q)
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * q.val = q.val; omega

/-- An index of the array is in point `t`'s block iff each coordinate is in the block's range on its axis. -/
theorem mlp2_mem_blk (t : Fin cfg1.N) (i : S8192x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v16).slice (win1_7.rect t)).set ↔ _
  rw [View.set_slice_whole, Rect.mem_set_unit]
  exact Iff.rfl

/-- Every row of the array is in some point's block: row `r` in the block of point `r / 1024`. -/
theorem mlp2_cover (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  let t : Fin cfg1.N := ⟨(i 0).val / 1024, by rw [mlp2_N]; omega⟩
  obtain ⟨-, -, -, -, -, -, -, -, -, -, -, -, -, -, e70, e71⟩ := mlp2_idx_facts t
  have htv : t.val = (i 0).val / 1024 := rfl
  refine ⟨t, flush1_7 t, ?_⟩
  rw [mlp2_mem_blk]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 128 ≤ (i 1).val ∧ (i 1).val < win1_7.index t (1 : Fin 2) * 128 + 128; omega

/-- The result array after the region: the embedding, whole. -/
theorem mlp2_final (c : Dev nD) : (dat1 V c).arrAt 7 cfg1.N = mlp2_embArr V c :=
  (dat1 V c).arrAt_eq_of_cover 7 (mlp2_embArr V c) (fun t _ => mlp2_flushed_eq V c t) mlp2_cover

/-- The result array read at row `i`, column `o`. -/
theorem emb_val (c : Dev nD) (i : Fin 8192) (o : Fin 128) :
    ((dat1 (F := Ideal) V c).arrAt 7 cfg1.N : S8192x128.Idx → EReal) (ix2 i o)
      = Cert.Spec.emb (Cert.Spec.act (mlp2_H V c) (mlp2_MU V c) (mlp2_IS V c) (mlp2_G V c) (mlp2_B V c)) (mlp2_W2 V c) (mlp2_B2 V c) i o := by
  rw [mlp2_final]
  rfl

end Cert.KernelIdeal.Hand

end
-- ==== Proof.LibRowDot.lean ====
/-
  A matrix product of an [R, K] operand by a [C, K] operand, contracted over the SECOND axis of both (the
  dimension numbers lhs_contracting = [1], rhs_contracting = [1], no batch axes), read at an entry (p, q) on the
  extended reals: the sum over k of l(p, k) · r(q, k) — row p of the left operand against row q of the right one,
  that is l · rᵀ. Stated for ANY dimension-number record of that form, whatever its name and whatever R, K, C are.
-/
import Idealize.ShloMosaic.PureOps.Ideal.Laws
import Idealize.ShloMosaic.Lib.ValueIdx

noncomputable section

namespace Idealize.ShloMosaic.RowDot

open Idealize.ShloMosaic Idealize.ShloMosaic.ValueIdx

variable {R K C : ℕ}

/-- The dimension numbers of a row-by-row product: axis 1 of the left operand is contracted with axis 1 of the right
    operand; axis 0 of the left operand and axis 0 of the right operand survive, in that order; no batch axes. -/
structure IsRowRow (d : DotDims ⟨2, ![R, K]⟩ ⟨2, ![C, K]⟩ ⟨2, ![R, C]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![R, K]⟩ ⟨2, ![C, K]⟩ ⟨2, ![R, C]⟩}

/-- A coordinate of an index depends on the position of the axis only. -/
private theorem coord_at {s : Shape} (j : s.Idx) (a b : Nat) (ha : a < s.rank) (hb : b < s.rank) (e : a = b) :
    (j ⟨a, ha⟩).val = (j ⟨b, hb⟩).val := by subst e; rfl

/-- Axis 0 of the left operand: the result's row. -/
theorem lhs_axis0 (h : IsRowRow d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_at j _ _ _ _ (by simp [h.lb, h.ln])

/-- Axis 0 of the right operand: the result's COLUMN (the right operand's surviving axis comes second in the result). -/
theorem rhs_axis0 (h : IsRowRow d) (j : (⟨2, ![R, C]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_at j _ _ _ _ (by simp [h.lb, h.ln, h.rn])

/-- One axis is contracted … -/
theorem contr_rank (h : IsRowRow d) : d.contr.rank = 1 := by
  rw [d.rank_contr, h.lc]; rfl

/-- … and its extent is K. -/
theorem contr_size (h : IsRowRow d) : d.contr.size ⟨0, by rw [contr_rank h]; exact Nat.one_pos⟩ = K := by
  rw [d.size_contr 0 (by rw [h.lc]; exact Nat.one_pos)]
  simp [h.lc]

/-- Axis 1 of the left operand at the k-th contraction position: k. -/
theorem lhs_axis1 (h : IsRowRow d) (j : (⟨2, ![R, C]⟩ : Shape).Idx) (k : Fin K) :
    (d.lhsIdx j ((contrEquiv1 d K (contr_rank h) (contr_size h)).symm k) 1).val = k.val :=
  (d.lhsIdx_val_of_single h.lc _ _).trans (contrEquiv1_symm_val d K (contr_rank h) (contr_size h) k)

/-- Axis 1 of the right operand at the k-th contraction position: k. -/
theorem rhs_axis1 (h : IsRowRow d) (j : (⟨2, ![R, C]⟩ : Shape).Idx) (k : Fin K) :
    (d.rhsIdx j ((contrEquiv1 d K (contr_rank h) (contr_size h)).symm k) 1).val = k.val :=
  (d.rhsIdx_val_of_single h.rc _ _).trans (contrEquiv1_symm_val d K (contr_rank h) (contr_size h) k)

/-- The contraction's sum at (p, q), re-indexed by the contracted coordinate. -/
theorem sum_apply (h : IsRowRow d) {φ₁ φ₂ : FTy} (l : FVec Ideal ⟨2, ![R, K]⟩ φ₁) (r : FVec Ideal ⟨2, ![C, K]⟩ φ₂)
    (p : Fin R) (q : Fin C) :
    (∑ k : d.contr.Idx, l (d.lhsIdx (ix2 p q) k) * r (d.rhsIdx (ix2 p q) k)) = ∑ k : Fin K, l (ix2 p k) * r (ix2 q k) := by
  rw [← Equiv.sum_comp (contrEquiv1 d K (contr_rank h) (contr_size h)).symm]
  refine Finset.sum_congr rfl fun k _ => ?_
  have el : d.lhsIdx (ix2 p q) ((contrEquiv1 d K (contr_rank h) (contr_size h)).symm k) = ix2 p k :=
    funext fun a => Fin.ext (by
      match a with
      | ⟨0, _⟩ => exact lhs_axis0 h _ _
      | ⟨1, _⟩ => exact lhs_axis1 h _ k)
  have er : d.rhsIdx (ix2 p q) ((contrEquiv1 d K (contr_rank h) (contr_size h)).symm k) = ix2 q k :=
    funext fun a => Fin.ext (by
      match a with
      | ⟨0, _⟩ => exact rhs_axis0 h _ _
      | ⟨1, _⟩ => exact rhs_axis1 h _ k)
  rw [el, er]

/-- A kernel's matrix product into a zero accumulator, read at (p, q). -/
theorem matmul_zero_apply (h : IsRowRow d) {φ₁ φ₂ : FTy} (prec : Option ContractPrecision)
    (l : FVec Ideal ⟨2, ![R, K]⟩ φ₁) (r : FVec Ideal ⟨2, ![C, K]⟩ φ₂) (p : Fin R) (q : Fin C) :
    FloatOps.matmul d prec l r (constant ⟨2, ![R, C]⟩ .f32 0x00000000#32) (ix2 p q) = ∑ k : Fin K, l (ix2 p k) * r (ix2 q k) := by
  rw [Ideal.matmul_constant_zero_apply]
  exact sum_apply h l r p q

end Idealize.ShloMosaic.RowDot

end
-- ==== Proof.AdjPay.lean ====
/-
  The third kernel's block computation read at an entry, on the extended reals.

  One grid step (i₀, i₁) of the 16 × 16 grid holds two [512, 128] blocks a and b of the embedding's rows: rows
  512·i₀ … of the array in a, rows 512·i₁ … in b. The [512, 512] block it stores is, at (p, q): with
  s = Σ_k a(p, k) · b(q, k) the score of row p of a against row q of b, the value σ(s) where the global row number
  512·i₀ + p is strictly below the global column number 512·i₁ + q and σ(s) ≥ 1/2, and 0 elsewhere.
  The row and column numbers are computed in 32-bit words; they stay below 8192, so the signed word comparison is
  the comparison of the numbers.
-/
import proofs.«121768_j5368709120801_1_alg».proof.Proof.Gen.KernelIdeal.Skeleton
import proofs.«121768_j5368709120801_1_alg».proof.Proof.LibRowDot
import proofs.«121768_j5368709120801_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## Words -/

/-- The word of a block's first row number plus an offset: no wrapping is involved, the equation holds modulo 2³². -/
theorem word_block_add (n p : ℕ) : BitVec.ofNat 32 n * 512#32 + BitVec.ofNat 32 p = BitVec.ofNat 32 (512 * n + p) := by
  rw [← BitVec.ofNat_mul, ← BitVec.ofNat_add, Nat.mul_comm]

/-- Two numbers below 8192, as 32-bit words, compare signed as the numbers do. -/
theorem slt_small (x y : ℕ) (hx : x < 8192) (hy : y < 8192) :
    IntOp.cmpi .slt (BitVec.ofNat 32 x) (BitVec.ofNat 32 y) = 1#1 ↔ x < y :=
  StableHlo.Predicate.slt_ofNat_iff x y (by omega) (by omega)

/-- The conjunction of two one-bit words is set exactly when both are. -/
theorem andi_eq_one_iff (c₁ c₂ : BitVec 1) : IntOp.andi c₁ c₂ = 1#1 ↔ c₁ = 1#1 ∧ c₂ = 1#1 := by
  rcases BitVec.eq_zero_or_eq_one c₁ with rfl | rfl <;> rcases BitVec.eq_zero_or_eq_one c₂ with rfl | rfl <;> decide

/-- The order comparison "x ≥ y" on the extended reals, as a one-bit word. -/
theorem cmp_oge_eq_one_iff (x y : EReal) : Ideal.cmp .oge x y = 1#1 ↔ y ≤ x := by
  show BitVec.ofBool (decide (y ≤ x)) = 1#1 ↔ y ≤ x
  rw [StableHlo.Predicate.ofBool_eq_one_iff, decide_eq_true_iff]

/-! ## The integer vector operations at an index (definitional) -/

section AtIndex
variable {s : Shape} {w : ℕ}

/-- A sum of integer vectors at an index adds the elements. -/
theorem addi_apply (x y : IVec s w) (j : s.Idx) : addi x y j = IntOp.addi (x j) (y j) := rfl
/-- A bitwise conjunction at an index. -/
theorem andi_apply (x y : IVec s w) (j : s.Idx) : andi x y j = IntOp.andi (x j) (y j) := rfl
/-- An integer comparison at an index compares the elements. -/
theorem cmpi_apply (c : CmpIPredicate) (x y : IVec s w) (j : s.Idx) : cmpi c x y j = IntOp.cmpi c (x j) (y j) := rfl
/-- The logistic function at an index, on the extended reals. -/
theorem logistic_apply {φ : FTy} (x : FVec Ideal s φ) (j : s.Idx) : logistic x j = Ideal.logistic (x j) := rfl

end AtIndex

/-! ## One column broadcast over many -/

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The global row and column numbers -/

/-- The row-number word at (p, q): the block's first row 512·n plus p. -/
theorem row_word (n : ℕ) (hi : S512x1.Iotas .tc 32 [0]) (hb : S512x1.Broadcasts S512x512) (p q : Fin 512) :
    broadcastTo S512x512 (addi (broadcast S512x1 (Scalar.muli (BitVec.ofNat 32 n) 512#32)) (iota .tc S512x1 32 [0] hi)) hb (ix2 p q)
      = BitVec.ofNat 32 (512 * n + p.val) := by
  rw [broadcastTo_a1_ab_apply, addi_apply, broadcast_apply, iota_single_apply]
  exact word_block_add n p.val

/-- The column-number word at (p, q): the block's first column 512·n plus q. -/
theorem col_word (n : ℕ) (hi : S1x512.Iotas .tc 32 [1]) (hb : S1x512.Broadcasts S512x512) (p q : Fin 512) :
    broadcastTo S512x512 (addi (broadcast S1x512 (Scalar.muli (BitVec.ofNat 32 n) 512#32)) (iota .tc S1x512 32 [1] hi)) hb (ix2 p q)
      = BitVec.ofNat 32 (512 * n + q.val) := by
  rw [broadcastTo_1b_ab_apply, addi_apply, broadcast_apply, iota_single_apply]
  exact word_block_add n q.val

/-! ## The score -/

/-- The block product at (p, q): row p of a against row q of b. -/
theorem score_apply (a b : FVec Ideal S512x128 .f32) (p q : Fin 512) :
    matmul (F := Ideal) dot_S512x128_S512x128_S512x512_1_1_0_0_n_n (some .fp32) a b (constant (F := Ideal) S512x512 .f32 0x00000000#32) (ix2 p q)
      = ∑ k : Fin 128, a (ix2 p k) * b (ix2 q k) :=
  RowDot.matmul_zero_apply ⟨rfl, rfl, rfl, rfl, rfl, rfl⟩ _ a b p q

/-! ## The stored block at an entry -/

/-- The stored block at (p, q): σ(score) kept where the global row number is strictly below the global column number
    and σ(score) ≥ 1/2, else 0. -/
theorem pay_apply (i : grid2.Coords) (a b : Vec Ideal S512x128 .f32) (p q : Fin 512) :
    k2_pay1 (F := Ideal) i a b (ix2 p q)
      = if (512 * (i 0).val + p.val < 512 * (i 1).val + q.val
            ∧ Cert.Spec.half ≤ Ideal.logistic (∑ k : Fin 128, a (ix2 p k) * b (ix2 q k)))
        then Ideal.logistic (∑ k : Fin 128, a (ix2 p k) * b (ix2 q k)) else Cert.Spec.zero := by
  have hi0 : (i 0).val < 16 := (i 0).isLt
  have hi1 : (i 1).val < 16 := (i 1).isLt
  have hp : p.val < 512 := p.isLt
  have hq : q.val < 512 := q.isLt
  unfold k2_pay1
  rw [select_apply, andi_apply, cmpi_apply, cmpf_apply, logistic_apply, row_word, col_word, broadcast_apply,
    broadcast_apply, shapeCast_self, shapeCast_self, score_apply a b p q]
  have hlt := slt_small (512 * (i 0).val + p.val) (512 * (i 1).val + q.val) (by omega) (by omega)
  have hge := cmp_oge_eq_one_iff (Ideal.logistic (∑ k : Fin 128, a (ix2 p k) * b (ix2 q k))) Cert.Spec.half
  by_cases h : 512 * (i 0).val + p.val < 512 * (i 1).val + q.val
      ∧ Cert.Spec.half ≤ Ideal.logistic (∑ k : Fin 128, a (ix2 p k) * b (ix2 q k))
  · rw [if_pos h]
    exact if_pos ((andi_eq_one_iff _ _).mpr ⟨hlt.mpr h.1, hge.mpr h.2⟩)
  · rw [if_neg h]
    exact if_neg fun e => h ⟨hlt.mp ((andi_eq_one_iff _ _).mp e).1, hge.mp ((andi_eq_one_iff _ _).mp e).2⟩

end Cert.KernelIdeal.Hand

end
-- ==== Proof.AdjValue.lean ====
/-
  The value of the third kernel's result array, on the extended reals.

  The region finds the [8192, 128] embedding array E in place and leaves the [8192, 8192] array of the adjacency:
  at (i, j) the value σ(Σ_k E(i, k) · E(j, k)) where i < j and that value is at least 1/2, and 0 elsewhere.
  Point t = (a, b) of the 16 × 16 grid, a = t / 16 and b = t % 16, reads rows 512·a … of E through the first window
  and rows 512·b … of E through the second, and writes back block (a, b) of the result: so every written block is the
  restriction of ONE function of E, the blocks cover the array, and the array ends holding that function.
-/
import proofs.«121768_j5368709120801_1_alg».proof.Proof.Adj
import proofs.«121768_j5368709120801_1_alg».proof.Proof.AdjPay
import proofs.«121768_j5368709120801_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

section AdjValue
variable (V : (c : Dev nD) → (b : Ref sig .tc) → Buf (Elt Ideal) ((c : Thread nD τ).loc b))

/-- The zero offsets of a whole-buffer access, as the constant function. -/
theorem hz2 : (![0, 0] : Fin 2 → Nat) = fun _ => 0 := funext fun a => by fin_cases a <;> rfl

/-- The embedding array as the region finds it, by coordinates. -/
def embAt (c : Dev nD) : Fin 8192 → Fin 128 → EReal :=
  fun r k => (V c main_v16 : S8192x128.Idx → EReal) (ix2 r k)

/-- The adjacency array as ONE function of the embedding array, index by index. -/
def adjArr (c : Dev nD) : S8192x8192.Idx → EReal :=
  fun i => Cert.Spec.adj (embAt V c) ⟨(i 0).val, idx2_lt0 i⟩ ⟨(i 1).val, idx2_lt1 i⟩

/-! ## The index maps, decided over the grid -/

/-- Point t has coordinates (t / 16, t % 16); the first window's block is row block t / 16, the second's row block
    t % 16 (both at column block 0), the result's block is (t / 16, t % 16). -/
theorem idx_facts2 : ∀ t : Fin cfg2.N,
    win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = t.val % 16
    ∧ (grid2.coords t (0 : Fin 2)).val = t.val / 16 ∧ (grid2.coords t (1 : Fin 2)).val = t.val % 16 :=
  (by decide +kernel : ∀ t : Fin grid2.N, _)

theorem lt_N2 (t : Fin cfg2.N) : t.val < 256 := by
  have h : cfg2.N = 256 := N_2
  have := t.isLt
  omega

/-! ## The input blocks, read off the embedding array -/

/-- The first window's block at point t is rows 512·(t / 16) … of the embedding array. -/
theorem iblk2_0_apply (c : Dev nD) (t : Fin cfg2.N) (p : Fin 512) (k : Fin 128) :
    (iblk2 V c 0 t : Vec Ideal S512x128 .f32) (ix2 p k)
      = embAt V c ⟨512 * (t.val / 16) + p.val, by have := lt_N2 t; have := p.isLt; omega⟩ k := by
  obtain ⟨e0, e1, -⟩ := idx_facts2 t
  unfold iblk2 embAt
  rw [View.read_apply]
  show V c main_v16 _ = V c main_v16 _
  congr 1
  funext a
  apply Fin.ext
  match a with
  | ⟨0, _⟩ => show win2_0.index t (0 : Fin 2) * 512 + 1 * p.val = 512 * (t.val / 16) + p.val; rw [e0]; omega
  | ⟨1, _⟩ => show win2_0.index t (1 : Fin 2) * 128 + 1 * k.val = k.val; rw [e1]; omega

/-- The second window's block at point t is rows 512·(t % 16) … of the embedding array. -/
theorem iblk2_1_apply (c : Dev nD) (t : Fin cfg2.N) (q : Fin 512) (k : Fin 128) :
    (iblk2 V c 1 t : Vec Ideal S512x128 .f32) (ix2 q k)
      = embAt V c ⟨512 * (t.val % 16) + q.val, by have := q.isLt; omega⟩ k := by
  obtain ⟨-, -, e2, e3, -⟩ := idx_facts2 t
  unfold iblk2 embAt
  rw [View.read_apply]
  show V c main_v16 _ = V c main_v16 _
  congr 1
  funext a
  apply Fin.ext
  match a with
  | ⟨0, _⟩ => show win2_1.index t (0 : Fin 2) * 512 + 1 * q.val = 512 * (t.val % 16) + q.val; rw [e2]; omega
  | ⟨1, _⟩ => show win2_1.index t (1 : Fin 2) * 128 + 1 * k.val = k.val; rw [e3]; omega

/-! ## The block a point stores -/

/-- What point t stores at (p, q) is the adjacency at global row 512·(t / 16) + p and column 512·(t % 16) + q. -/
theorem block_apply (c : Dev nD) (t : Fin cfg2.N) (p q : Fin 512) :
    k2_pay1 (F := Ideal) (grid2.coords t) (iblk2 V c 0 t) (iblk2 V c 1 t) (ix2 p q)
      = Cert.Spec.adj (embAt V c) ⟨512 * (t.val / 16) + p.val, by have := lt_N2 t; have := p.isLt; omega⟩
          ⟨512 * (t.val % 16) + q.val, by have := q.isLt; omega⟩ := by
  obtain ⟨-, -, -, -, -, -, e6, e7⟩ := idx_facts2 t
  rw [pay_apply]
  simp only [iblk2_0_apply V c t, iblk2_1_apply V c t]
  rw [e6, e7]
  rfl

/-! ## What a point writes back -/

/-- What point t writes back is block t of the adjacency array. -/
theorem flushed2_eq (c : Dev nD) (t : Fin cfg2.N) :
    (dat2 V c).flushed 2 t = ((cfg2.win 2).blk t).view.read (Elt Ideal) (adjArr V c) := by
  obtain ⟨-, -, -, -, e4, e5, -⟩ := idx_facts2 t
  show (cfg2.win 2).cut (grid2.coords t) ((dat2 V c).after 2 t) = _
  rw [after2_2]
  unfold out2_2
  rw [View.canon_unit_zero hz2]
  simp only [View.ld_unit_zero (S := S512x128) hz2]
  refine funext ?_
  show ∀ y : S512x512.Idx, k2_pay1 (F := Ideal) (grid2.coords t) (iblk2 V c 0 t) (iblk2 V c 1 t) y
      = adjArr V c (((cfg2.win 2).blk t).view.emb y)
  intro y
  obtain ⟨p, q, rfl⟩ : ∃ (p q : Fin 512), y = ix2 p q := ⟨y 0, y 1, eq_ix2 y⟩
  rw [block_apply V c t p q]
  unfold adjArr
  congr 1 <;> apply Fin.ext
  · show 512 * (t.val / 16) + p.val = win2_2.index t (0 : Fin 2) * 512 + 1 * p.val
    rw [e4]; omega
  · show 512 * (t.val % 16) + q.val = win2_2.index t (1 : Fin 2) * 512 + 1 * q.val
    rw [e5]; omega

/-! ## The blocks cover the array -/

/-- An index of the array is in point t's block iff each coordinate is in the block's range on its axis. -/
theorem mem_blk2 (t : Fin cfg2.N) (i : S8192x8192.Idx) :
    i ∈ ((cfg2.win 2).blk t).view.set
      ↔ ∀ a : Fin 2, win2_2.index t a * S512x512.size a ≤ (i a).val ∧ (i a).val < win2_2.index t a * S512x512.size a + S512x512.size a := by
  show i ∈ ((View.whole main_v17).slice (win2_2.rect t)).set ↔ _
  rw [View.set_slice_whole, Rect.mem_set_unit]
  exact Iff.rfl

/-- Every index is in the block of the point 16·(row / 512) + column / 512, which writes back. -/
theorem cover2 (i : S8192x8192.Idx) :
    ∃ t : Fin cfg2.N, (cfg2.win 2).flush t = true ∧ i ∈ ((cfg2.win 2).blk t).view.set := by
  have h0 : (i 0).val < 8192 := idx2_lt0 i
  have h1 : (i 1).val < 8192 := idx2_lt1 i
  have hN : cfg2.N = 256 := N_2
  let t : Fin cfg2.N := ⟨16 * ((i 0).val / 512) + (i 1).val / 512, by omega⟩
  have ht : t.val = 16 * ((i 0).val / 512) + (i 1).val / 512 := rfl
  obtain ⟨-, -, -, -, e4, e5, -⟩ := idx_facts2 t
  refine ⟨t, flush2_2 t, ?_⟩
  rw [mem_blk2]
  intro a
  match a with
  | ⟨0, _⟩ =>
    show win2_2.index t (0 : Fin 2) * 512 ≤ (i 0).val ∧ (i 0).val < win2_2.index t (0 : Fin 2) * 512 + 512
    rw [e4, ht]; omega
  | ⟨1, _⟩ =>
    show win2_2.index t (1 : Fin 2) * 512 ≤ (i 1).val ∧ (i 1).val < win2_2.index t (1 : Fin 2) * 512 + 512
    rw [e5, ht]; omega

/-! ## The array after the run -/

/-- The result array ends holding the adjacency array. -/
theorem final2 (c : Dev nD) : (dat2 V c).arrAt 2 cfg2.N = adjArr V c :=
  (dat2 V c).arrAt_eq_of_cover 2 (adjArr V c) (fun t _ => flushed2_eq V c t) cover2

/-- The result array at (i, j): the adjacency of the embedding array the region found. -/
theorem adj_val (c : Dev nD) (i j : Fin 8192) :
    ((dat2 (F := Ideal) V c).arrAt 2 cfg2.N : S8192x8192.Idx → EReal) (ix2 i j)
      = Cert.Spec.adj (fun (r : Fin 8192) (k : Fin 128) => (V c main_v16 : S8192x128.Idx → EReal) (ix2 r k)) i j := by
  rw [final2 V c]
  rfl

end AdjValue

end Cert.KernelIdeal.Hand

end
-- ==== Proof.KernelTail.lean ====
/-
  The closing stretch of host operations of the program (the last 24 operations of @main), composed as one pure
  function of the two arrays it reads: the dense table the third custom call left and the edge list. Each row of
  the edge list is sliced out, flattened, and every negative entry raised by 8192; the two rows are set side by
  side as (row, column) pairs; the value 1.0 is written into the table at every pair (a later write wins).
  The definitions are the printed operations' terms in the printed order, with the printed shape records and
  evidence, generically in the float family.
-/
import proofs.«121768_j5368709120801_1_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe
open Idealize.SL.Sem

variable {F : FTy → Type} [FloatOps F]

/-- Row 0 of the edge list, as a vector, each negative entry raised by 8192. -/
def tailRow0 (a1 : IVec S2x131072 32) : IVec S131072 32 :=
  select
    (cmpi .slt
      (shapeCast S131072 (extractStridedSlice S1x131072 ![0, 0] a1 slices_S2x131072_S1x131072_0_0) shapeCasts_S1x131072_S131072)
      (broadcastInDim S131072 ![] bcast_S_S131072 (constantI S_ 32 0#32)))
    (addi
      (shapeCast S131072 (extractStridedSlice S1x131072 ![0, 0] a1 slices_S2x131072_S1x131072_0_0) shapeCasts_S1x131072_S131072)
      (broadcastInDim S131072 ![] bcast_S_S131072 (constantI S_ 32 8192#32)))
    (shapeCast S131072 (extractStridedSlice S1x131072 ![0, 0] a1 slices_S2x131072_S1x131072_0_0) shapeCasts_S1x131072_S131072)

/-- Row 1 of the edge list, as a vector, each negative entry raised by 8192. -/
def tailRow1 (a1 : IVec S2x131072 32) : IVec S131072 32 :=
  select
    (cmpi .slt
      (shapeCast S131072 (extractStridedSlice S1x131072 ![1, 0] a1 slices_S2x131072_S1x131072_1_0) shapeCasts_S1x131072_S131072)
      (broadcastInDim S131072 ![] bcast_S_S131072 (constantI S_ 32 0#32)))
    (addi
      (shapeCast S131072 (extractStridedSlice S1x131072 ![1, 0] a1 slices_S2x131072_S1x131072_1_0) shapeCasts_S1x131072_S131072)
      (broadcastInDim S131072 ![] bcast_S_S131072 (constantI S_ 32 8192#32)))
    (shapeCast S131072 (extractStridedSlice S1x131072 ![1, 0] a1 slices_S2x131072_S1x131072_1_0) shapeCasts_S1x131072_S131072)

/-- The two normalised rows as columns, side by side: one (row, column) pair per edge. -/
def tailPairs (a1 : IVec S2x131072 32) : IVec S131072x2 32 :=
  concatenate S131072x2 1
    [⟨S131072x1, broadcastInDim S131072x1 ![0] bcast_S131072_S131072x1_0 (tailRow0 a1)⟩,
     ⟨S131072x1, broadcastInDim S131072x1 ![0] bcast_S131072_S131072x1_0 (tailRow1 a1)⟩]
    concatenates_S131072x1_S131072x1_S131072x2_d1

/-- Ones written into the dense table at the edge list's pairs (the later write wins). -/
def tailK (adj : FVec F S8192x8192 .f32) (a1 : IVec S2x131072 32) : FVec F S8192x8192 .f32 :=
  Host.scatter scatter_S8192x8192_S131072x2_S131072_n_01_01_1 (fun _ b => b) adj (tailPairs a1)
    (broadcastInDim S131072 ![] bcast_S_S131072 (constant (F := F) S_ .f32 0x3F800000#32))

/-- What the closing stretch leaves in its result array, from any buffer contents: the composed function at the
    contents of the two arrays it reads. -/
theorem tail_after (Wv : Valuation τ sig (Elt F)) :
    StableHlo.after hostOps3 Wv (Proc.devRef .tc main_v36)
      = tailK (F := F) (Wv (Proc.devRef .tc main_v17)) (Wv (Proc.devRef .tc main_arg1)) := by
  show StableHlo.after hostOps3 Wv (Proc.devRef .tc main_v36) = _
  after_results_simp
  rfl

end Cert.KernelIdeal.Hand

end
-- ==== Proof.KernelValue.lean ====
/-
  The kernel program's value at the extended reals: the dense adjacency its last region leaves is the
  specification's adjacency of the embedding computed from the argument arrays (variance by moments), and the array
  the program returns is the closing host stretch's function of that adjacency and of the edge list as launched.
-/
import proofs.«121768_j5368709120801_1_alg».proof.Proof.KernelChain
import proofs.«121768_j5368709120801_1_alg».proof.Proof.Mlp1Value
import proofs.«121768_j5368709120801_1_alg».proof.Proof.Mlp2Value
import proofs.«121768_j5368709120801_1_alg».proof.Proof.AdjValue
import proofs.«121768_j5368709120801_1_alg».proof.Proof.KernelTail

noncomputable section

namespace Cert.KernelIdeal.Hand

open Cert.KernelIdeal Cert.KernelIdeal.Gen
open Idealize.ShloMosaic Idealize.ShloMosaic.TcCoe Idealize.ShloMosaic.ValueIdx

/-- Region 0's value law: the hidden layer, its column sums and the column sums of its squares. -/
theorem kvLaw0 : KvLaw0 := fun V c => ⟨h_val V c, sum_val V c, sumsq_val V c⟩

/-- Region 1's value law: the embedding of the rectified, normalised hidden layer. -/
theorem kvLaw1 : KvLaw1 := fun V c i o => emb_val V c i o

/-- Region 2's value law: the dense adjacency of the embedding it finds. -/
theorem kvLaw2 : KvLaw2 := fun V c i j => adj_val V c i j

variable (m : (ℓ : Loc nD τ sig) → Buf (Elt Ideal) ℓ)

/-- The dense adjacency after the third region, entry by entry: the specification's adjacency of the kernel's
    embedding of the argument arrays. -/
theorem kernel_adj (c : Dev nD) (i j : Fin 8192) :
    (W5 (F := Ideal) m c (Proc.devRef .tc main_v17) : S8192x8192.Idx → EReal) (ix2 i j)
      = Cert.Spec.adj (Cert.Spec.embKernel (kvX m c) (kvW1 m c) (kvB1 m c) (kvG m c) (kvB m c) (kvW2 m c) (kvB2 m c)) i j :=
  adj_of_laws m kvLaw0 kvLaw1 kvLaw2 c i j

/-- The returned array: the closing stretch's function of the dense adjacency and of the edge list as launched. -/
theorem kernel_out (c : Dev nD) :
    W6 (F := Ideal) m c (Proc.devRef .tc main_v36)
      = tailK (F := Ideal) (W5 m c (Proc.devRef .tc main_v17)) (m ((c : Thread nD τ).loc main_arg1)) :=
  (tail_after (W5 m c)).trans
    (congrArg (tailK (F := Ideal) (W5 m c (Proc.devRef .tc main_v17))) (kv5_arg1 m c))

end Cert.KernelIdeal.Hand

end
-- ==== Proof.RefStages.lean ====
/-
  The reference program's operations composed stage by stage, as pure functions of the argument arrays.
  Each definition is the printed operations' term in the printed order, with the printed shape records and
  evidence; a call of an outlined function is that function's operations at the call's operands.

  * `hStage`     %0 … %4     the hidden layer  x · W1ᵀ + b1
  * `meanStage`  %cst … %7   its column mean
  * `varStage`   %8          the outlined variance (mean squared deviation, divisor 8192 − 0, kept where the
                             divisor is positive)
  * `actStage`   %9 … %24    normalise, scale, shift, rectify
  * `embStage`   %25 … %29   the embedding  a · W2ᵀ + b2
  * `adjStage`   %30 … %43   logistic of e · eᵀ, kept strictly above the diagonal where it is at least 1/2
  * `tailStage`  %44 … %62   the edge list's indices normalised, paired, and ones written at them
-/
import proofs.«121768_j5368709120801_1_alg».proof.ReferenceIdeal
import proofs.«121768_j5368709120801_1_alg».proof.Proof.Gen.ReferenceIdeal

noncomputable section

namespace Cert.ReferenceIdeal.Hand

open Cert.ReferenceIdeal Cert.ReferenceIdeal.Gen Idealize.ShloMosaic

variable {F : FTy → Type} [FloatOps F]

/-- %0 … %4: the first weight transposed, the product with the input, the bias broadcast along the rows, their sum. -/
def hStage (a0 : FVec F S8192x256 .f32) (a2 : FVec F S512x256 .f32) (a3 : FVec F S512 .f32) : FVec F S8192x512 .f32 :=
  addf
    (Host.dotGeneral dot_S8192x256_S256x512_S8192x512_1_0_0_1_n_n none a0
      (transpose S256x512 [1, 0] a2 transposes_S512x256_S256x512_1_0))
    (broadcastInDim S8192x512 ![0, 1] bcast_S1x512_S8192x512_0_1 (broadcastInDim S1x512 ![1] bcast_S512_S1x512_1 a3))

/-- %cst … %7: the column sums over the rows, divided by the row count 8192.0. -/
def meanStage (h : FVec F S8192x512 .f32) : FVec F S512 .f32 :=
  Host.divf
    (Host.reduceAdd h (constant (F := F) S_ .f32 0x00000000#32) reducesTo_S8192x512_S512_d0 h_S_)
    (broadcastInDim S512 ![] bcast_S_S512 (constant (F := F) S_ .f32 0x46000000#32))

/-- The outlined variance's deviations squared: each entry minus its column mean (the column sums divided by
    8192.0, as a row), times itself. -/
def varDevSq (h : FVec F S8192x512 .f32) : FVec F S8192x512 .f32 :=
  mulf
    (subf h
      (broadcastInDim S8192x512 ![0, 1] bcast_S1x512_S8192x512_0_1
        (Host.divf
          (broadcastInDim S1x512 ![1] bcast_S512_S1x512_1
            (Host.reduceAdd h (constant (F := F) S_ .f32 0x00000000#32) reducesTo_S8192x512_S512_d0 h_S_))
          (broadcastInDim S1x512 ![] bcast_S_S1x512 (constant (F := F) S_ .f32 0x46000000#32)))))
    (subf h
      (broadcastInDim S8192x512 ![0, 1] bcast_S1x512_S8192x512_0_1
        (Host.divf
          (broadcastInDim S1x512 ![1] bcast_S512_S1x512_1
            (Host.reduceAdd h (constant (F := F) S_ .f32 0x00000000#32) reducesTo_S8192x512_S512_d0 h_S_))
          (broadcastInDim S1x512 ![] bcast_S_S1x512 (constant (F := F) S_ .f32 0x46000000#32)))))

/-- The outlined variance's divisor: 8192.0 minus the degrees of freedom removed (the integer 0, converted). -/
def varDivisor : FVec F S_ .f32 :=
  subf (constant (F := F) S_ .f32 0x46000000#32) (sitofp (F := F) .f32 (constantI S_ 32 0#32))

/-- %8, the call of the outlined variance with its nested selection: the squared deviations summed over the
    rows and divided by the divisor, kept where the divisor is positive, else the quiet not-a-number literal. -/
def varStage (h : FVec F S8192x512 .f32) : FVec F S512 .f32 :=
  select
    (broadcastInDim S512 ![] bcast_S_S512
      (cmpf (F := F) .ogt (varDivisor (F := F)) (constant (F := F) S_ .f32 0x00000000#32)))
    (Host.divf
      (Host.reduceAdd (varDevSq h) (constant (F := F) S_ .f32 0x00000000#32) reducesTo_S8192x512_S512_d0 h_S_)
      (broadcastInDim S512 ![] bcast_S_S512 (varDivisor (F := F))))
    (broadcastInDim S512 ![] bcast_S_S512 (id (constant (F := F) S_ .f32 0x7FC00000#32)))

/-- %9 … %24: the mean taken off, times the reciprocal root of the variance plus the small literal, times the
    scale, plus the shift, and the maximum with zero. -/
def actStage (h : FVec F S8192x512 .f32) (mean var a4 a5 : FVec F S512 .f32) : FVec F S8192x512 .f32 :=
  maximumf
    (addf
      (mulf
        (mulf
          (subf h
            (broadcastInDim S8192x512 ![0, 1] bcast_S1x512_S8192x512_0_1 (broadcastInDim S1x512 ![1] bcast_S512_S1x512_1 mean)))
          (broadcastInDim S8192x512 ![0, 1] bcast_S1x512_S8192x512_0_1
            (broadcastInDim S1x512 ![1] bcast_S512_S1x512_1
              (Host.rsqrt
                (addf var (broadcastInDim S512 ![] bcast_S_S512 (constant (F := F) S_ .f32 0x3727C5AC#32)))))))
        (broadcastInDim S8192x512 ![0, 1] bcast_S1x512_S8192x512_0_1 (broadcastInDim S1x512 ![1] bcast_S512_S1x512_1 a4)))
      (broadcastInDim S8192x512 ![0, 1] bcast_S1x512_S8192x512_0_1 (broadcastInDim S1x512 ![1] bcast_S512_S1x512_1 a5)))
    (broadcastInDim S8192x512 ![] bcast_S_S8192x512 (constant (F := F) S_ .f32 0x00000000#32))

/-- %25 … %29: the second weight transposed, the product with the activations, the bias broadcast, their sum. -/
def embStage (act : FVec F S8192x512 .f32) (a6 : FVec F S128x512 .f32) (a7 : FVec F S128 .f32) : FVec F S8192x128 .f32 :=
  addf
    (Host.dotGeneral dot_S8192x512_S512x128_S8192x128_1_0_0_1_n_n none act
      (transpose S512x128 [1, 0] a6 transposes_S128x512_S512x128_1_0))
    (broadcastInDim S8192x128 ![0, 1] bcast_S1x128_S8192x128_0_1 (broadcastInDim S1x128 ![1] bcast_S128_S1x128_1 a7))

/-- %30 … %37: the logistic of the embedding's Gram matrix, spelt 1 / (1 + exp (−s)). -/
def sigStage (e : FVec F S8192x128 .f32) : FVec F S8192x8192 .f32 :=
  Host.divf
    (broadcastInDim S8192x8192 ![] bcast_S_S8192x8192 (constant (F := F) S_ .f32 0x3F800000#32))
    (addf
      (broadcastInDim S8192x8192 ![] bcast_S_S8192x8192 (constant (F := F) S_ .f32 0x3F800000#32))
      (Host.exp
        (Host.negf
          (Host.dotGeneral dot_S8192x128_S128x8192_S8192x8192_1_0_0_1_n_n none e
            (transpose S128x8192 [1, 0] e transposes_S8192x128_S128x8192_1_0)))))

/-- %c_4 … %39: the outlined upper-triangle mask of an all-true table: false where the row index (plus 0) is at
    least the column index, else the table's own entry. -/
def triuStage : IVec S8192x8192 1 :=
  select
    (cmpi .sge
      (addi (iotaInDim S8192x8192 32 0) (broadcastInDim S8192x8192 ![] bcast_S_S8192x8192 (constantI S_ 32 0#32)))
      (iotaInDim S8192x8192 32 1))
    (broadcastInDim S8192x8192 ![] bcast_S_S8192x8192 (constantI S_ 1 0#1))
    (broadcastInDim S8192x8192 ![] bcast_S_S8192x8192 (constantI S_ 1 1#1))

/-- %30 … %43: the logistic kept where the mask holds and the logistic is at least 1/2, else zero. -/
def adjStage (e : FVec F S8192x128 .f32) : FVec F S8192x8192 .f32 :=
  select
    (andi triuStage
      (cmpf (F := F) .oge (sigStage e)
        (broadcastInDim S8192x8192 ![] bcast_S_S8192x8192 (constant (F := F) S_ .f32 0x3F000000#32))))
    (sigStage e)
    (broadcastInDim S8192x8192 ![] bcast_S_S8192x8192 (constant (F := F) S_ .f32 0x00000000#32))

/-- %44 … %52 (row 0) and %46 … %57 (row 1): one row of the edge list, as a vector, each negative entry raised by 8192. -/
def idxRow0 (a1 : IVec S2x131072 32) : IVec S131072 32 :=
  select
    (cmpi .slt
      (shapeCast S131072 (extractStridedSlice S1x131072 ![0, 0] a1 slices_S2x131072_S1x131072_0_0) shapeCasts_S1x131072_S131072)
      (broadcastInDim S131072 ![] bcast_S_S131072 (constantI S_ 32 0#32)))
    (addi
      (shapeCast S131072 (extractStridedSlice S1x131072 ![0, 0] a1 slices_S2x131072_S1x131072_0_0) shapeCasts_S1x131072_S131072)
      (broadcastInDim S131072 ![] bcast_S_S131072 (constantI S_ 32 8192#32)))
    (shapeCast S131072 (extractStridedSlice S1x131072 ![0, 0] a1 slices_S2x131072_S1x131072_0_0) shapeCasts_S1x131072_S131072)

@[inherit_doc idxRow0]
def idxRow1 (a1 : IVec S2x131072 32) : IVec S131072 32 :=
  select
    (cmpi .slt
      (shapeCast S131072 (extractStridedSlice S1x131072 ![1, 0] a1 slices_S2x131072_S1x131072_1_0) shapeCasts_S1x131072_S131072)
      (broadcastInDim S131072 ![] bcast_S_S131072 (constantI S_ 32 0#32)))
    (addi
      (shapeCast S131072 (extractStridedSlice S1x131072 ![1, 0] a1 slices_S2x131072_S1x131072_1_0) shapeCasts_S1x131072_S131072)
      (broadcastInDim S131072 ![] bcast_S_S131072 (constantI S_ 32 8192#32)))
    (shapeCast S131072 (extractStridedSlice S1x131072 ![1, 0] a1 slices_S2x131072_S1x131072_1_0) shapeCasts_S1x131072_S131072)

/-- %58 … %60: the two normalised rows as columns, side by side: one (row, column) pair per edge. -/
def idxPairs (a1 : IVec S2x131072 32) : IVec S131072x2 32 :=
  concatenate S131072x2 1
    [⟨S131072x1, broadcastInDim S131072x1 ![0] bcast_S131072_S131072x1_0 (idxRow0 a1)⟩,
     ⟨S131072x1, broadcastInDim S131072x1 ![0] bcast_S131072_S131072x1_0 (idxRow1 a1)⟩]
    concatenates_S131072x1_S131072x1_S131072x2_d1

/-- %44 … %62: ones written into the dense table at the edge list's pairs (the later write wins). -/
def tailStage (adj : FVec F S8192x8192 .f32) (a1 : IVec S2x131072 32) : FVec F S8192x8192 .f32 :=
  Host.scatter scatter_S8192x8192_S131072x2_S131072_n_01_01_1 (fun _ b => b) adj (idxPairs a1)
    (broadcastInDim S131072 ![] bcast_S_S131072 (constant (F := F) S_ .f32 0x3F800000#32))

/-- The whole reference: the stages in order. -/
def outStage (a0 : FVec F S8192x256 .f32) (a1 : IVec S2x131072 32) (a2 : FVec F S512x256 .f32) (a3 a4 a5 : FVec F S512 .f32)
    (a6 : FVec F S128x512 .f32) (a7 : FVec F S128 .f32) : FVec F S8192x8192 .f32 :=
  tailStage
    (adjStage
      (embStage
        (actStage (hStage a0 a2 a3) (meanStage (hStage a0 a2 a3)) (varStage (hStage a0 a2 a3)) a4 a5)
        a6 a7))
    a1

end Cert.ReferenceIdeal.Hand

end
-- ==== Proof.TailEq.lean ====
/-
  The two programs end in the same function. The reference's closing stage and the kernel program's closing
  stretch of host operations are both "normalise the two rows of the edge list, pair them, write 1.0 into the
  dense table at every pair"; the shapes and records the two printed programs name are the same literals under
  two names, so the two composed terms are one term, at any float family.
-/
import proofs.«121768_j5368709120801_1_alg».proof.Proof.KernelTail
import proofs.«121768_j5368709120801_1_alg».proof.Proof.RefStages

namespace Cert.Hand

open Idealize.ShloMosaic

/-- The reference's closing stage is the kernel program's closing stretch, as functions of the dense table and
    the edge list. -/
theorem tail_eq {F : FTy → Type} [FloatOps F] (adj : FVec F Cert.KernelIdeal.S8192x8192 .f32)
    (a1 : IVec Cert.KernelIdeal.S2x131072 32) :
    Cert.ReferenceIdeal.Hand.tailStage (F := F) adj a1 = Cert.KernelIdeal.Hand.tailK (F := F) adj a1 := rfl

end Cert.Hand
-- ==== Proof.RefRunOps.lean ====
/-
  The reference's @main as lists of its host operations, the outlined functions' operations inline at their calls
  over the calls' buffers, cut into consecutive stretches; each stretch touches TensorCore references only and
  determines its results, and @main is the stretches run in order.
-/
import proofs.«121768_j5368709120801_1_alg».proof.ReferenceIdeal
import proofs.«121768_j5368709120801_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- %0 … %7: the hidden layer and its column mean. -/
abbrev opsA : List (HloOp τ sig (Elt F)) :=
  [ unary main_arg2 main_v0 ((transpose S256x512 [1, 0] · transposes_S512x256_S256x512_1_0) : (⟨S512x256, .f32⟩ : BufTy).Contents (Elt F) → (⟨S256x512, .f32⟩ : BufTy).Contents (Elt F)),
    binary main_arg0 main_v0 main_v1 ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S8192x512 ![0, 1] bcast_S1x512_S8192x512_0_1 : (⟨S1x512, .f32⟩ : BufTy).Contents (Elt F) → (⟨S8192x512, .f32⟩ : BufTy).Contents (Elt F)),
    binary main_v1 main_v3 main_v4 (addf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v4 main_cst main_v5 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_0 (constant S_ .f32 0x46000000#32),
    unary main_cst_0 main_v6 (broadcastInDim S512 ![] bcast_S_S512 : (⟨S_, .f32⟩ : BufTy).Contents (Elt F) → (⟨S512, .f32⟩ : BufTy).Contents (Elt F)),
    binary main_v5 main_v6 main_v7 (Host.divf : (⟨S512, .f32⟩ : BufTy).Contents (Elt F) → (⟨S512, .f32⟩ : BufTy).Contents (Elt F) → (⟨S512, .f32⟩ : BufTy).Contents (Elt F)) ]

theorem opsA_sub : (opsA : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub ..⟩

theorem opsA_fresh : ∀ op ∈ (opsA : List (HloOp τ sig (Elt F))), op.fresh = ∅ := by
  intro _ h; (repeat (cases h with | head => rfl | tail _ h => ?_)); exact nomatch h

/-- %c and the call %8 of the outlined variance, its operations over the call's buffers, the nested selection's after them. -/
abbrev opsVar : List (HloOp τ sig (Elt F)) :=
  [ nullary main_c (constantI S_ 32 0#32),
    TRef.nullary main_call0.cst (constant S_ .f32 0x00000000#32),
    TRef.binary (.of main_v4 : StableHlo.TRef sig ⟨S8192x512, .f32⟩) main_call0.cst main_call0.v0 (fun x v => Host.reduceAdd x v reducesTo_S8192x512_S512_d0 h_S_),
    TRef.unary main_call0.v0 main_call0.v1 (broadcastInDim S1x512 ![1] bcast_S512_S1x512_1),
    TRef.nullary main_call0.cst_0 (constant S_ .f32 0x46000000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S8192x512 ![0, 1] bcast_S1x512_S8192x512_0_1),
    TRef.binary (.of main_v4 : StableHlo.TRef sig ⟨S8192x512, .f32⟩) main_call0.v4 main_call0.v5 subf,
    TRef.binary main_call0.v5 main_call0.v5 main_call0.v6 mulf,
    TRef.unary (.of main_c : StableHlo.TRef sig ⟨S_, .i32⟩) main_call0.v7 (sitofp (F := F) .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b) ]

theorem opsVar_sub : (opsVar : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsVar_fresh : ∀ op ∈ (opsVar : List (HloOp τ sig (Elt F))), op.fresh = ∅ := by
  intro _ h; (repeat (cases h with | head => rfl | tail _ h => ?_)); exact nomatch h

/-- %9 … %23 and the call %24 of the outlined rectifier. -/
abbrev opsAct : List (HloOp τ sig (Elt F)) :=
  [ unary main_v7 main_v9 (broadcastInDim S1x512 ![1] bcast_S512_S1x512_1 : (⟨S512, .f32⟩ : BufTy).Contents (Elt F) → (⟨S1x512, .f32⟩ : BufTy).Contents (Elt F)),
    unary main_v9 main_v10 (broadcastInDim S8192x512 ![0, 1] bcast_S1x512_S8192x512_0_1 : (⟨S1x512, .f32⟩ : BufTy).Contents (Elt F) → (⟨S8192x512, .f32⟩ : BufTy).Contents (Elt F)),
    binary main_v4 main_v10 main_v11 (subf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x3727C5AC#32),
    unary main_cst_1 main_v12 (broadcastInDim S512 ![] bcast_S_S512 : (⟨S_, .f32⟩ : BufTy).Contents (Elt F) → (⟨S512, .f32⟩ : BufTy).Contents (Elt F)),
    binary main_v8 main_v12 main_v13 (addf : (⟨S512, .f32⟩ : BufTy).Contents (Elt F) → (⟨S512, .f32⟩ : BufTy).Contents (Elt F) → (⟨S512, .f32⟩ : BufTy).Contents (Elt F)),
    unary main_v13 main_v14 (Host.rsqrt : (⟨S512, .f32⟩ : BufTy).Contents (Elt F) → (⟨S512, .f32⟩ : BufTy).Contents (Elt F)),
    unary main_v14 main_v15 (broadcastInDim S1x512 ![1] bcast_S512_S1x512_1 : (⟨S512, .f32⟩ : BufTy).Contents (Elt F) → (⟨S1x512, .f32⟩ : BufTy).Contents (Elt F)),
    unary main_v15 main_v16 (broadcastInDim S8192x512 ![0, 1] bcast_S1x512_S8192x512_0_1 : (⟨S1x512, .f32⟩ : BufTy).Contents (Elt F) → (⟨S8192x512, .f32⟩ : BufTy).Contents (Elt F)),
    binary main_v11 main_v16 main_v17 (mulf : (⟨S8192x512, .f32⟩ : BufTy).Contents (Elt F) → (⟨S8192x512, .f32⟩ : BufTy).Contents (Elt F) → (⟨S8192x512, .f32⟩ : BufTy).Contents (Elt F)),
    unary main_arg4 main_v18 (broadcastInDim S1x512 ![1] bcast_S512_S1x512_1 : (⟨S512, .f32⟩ : BufTy).Contents (Elt F) → (⟨S1x512, .f32⟩ : BufTy).Contents (Elt F)),
    unary main_v18 main_v19 (broadcastInDim S8192x512 ![0, 1] bcast_S1x512_S8192x512_0_1 : (⟨S1x512, .f32⟩ : BufTy).Contents (Elt F) → (⟨S8192x512, .f32⟩ : BufTy).Contents (Elt F)),
    binary main_v17 main_v19 main_v20 (mulf : (⟨S8192x512, .f32⟩ : BufTy).Contents (Elt F) → (⟨S8192x512, .f32⟩ : BufTy).Contents (Elt F) → (⟨S8192x512, .f32⟩ : BufTy).Contents (Elt F)),
    unary main_arg5 main_v21 (broadcastInDim S1x512 ![1] bcast_S512_S1x512_1 : (⟨S512, .f32⟩ : BufTy).Contents (Elt F) → (⟨S1x512, .f32⟩ : BufTy).Contents (Elt F)),
    unary main_v21 main_v22 (broadcastInDim S8192x512 ![0, 1] bcast_S1x512_S8192x512_0_1 : (⟨S1x512, .f32⟩ : BufTy).Contents (Elt F) → (⟨S8192x512, .f32⟩ : BufTy).Contents (Elt F)),
    binary main_v20 main_v22 main_v23 (addf : (⟨S8192x512, .f32⟩ : BufTy).Contents (Elt F) → (⟨S8192x512, .f32⟩ : BufTy).Contents (Elt F) → (⟨S8192x512, .f32⟩ : BufTy).Contents (Elt F)),
    TRef.nullary main_call1.cst (constant S_ .f32 0x00000000#32),
    TRef.unary main_call1.cst main_call1.v0 (broadcastInDim S8192x512 ![] bcast_S_S8192x512),
    TRef.binary (.of main_v23 : StableHlo.TRef sig ⟨S8192x512, .f32⟩) main_call1.v0 main_call1.v1 maximumf ]

theorem opsAct_sub : (opsAct : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsAct_fresh : ∀ op ∈ (opsAct : List (HloOp τ sig (Elt F))), op.fresh = ∅ := by
  intro _ h; (repeat (cases h with | head => rfl | tail _ h => ?_)); exact nomatch h

/-- %25 … %29: the embedding. -/
abbrev opsEmb : List (HloOp τ sig (Elt F)) :=
  [ unary main_arg6 main_v25 ((transpose S512x128 [1, 0] · transposes_S128x512_S512x128_1_0) : (⟨S128x512, .f32⟩ : BufTy).Contents (Elt F) → (⟨S512x128, .f32⟩ : BufTy).Contents (Elt F)),
    binary main_v24 main_v25 main_v26 ((fun l r => Host.dotGeneral dot_S8192x512_S512x128_S8192x128_1_0_0_1_n_n none l r) : (⟨S8192x512, .f32⟩ : BufTy).Contents (Elt F) → (⟨S512x128, .f32⟩ : BufTy).Contents (Elt F) → (⟨S8192x128, .f32⟩ : BufTy).Contents (Elt F)),
    unary main_arg7 main_v27 (broadcastInDim S1x128 ![1] bcast_S128_S1x128_1 : (⟨S128, .f32⟩ : BufTy).Contents (Elt F) → (⟨S1x128, .f32⟩ : BufTy).Contents (Elt F)),
    unary main_v27 main_v28 (broadcastInDim S8192x128 ![0, 1] bcast_S1x128_S8192x128_0_1 : (⟨S1x128, .f32⟩ : BufTy).Contents (Elt F) → (⟨S8192x128, .f32⟩ : BufTy).Contents (Elt F)),
    binary main_v26 main_v28 main_v29 (addf : (⟨S8192x128, .f32⟩ : BufTy).Contents (Elt F) → (⟨S8192x128, .f32⟩ : BufTy).Contents (Elt F) → (⟨S8192x128, .f32⟩ : BufTy).Contents (Elt F)) ]

theorem opsEmb_sub : (opsEmb : List (HloOp τ sig (Elt F))).Forall fun op => op.bufs ⊆ tcRefs τ sig :=
  ⟨unary_bufs_sub .., binary_bufs_sub .., unary_bufs_sub .., unary_bufs_sub .., binary_bufs_sub ..⟩

theorem opsEmb_fresh : ∀ op ∈ (opsEmb : List (HloOp τ sig (Elt F))), op.fresh = ∅ := by
  intro _ h; (repeat (cases h with | head => rfl | tail _ h => ?_)); exact nomatch h

/-- %30 … %38, the call %39 of the outlined triangle mask, %cst_5 … %cst_6, the call %43 of the outlined selection. -/
abbrev opsAdj : List (HloOp τ sig (Elt F)) :=
  [ unary main_v29 main_v30 ((transpose S128x8192 [1, 0] · transposes_S8192x128_S128x8192_1_0) : (⟨S8192x128, .f32⟩ : BufTy).Contents (Elt F) → (⟨S128x8192, .f32⟩ : BufTy).Contents (Elt F)),
    binary main_v29 main_v30 main_v31 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    unary main_v31 main_v32 (Host.negf : (⟨S8192x8192, .f32⟩ : BufTy).Contents (Elt F) → (⟨S8192x8192, .f32⟩ : BufTy).Contents (Elt F)),
    unary main_v32 main_v33 (Host.exp : (⟨S8192x8192, .f32⟩ : BufTy).Contents (Elt F) → (⟨S8192x8192, .f32⟩ : BufTy).Contents (Elt F)),
    nullary main_cst_2 (constant S_ .f32 0x3F800000#32),
    unary main_cst_2 main_v34 (broadcastInDim S8192x8192 ![] bcast_S_S8192x8192 : (⟨S_, .f32⟩ : BufTy).Contents (Elt F) → (⟨S8192x8192, .f32⟩ : BufTy).Contents (Elt F)),
    binary main_v34 main_v33 main_v35 (addf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x3F800000#32),
    unary main_cst_3 main_v36 (broadcastInDim S8192x8192 ![] bcast_S_S8192x8192 : (⟨S_, .f32⟩ : BufTy).Contents (Elt F) → (⟨S8192x8192, .f32⟩ : BufTy).Contents (Elt F)),
    binary main_v36 main_v35 main_v37 (Host.divf : (⟨S8192x8192, .f32⟩ : BufTy).Contents (Elt F) → (⟨S8192x8192, .f32⟩ : BufTy).Contents (Elt F) → (⟨S8192x8192, .f32⟩ : BufTy).Contents (Elt F)),
    nullary main_c_4 (constantI S_ 1 1#1),
    unary main_c_4 main_v38 (broadcastInDim S8192x8192 ![] bcast_S_S8192x8192 : (⟨S_, .i1⟩ : BufTy).Contents (Elt F) → (⟨S8192x8192, .i1⟩ : BufTy).Contents (Elt F)),
    TRef.nullary main_call2.v0 (iotaInDim S8192x8192 32 0),
    TRef.nullary main_call2.c (constantI S_ 32 0#32),
    TRef.unary main_call2.c main_call2.v1 (broadcastInDim S8192x8192 ![] bcast_S_S8192x8192),
    TRef.binary main_call2.v0 main_call2.v1 main_call2.v2 addi,
    TRef.nullary main_call2.v3 (iotaInDim S8192x8192 32 1),
    TRef.binary main_call2.v2 main_call2.v3 main_call2.v4 (cmpi .sge),
    TRef.nullary main_call2.c_0 (constantI S_ 1 0#1),
    TRef.unary main_call2.c_0 main_call2.v5 (broadcastInDim S8192x8192 ![] bcast_S_S8192x8192),
    TRef.ternary main_call2.v4 main_call2.v5 (.of main_v38 : StableHlo.TRef sig ⟨S8192x8192, .i1⟩) main_call2.v6 select,
    nullary main_cst_5 (constant S_ .f32 0x3F000000#32),
    unary main_cst_5 main_v40 (broadcastInDim S8192x8192 ![] bcast_S_S8192x8192 : (⟨S_, .f32⟩ : BufTy).Contents (Elt F) → (⟨S8192x8192, .f32⟩ : BufTy).Contents (Elt F)),
    binary main_v37 main_v40 main_v41 (cmpf (F := F) .oge : (⟨S8192x8192, .f32⟩ : BufTy).Contents (Elt F) → (⟨S8192x8192, .f32⟩ : BufTy).Contents (Elt F) → (⟨S8192x8192, .i1⟩ : BufTy).Contents (Elt F)),
    binary main_v39 main_v41 main_v42 (andi : (⟨S8192x8192, .i1⟩ : BufTy).Contents (Elt F) → (⟨S8192x8192, .i1⟩ : BufTy).Contents (Elt F) → (⟨S8192x8192, .i1⟩ : BufTy).Contents (Elt F)),
    nullary main_cst_6 (constant S_ .f32 0x00000000#32),
    TRef.unary (.of main_cst_6 : StableHlo.TRef sig ⟨S_, .f32⟩) main_call3.v0 (broadcastInDim S8192x8192 ![] bcast_S_S8192x8192),
    TRef.ternary (.of main_v42 : StableHlo.TRef sig ⟨S8192x8192, .i1⟩) (.of main_v37 : StableHlo.TRef sig ⟨S8192x8192, .f32⟩) main_call3.v0 main_call3.v1 select ]

theorem opsAdj_sub : (opsAdj : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., binary_bufs_sub .., nullary_bufs_sub .., unary_bufs_sub .., ternary_bufs_sub ..⟩

theorem opsAdj_fresh : ∀ op ∈ (opsAdj : List (HloOp τ sig (Elt F))), op.fresh = ∅ := by
  intro _ h; (repeat (cases h with | head => rfl | tail _ h => ?_)); exact nomatch h

/-- %44 … %49: the edge list's two rows as vectors, the first compared with zero. -/
abbrev opsT1 : List (HloOp τ sig (Elt F)) :=
  [ unary main_arg1 main_v44 ((extractStridedSlice S1x131072 ![0, 0] · slices_S2x131072_S1x131072_0_0) : (⟨S2x131072, .i32⟩ : BufTy).Contents (Elt F) → (⟨S1x131072, .i32⟩ : BufTy).Contents (Elt F)),
    reshape main_v44 main_v45 rfl shapeCasts_S1x131072_S131072,
    unary main_arg1 main_v46 ((extractStridedSlice S1x131072 ![1, 0] · slices_S2x131072_S1x131072_1_0) : (⟨S2x131072, .i32⟩ : BufTy).Contents (Elt F) → (⟨S1x131072, .i32⟩ : BufTy).Contents (Elt F)),
    reshape main_v46 main_v47 rfl shapeCasts_S1x131072_S131072,
    nullary main_c_7 (constantI S_ 32 0#32),
    unary main_c_7 main_v48 (broadcastInDim S131072 ![] bcast_S_S131072 : (⟨S_, .i32⟩ : BufTy).Contents (Elt F) → (⟨S131072, .i32⟩ : BufTy).Contents (Elt F)),
    binary main_v45 main_v48 main_v49 (cmpi .slt : (⟨S131072, .i32⟩ : BufTy).Contents (Elt F) → (⟨S131072, .i32⟩ : BufTy).Contents (Elt F) → (⟨S131072, .i1⟩ : BufTy).Contents (Elt F)) ]

theorem opsT1_sub : (opsT1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub ..⟩

theorem opsT1_fresh : ∀ op ∈ (opsT1 : List (HloOp τ sig (Elt F))), op.fresh = ∅ := by
  intro _ h; (repeat (cases h with | head => rfl | tail _ h => ?_)); exact nomatch h

/-- %c_8 … %59: the rows normalised and turned into columns. -/
abbrev opsT2 : List (HloOp τ sig (Elt F)) :=
  [ nullary main_c_8 (constantI S_ 32 8192#32),
    unary main_c_8 main_v50 (broadcastInDim S131072 ![] bcast_S_S131072 : (⟨S_, .i32⟩ : BufTy).Contents (Elt F) → (⟨S131072, .i32⟩ : BufTy).Contents (Elt F)),
    binary main_v45 main_v50 main_v51 (addi : (⟨S131072, .i32⟩ : BufTy).Contents (Elt F) → (⟨S131072, .i32⟩ : BufTy).Contents (Elt F) → (⟨S131072, .i32⟩ : BufTy).Contents (Elt F)),
    ternary main_v49 main_v51 main_v45 main_v52 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_9 (constantI S_ 32 0#32),
    unary main_c_9 main_v53 (broadcastInDim S131072 ![] bcast_S_S131072 : (⟨S_, .i32⟩ : BufTy).Contents (Elt F) → (⟨S131072, .i32⟩ : BufTy).Contents (Elt F)),
    binary main_v47 main_v53 main_v54 (cmpi .slt : (⟨S131072, .i32⟩ : BufTy).Contents (Elt F) → (⟨S131072, .i32⟩ : BufTy).Contents (Elt F) → (⟨S131072, .i1⟩ : BufTy).Contents (Elt F)),
    nullary main_c_10 (constantI S_ 32 8192#32),
    unary main_c_10 main_v55 (broadcastInDim S131072 ![] bcast_S_S131072 : (⟨S_, .i32⟩ : BufTy).Contents (Elt F) → (⟨S131072, .i32⟩ : BufTy).Contents (Elt F)),
    binary main_v47 main_v55 main_v56 (addi : (⟨S131072, .i32⟩ : BufTy).Contents (Elt F) → (⟨S131072, .i32⟩ : BufTy).Contents (Elt F) → (⟨S131072, .i32⟩ : BufTy).Contents (Elt F)),
    ternary main_v54 main_v56 main_v47 main_v57 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v52 main_v58 (broadcastInDim S131072x1 ![0] bcast_S131072_S131072x1_0 : (⟨S131072, .i32⟩ : BufTy).Contents (Elt F) → (⟨S131072x1, .i32⟩ : BufTy).Contents (Elt F)),
    unary main_v57 main_v59 (broadcastInDim S131072x1 ![0] bcast_S131072_S131072x1_0 : (⟨S131072, .i32⟩ : BufTy).Contents (Elt F) → (⟨S131072x1, .i32⟩ : BufTy).Contents (Elt F)) ]

theorem opsT2_sub : (opsT2 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem opsT2_fresh : ∀ op ∈ (opsT2 : List (HloOp τ sig (Elt F))), op.fresh = ∅ := by
  intro _ h; (repeat (cases h with | head => rfl | tail _ h => ?_)); exact nomatch h

/-- %60 … %62: the columns side by side, the ones, the scatter. -/
abbrev opsT3 : List (HloOp τ sig (Elt F)) :=
  [ binary main_v58 main_v59 main_v60 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    nullary main_cst_11 (constant S_ .f32 0x3F800000#32),
    unary main_cst_11 main_v61 (broadcastInDim S131072 ![] bcast_S_S131072 : (⟨S_, .f32⟩ : BufTy).Contents (Elt F) → (⟨S131072, .f32⟩ : BufTy).Contents (Elt F)),
    ternary main_v43 main_v60 main_v61 main_v62 ((fun x i u => Host.scatter scatter_S8192x8192_S131072x2_S131072_n_01_01_1 (fun _ b => b) x i u) : (⟨S8192x8192, .f32⟩ : BufTy).Contents (Elt F) → (⟨S131072x2, .i32⟩ : BufTy).Contents (Elt F) → (⟨S131072, .f32⟩ : BufTy).Contents (Elt F) → (⟨S8192x8192, .f32⟩ : BufTy).Contents (Elt F)) ]

theorem opsT3_sub : (opsT3 : List (HloOp τ sig (Elt F))).Forall fun op => op.bufs ⊆ tcRefs τ sig :=
  ⟨binary_bufs_sub .., nullary_bufs_sub .., unary_bufs_sub .., ternary_bufs_sub ..⟩

theorem opsT3_fresh : ∀ op ∈ (opsT3 : List (HloOp τ sig (Elt F))), op.fresh = ∅ := by
  intro _ h; (repeat (cases h with | head => rfl | tail _ h => ?_)); exact nomatch h

/-- @main's first window's operations. -/
abbrev ops0 : List (HloOp τ sig (Elt F)) := opsA ++ (opsVar ++ (opsAct ++ (opsEmb ++ (opsAdj ++ opsT1))))
/-- @main's second window's operations. -/
abbrev ops1 : List (HloOp τ sig (Elt F)) := opsT2 ++ opsT3
/-- @main's operations, in order. -/
abbrev ops : List (HloOp τ sig (Elt F)) := ops0 ++ ops1

set_option maxRecDepth 8192 in
set_option maxHeartbeats 4000000 in
/-- The first window is its straight line: the outlined functions unfolded at their calls, sequencing reassociated. -/
theorem main_part0_eq (c : Dev nD) : main_part0 (F := F) c = seq ops0 := by
  simp only [main_part0, fn_var.body, fn_where.body, fn_relu.body, fn_triu.body, fn_where_0.body, bind_assoc, pure_bind]
  rfl

theorem main_part1_eq (c : Dev nD) : main_part1 (F := F) c = seq ops1 := rfl

theorem main_eq (c : Dev nD) : main (F := F) c = seq ops := by
  rw [show (ops : List (HloOp τ sig (Elt F))) = ops0 ++ ops1 from rfl, seq_append, ← main_part0_eq c, ← main_part1_eq c]
  rfl

theorem ops_sub : (ops : List (HloOp τ sig (Elt F))).Forall fun op => op.bufs ⊆ tcRefs τ sig :=
  List.forall_append.2 ⟨List.forall_append.2 ⟨opsA_sub, List.forall_append.2 ⟨opsVar_sub, List.forall_append.2 ⟨opsAct_sub,
    List.forall_append.2 ⟨opsEmb_sub, List.forall_append.2 ⟨opsAdj_sub, opsT1_sub⟩⟩⟩⟩⟩, List.forall_append.2 ⟨opsT2_sub, opsT3_sub⟩⟩

theorem ops_fresh : ∀ op ∈ (ops : List (HloOp τ sig (Elt F))), op.fresh = ∅ := by
  intro op h
  simp only [List.mem_append] at h
  rcases h with ((h | h | h | h | h | h) | h | h)
  exacts [opsA_fresh op h, opsVar_fresh op h, opsAct_fresh op h, opsEmb_fresh op h, opsAdj_fresh op h, opsT1_fresh op h,
    opsT2_fresh op h, opsT3_fresh op h]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRunVals.lean ====
/-
  What the reference's stretches of operations leave in the buffers: each stretch's results as the stages of the
  reference's mathematics applied to what the buffers held before it, and every buffer a stretch does not write as it was.
-/
import proofs.«121768_j5368709120801_1_alg».proof.Proof.RefStages
import proofs.«121768_j5368709120801_1_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A single written buffer among a list of references, as a subset of the list's device buffers. -/
theorem single_sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem hy))

/-- The references the stretch `opsA` writes. -/
abbrev WA : List (Ref sig .tc) := [main_v0, main_v1, main_v2, main_v3, main_v4, main_cst, main_v5, main_cst_0, main_v6, main_v7]

theorem opsA_writes : (opsA : List (HloOp τ sig (Elt F))).Forall fun op => op.writes ⊆ ((WA).map (Proc.devRef (τ := τ) .tc)).toFinset :=
  ⟨single_sub_of_mem (y := main_v0) (by decide), single_sub_of_mem (y := main_v1) (by decide), single_sub_of_mem (y := main_v2) (by decide), single_sub_of_mem (y := main_v3) (by decide), single_sub_of_mem (y := main_v4) (by decide), single_sub_of_mem (y := main_cst) (by decide), single_sub_of_mem (y := main_v5) (by decide), single_sub_of_mem (y := main_cst_0) (by decide), single_sub_of_mem (y := main_v6) (by decide), single_sub_of_mem (y := main_v7) (by decide)⟩

/-- A buffer the stretch does not write is as it was. -/
theorem keepA (V : Valuation τ sig (Elt F)) (r : Ref sig .tc) (hr : r ∉ WA := by decide) :
    after opsA V (r : DevRef τ sig) = V (r : DevRef τ sig) :=
  after_of_writes_sub _ V opsA_writes hr

/-- The references the stretch `opsVar` writes. -/
abbrev WVar : List (Ref sig .tc) := [main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]

theorem opsVar_writes : (opsVar : List (HloOp τ sig (Elt F))).Forall fun op => op.writes ⊆ ((WVar).map (Proc.devRef (τ := τ) .tc)).toFinset :=
  ⟨single_sub_of_mem (y := main_c) (by decide), single_sub_of_mem (y := main_call0.cst.ref) (by decide), single_sub_of_mem (y := main_call0.v0.ref) (by decide), single_sub_of_mem (y := main_call0.v1.ref) (by decide), single_sub_of_mem (y := main_call0.cst_0.ref) (by decide), single_sub_of_mem (y := main_call0.v2.ref) (by decide), single_sub_of_mem (y := main_call0.v3.ref) (by decide), single_sub_of_mem (y := main_call0.v4.ref) (by decide), single_sub_of_mem (y := main_call0.v5.ref) (by decide), single_sub_of_mem (y := main_call0.v6.ref) (by decide), single_sub_of_mem (y := main_call0.v7.ref) (by decide), single_sub_of_mem (y := main_call0.cst_1.ref) (by decide), single_sub_of_mem (y := main_call0.v8.ref) (by decide), single_sub_of_mem (y := main_call0.cst_2.ref) (by decide), single_sub_of_mem (y := main_call0.v9.ref) (by decide), single_sub_of_mem (y := main_call0.v10.ref) (by decide), single_sub_of_mem (y := main_call0.v11.ref) (by decide), single_sub_of_mem (y := main_call0.cst_3.ref) (by decide), single_sub_of_mem (y := main_call0.v12.ref) (by decide), single_sub_of_mem (y := main_call0.cst_4.ref) (by decide), single_sub_of_mem (y := main_call0.call0.v0.ref) (by decide), single_sub_of_mem (y := main_call0.call0.v1.ref) (by decide), single_sub_of_mem (y := main_call0.call0.v2.ref) (by decide)⟩

/-- A buffer the stretch does not write is as it was. -/
theorem keepVar (V : Valuation τ sig (Elt F)) (r : Ref sig .tc) (hr : r ∉ WVar := by decide) :
    after opsVar V (r : DevRef τ sig) = V (r : DevRef τ sig) :=
  after_of_writes_sub _ V opsVar_writes hr

/-- The references the stretch `opsAct` writes. -/
abbrev WAct : List (Ref sig .tc) := [main_v9, main_v10, main_v11, main_cst_1, main_v12, main_v13, main_v14, main_v15, main_v16, main_v17, main_v18, main_v19, main_v20, main_v21, main_v22, main_v23, main_call1.cst.ref, main_call1.v0.ref, main_call1.v1.ref]

theorem opsAct_writes : (opsAct : List (HloOp τ sig (Elt F))).Forall fun op => op.writes ⊆ ((WAct).map (Proc.devRef (τ := τ) .tc)).toFinset :=
  ⟨single_sub_of_mem (y := main_v9) (by decide), single_sub_of_mem (y := main_v10) (by decide), single_sub_of_mem (y := main_v11) (by decide), single_sub_of_mem (y := main_cst_1) (by decide), single_sub_of_mem (y := main_v12) (by decide), single_sub_of_mem (y := main_v13) (by decide), single_sub_of_mem (y := main_v14) (by decide), single_sub_of_mem (y := main_v15) (by decide), single_sub_of_mem (y := main_v16) (by decide), single_sub_of_mem (y := main_v17) (by decide), single_sub_of_mem (y := main_v18) (by decide), single_sub_of_mem (y := main_v19) (by decide), single_sub_of_mem (y := main_v20) (by decide), single_sub_of_mem (y := main_v21) (by decide), single_sub_of_mem (y := main_v22) (by decide), single_sub_of_mem (y := main_v23) (by decide), single_sub_of_mem (y := main_call1.cst.ref) (by decide), single_sub_of_mem (y := main_call1.v0.ref) (by decide), single_sub_of_mem (y := main_call1.v1.ref) (by decide)⟩

/-- A buffer the stretch does not write is as it was. -/
theorem keepAct (V : Valuation τ sig (Elt F)) (r : Ref sig .tc) (hr : r ∉ WAct := by decide) :
    after opsAct V (r : DevRef τ sig) = V (r : DevRef τ sig) :=
  after_of_writes_sub _ V opsAct_writes hr

/-- The references the stretch `opsEmb` writes. -/
abbrev WEmb : List (Ref sig .tc) := [main_v25, main_v26, main_v27, main_v28, main_v29]

theorem opsEmb_writes : (opsEmb : List (HloOp τ sig (Elt F))).Forall fun op => op.writes ⊆ ((WEmb).map (Proc.devRef (τ := τ) .tc)).toFinset :=
  ⟨single_sub_of_mem (y := main_v25) (by decide), single_sub_of_mem (y := main_v26) (by decide), single_sub_of_mem (y := main_v27) (by decide), single_sub_of_mem (y := main_v28) (by decide), single_sub_of_mem (y := main_v29) (by decide)⟩

/-- A buffer the stretch does not write is as it was. -/
theorem keepEmb (V : Valuation τ sig (Elt F)) (r : Ref sig .tc) (hr : r ∉ WEmb := by decide) :
    after opsEmb V (r : DevRef τ sig) = V (r : DevRef τ sig) :=
  after_of_writes_sub _ V opsEmb_writes hr

/-- The references the stretch `opsAdj` writes. -/
abbrev WAdj : List (Ref sig .tc) := [main_v30, main_v31, main_v32, main_v33, main_cst_2, main_v34, main_v35, main_cst_3, main_v36, main_v37, main_c_4, main_v38, main_call2.v0.ref, main_call2.c.ref, main_call2.v1.ref, main_call2.v2.ref, main_call2.v3.ref, main_call2.v4.ref, main_call2.c_0.ref, main_call2.v5.ref, main_call2.v6.ref, main_cst_5, main_v40, main_v41, main_v42, main_cst_6, main_call3.v0.ref, main_call3.v1.ref]

theorem opsAdj_writes : (opsAdj : List (HloOp τ sig (Elt F))).Forall fun op => op.writes ⊆ ((WAdj).map (Proc.devRef (τ := τ) .tc)).toFinset :=
  ⟨single_sub_of_mem (y := main_v30) (by decide), single_sub_of_mem (y := main_v31) (by decide), single_sub_of_mem (y := main_v32) (by decide), single_sub_of_mem (y := main_v33) (by decide), single_sub_of_mem (y := main_cst_2) (by decide), single_sub_of_mem (y := main_v34) (by decide), single_sub_of_mem (y := main_v35) (by decide), single_sub_of_mem (y := main_cst_3) (by decide), single_sub_of_mem (y := main_v36) (by decide), single_sub_of_mem (y := main_v37) (by decide), single_sub_of_mem (y := main_c_4) (by decide), single_sub_of_mem (y := main_v38) (by decide), single_sub_of_mem (y := main_call2.v0.ref) (by decide), single_sub_of_mem (y := main_call2.c.ref) (by decide), single_sub_of_mem (y := main_call2.v1.ref) (by decide), single_sub_of_mem (y := main_call2.v2.ref) (by decide), single_sub_of_mem (y := main_call2.v3.ref) (by decide), single_sub_of_mem (y := main_call2.v4.ref) (by decide), single_sub_of_mem (y := main_call2.c_0.ref) (by decide), single_sub_of_mem (y := main_call2.v5.ref) (by decide), single_sub_of_mem (y := main_call2.v6.ref) (by decide), single_sub_of_mem (y := main_cst_5) (by decide), single_sub_of_mem (y := main_v40) (by decide), single_sub_of_mem (y := main_v41) (by decide), single_sub_of_mem (y := main_v42) (by decide), single_sub_of_mem (y := main_cst_6) (by decide), single_sub_of_mem (y := main_call3.v0.ref) (by decide), single_sub_of_mem (y := main_call3.v1.ref) (by decide)⟩

/-- A buffer the stretch does not write is as it was. -/
theorem keepAdj (V : Valuation τ sig (Elt F)) (r : Ref sig .tc) (hr : r ∉ WAdj := by decide) :
    after opsAdj V (r : DevRef τ sig) = V (r : DevRef τ sig) :=
  after_of_writes_sub _ V opsAdj_writes hr

/-- The references the stretch `opsT1` writes. -/
abbrev WT1 : List (Ref sig .tc) := [main_v44, main_v45, main_v46, main_v47, main_c_7, main_v48, main_v49]

theorem opsT1_writes : (opsT1 : List (HloOp τ sig (Elt F))).Forall fun op => op.writes ⊆ ((WT1).map (Proc.devRef (τ := τ) .tc)).toFinset :=
  ⟨single_sub_of_mem (y := main_v44) (by decide), single_sub_of_mem (y := main_v45) (by decide), single_sub_of_mem (y := main_v46) (by decide), single_sub_of_mem (y := main_v47) (by decide), single_sub_of_mem (y := main_c_7) (by decide), single_sub_of_mem (y := main_v48) (by decide), single_sub_of_mem (y := main_v49) (by decide)⟩

/-- A buffer the stretch does not write is as it was. -/
theorem keepT1 (V : Valuation τ sig (Elt F)) (r : Ref sig .tc) (hr : r ∉ WT1 := by decide) :
    after opsT1 V (r : DevRef τ sig) = V (r : DevRef τ sig) :=
  after_of_writes_sub _ V opsT1_writes hr

/-- The references the stretch `opsT2` writes. -/
abbrev WT2 : List (Ref sig .tc) := [main_c_8, main_v50, main_v51, main_v52, main_c_9, main_v53, main_v54, main_c_10, main_v55, main_v56, main_v57, main_v58, main_v59]

theorem opsT2_writes : (opsT2 : List (HloOp τ sig (Elt F))).Forall fun op => op.writes ⊆ ((WT2).map (Proc.devRef (τ := τ) .tc)).toFinset :=
  ⟨single_sub_of_mem (y := main_c_8) (by decide), single_sub_of_mem (y := main_v50) (by decide), single_sub_of_mem (y := main_v51) (by decide), single_sub_of_mem (y := main_v52) (by decide), single_sub_of_mem (y := main_c_9) (by decide), single_sub_of_mem (y := main_v53) (by decide), single_sub_of_mem (y := main_v54) (by decide), single_sub_of_mem (y := main_c_10) (by decide), single_sub_of_mem (y := main_v55) (by decide), single_sub_of_mem (y := main_v56) (by decide), single_sub_of_mem (y := main_v57) (by decide), single_sub_of_mem (y := main_v58) (by decide), single_sub_of_mem (y := main_v59) (by decide)⟩

/-- A buffer the stretch does not write is as it was. -/
theorem keepT2 (V : Valuation τ sig (Elt F)) (r : Ref sig .tc) (hr : r ∉ WT2 := by decide) :
    after opsT2 V (r : DevRef τ sig) = V (r : DevRef τ sig) :=
  after_of_writes_sub _ V opsT2_writes hr

/-- The references the stretch `opsT3` writes. -/
abbrev WT3 : List (Ref sig .tc) := [main_v60, main_cst_11, main_v61, main_v62]

theorem opsT3_writes : (opsT3 : List (HloOp τ sig (Elt F))).Forall fun op => op.writes ⊆ ((WT3).map (Proc.devRef (τ := τ) .tc)).toFinset :=
  ⟨single_sub_of_mem (y := main_v60) (by decide), single_sub_of_mem (y := main_cst_11) (by decide), single_sub_of_mem (y := main_v61) (by decide), single_sub_of_mem (y := main_v62) (by decide)⟩

/-- A buffer the stretch does not write is as it was. -/
theorem keepT3 (V : Valuation τ sig (Elt F)) (r : Ref sig .tc) (hr : r ∉ WT3 := by decide) :
    after opsT3 V (r : DevRef τ sig) = V (r : DevRef τ sig) :=
  after_of_writes_sub _ V opsT3_writes hr

theorem A_v4 (V : Valuation τ sig (Elt F)) :
    after opsA V (main_v4 : DevRef τ sig)
      = hStage (V (main_arg0 : DevRef τ sig)) (V (main_arg2 : DevRef τ sig)) (V (main_arg3 : DevRef τ sig)) := by
  after_results_simp <;> rfl

theorem A_v7 (V : Valuation τ sig (Elt F)) :
    after opsA V (main_v7 : DevRef τ sig)
      = meanStage (hStage (V (main_arg0 : DevRef τ sig)) (V (main_arg2 : DevRef τ sig)) (V (main_arg3 : DevRef τ sig))) := by
  after_results_simp <;> rfl

theorem Var_v8 (V : Valuation τ sig (Elt F)) :
    after opsVar V (main_v8 : DevRef τ sig) = varStage (V (main_v4 : DevRef τ sig)) := by
  after_results_simp <;> (try simp only [TRef.ofBuf, TRef.toBuf, cast_eq]) <;> rfl

theorem Act_v24 (V : Valuation τ sig (Elt F)) :
    after opsAct V (main_v24 : DevRef τ sig)
      = actStage (V (main_v4 : DevRef τ sig)) (V (main_v7 : DevRef τ sig)) (V (main_v8 : DevRef τ sig))
          (V (main_arg4 : DevRef τ sig)) (V (main_arg5 : DevRef τ sig)) := by
  after_results_simp <;> (try simp only [TRef.ofBuf, TRef.toBuf, cast_eq]) <;> rfl

theorem Emb_v29 (V : Valuation τ sig (Elt F)) :
    after opsEmb V (main_v29 : DevRef τ sig)
      = embStage (V (main_v24 : DevRef τ sig)) (V (main_arg6 : DevRef τ sig)) (V (main_arg7 : DevRef τ sig)) := by
  after_results_simp <;> rfl

theorem Adj_v43 (V : Valuation τ sig (Elt F)) :
    after opsAdj V (main_v43 : DevRef τ sig) = adjStage (V (main_v29 : DevRef τ sig)) := by
  after_results_simp <;> (try simp only [TRef.ofBuf, TRef.toBuf, cast_eq]) <;> rfl

theorem T12_v58 (V : Valuation τ sig (Elt F)) :
    after opsT2 (after opsT1 V) (main_v58 : DevRef τ sig)
      = broadcastInDim S131072x1 ![0] bcast_S131072_S131072x1_0 (idxRow0 (V (main_arg1 : DevRef τ sig))) := by
  after_results_simp <;> rfl

theorem T12_v59 (V : Valuation τ sig (Elt F)) :
    after opsT2 (after opsT1 V) (main_v59 : DevRef τ sig)
      = broadcastInDim S131072x1 ![0] bcast_S131072_S131072x1_0 (idxRow1 (V (main_arg1 : DevRef τ sig))) := by
  after_results_simp <;> rfl

theorem T3_v62 (V : Valuation τ sig (Elt F)) :
    after opsT3 V (main_v62 : DevRef τ sig)
      = Host.scatter scatter_S8192x8192_S131072x2_S131072_n_01_01_1 (fun _ b => b) (V (main_v43 : DevRef τ sig))
          (concatenate S131072x2 1 [⟨S131072x1, V (main_v58 : DevRef τ sig)⟩, ⟨S131072x1, V (main_v59 : DevRef τ sig)⟩]
            concatenates_S131072x1_S131072x1_S131072x2_d1)
          (broadcastInDim S131072 ![] bcast_S_S131072 (constant (F := F) S_ .f32 0x3F800000#32)) := by
  after_results_simp <;> rfl

end Cert.ReferenceIdeal.Hand

end
-- ==== Proof.RefRun.lean ====
/-
  The reference's run: from any memory with zero counters every weakly fair execution of @main terminates with the
  result buffer at the stages composed over the arguments' launch contents, and the arguments unchanged.
-/
import proofs.«121768_j5368709120801_1_alg».proof.Proof.RefRunVals
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations as the stretches in order. -/
theorem ops_eq : (ops : List (HloOp τ sig (Elt F)))
    = opsA ++ (opsVar ++ (opsAct ++ (opsEmb ++ (opsAdj ++ opsT1)))) ++ (opsT2 ++ opsT3) := rfl

/-- A buffer no stretch writes is, after all of @main, as it was at launch. -/
theorem keep_ops (V : Valuation τ sig (Elt F)) (r : Ref sig .tc)
    (hA : r ∉ WA := by decide) (hVar : r ∉ WVar := by decide) (hAct : r ∉ WAct := by decide) (hEmb : r ∉ WEmb := by decide)
    (hAdj : r ∉ WAdj := by decide) (hT1 : r ∉ WT1 := by decide) (hT2 : r ∉ WT2 := by decide) (hT3 : r ∉ WT3 := by decide) :
    after ops V (r : DevRef τ sig) = V (r : DevRef τ sig) := by
  rw [ops_eq]
  simp only [StableHlo.after_append]
  rw [keepT3 _ r hT3, keepT2 _ r hT2, keepT1 _ r hT1, keepAdj _ r hAdj, keepEmb _ r hEmb, keepAct _ r hAct, keepVar _ r hVar,
    keepA _ r hA]

/-- The result buffer after all of @main: the stages composed over the arguments. -/
theorem out_eq (V : Valuation τ sig (Elt F)) :
    after ops V (main_v62 : DevRef τ sig)
      = outStage (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [ops_eq]
  simp only [StableHlo.after_append]
  -- the last stretch: the scatter over the dense table, the paired indices and the ones
  rw [T3_v62, T12_v58, T12_v59, keepT2 _ main_v43, keepT1 _ main_v43]
  -- the dense table, the embedding, the activations, the variance, the hidden layer and its mean
  rw [Adj_v43, Emb_v29, Act_v24, Var_v8, keepVar _ main_v4, keepVar _ main_v7, A_v4, A_v7]
  -- the arguments read along the way are untouched by the stretches before
  rw [keepAdj _ main_arg1, keepEmb _ main_arg1, keepAct _ main_arg1, keepVar _ main_arg1, keepA _ main_arg1,
    keepAct _ main_arg6, keepVar _ main_arg6, keepA _ main_arg6, keepAct _ main_arg7, keepVar _ main_arg7, keepA _ main_arg7,
    keepVar _ main_arg4, keepA _ main_arg4, keepVar _ main_arg5, keepA _ main_arg5]
  rfl

/-- On every device, for any float values, from any memory with zero counters: every weakly fair execution of
    @main terminates with the result at the stages composed over the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v62)
          = outStage (F := F) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v62).trans (out_eq _),
      (h c main_arg0).trans (keep_ops _ main_arg0),
      (h c main_arg1).trans (keep_ops _ main_arg1),
      (h c main_arg2).trans (keep_ops _ main_arg2),
      (h c main_arg3).trans (keep_ops _ main_arg3),
      (h c main_arg4).trans (keep_ops _ main_arg4),
      (h c main_arg5).trans (keep_ops _ main_arg5),
      (h c main_arg6).trans (keep_ops _ main_arg6),
      (h c main_arg7).trans (keep_ops _ main_arg7)⟩)
    (run_seq scopedRefs_eq scopedSems_eq defs main (fun _ => ops) main_eq (fun _ => ops_sub) m ρ (fun _ => ops_fresh))

end Cert.ReferenceIdeal.Hand

end
-- ==== Proof.RefRead.lean ====
/-
  Host operations of the reference read at an index, on the extended reals, over literal-size coordinates:
  a vector laid along every row of a rectangle, a transpose of a rectangle, a column sum over the rows, and
  the plain row-by-column product against a transposed right operand.
-/
import Idealize.ShloMosaic.PureOps.Ideal.Laws
import Idealize.ShloMosaic.Lib.ValueIdx
import Idealize.ShloMosaic.Lib.IdealHost
import Idealize.ShloMosaic.Lib.KernelVsHost
import proofs.«121768_j5368709120801_1_alg».proof.Proof.LibPlainDot

noncomputable section

namespace Cert.ReferenceIdeal.Hand

open Idealize.ShloMosaic Idealize.ShloMosaic.ValueIdx
open scoped BigOperators

variable {α : Type} {m n k : ℕ}

/-- A vector laid as the one row of a [1, n] rectangle reads, at (0, q), the vector at q. -/
theorem bcast_row_apply (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v _ (ix1 q) ?_
  intro a
  match a with
  | ⟨0, _⟩ =>
    show q.val = if n = 1 then 0 else q.val
    split
    · have := q.isLt; omega
    · rfl

/-- A vector laid along every row of an [m, n] rectangle (first as one row, then down the rows) reads, at
    (p, q), the vector at q. -/
theorem bcast_rows_apply (h₁ : (⟨1, ![n]⟩ : Shape).BroadcastsInDim ⟨2, ![1, n]⟩ ![1])
    (h₂ : (⟨2, ![1, n]⟩ : Shape).BroadcastsInDim ⟨2, ![m, n]⟩ ![0, 1])
    (v : (⟨1, ![n]⟩ : Shape).Idx → α) (p : Fin m) (q : Fin n) :
    broadcastInDim ⟨2, ![m, n]⟩ ![0, 1] h₂ (broadcastInDim ⟨2, ![1, n]⟩ ![1] h₁ v) (ix2 p q) = v (ix1 q) :=
  (broadcastInDim_oneRow_apply h₂ _ p q).trans (bcast_row_apply h₁ v q)

/-- The transpose of an [m, n] rectangle reads, at (a, b), the rectangle at (b, a). -/
theorem transpose_swap_apply (h : (⟨2, ![m, n]⟩ : Shape).Transposes [1, 0] ⟨2, ![n, m]⟩)
    (x : (⟨2, ![m, n]⟩ : Shape).Idx → α) (a : Fin n) (b : Fin m) :
    transpose ⟨2, ![n, m]⟩ [1, 0] x h (ix2 a b) = x (ix2 b a) := by
  refine transpose_apply [1, 0] x h _ _ ?_
  intro c
  match c with
  | ⟨0, _⟩ => rfl
  | ⟨1, _⟩ => rfl

/-- The host's sum over the rows of an [m, n] rectangle reads, at column j, the initial value plus the sum of
    the column's entries. -/
theorem reduceRows_apply {φ : FTy} (x : FVec Ideal ⟨2, ![m, n]⟩ φ) (init : (⟨0, ![]⟩ : Shape).Idx → Ideal φ)
    (h' : (⟨2, ![m, n]⟩ : Shape).ReducesTo [0] ⟨1, ![n]⟩) (hu : 0 < (⟨0, ![]⟩ : Shape).numel)
    (h : (⟨2, ![m, n]⟩ : Shape).Reduces [0] ⟨1, ![n]⟩) (j : Fin n) :
    Host.reduceAdd x init h' hu (ix1 j) = init ix0 + ∑ i : Fin m, x (ix2 i j) := by
  rw [hostReduceAdd_apply, Ideal.hostReduceAdd_single h' h, eq_ix0 (Shape.Idx.first hu)]
  refine congrArg (init ix0 + ·) (Finset.sum_congr rfl fun i _ => congrArg x ?_)
  funext a
  match a with
  | ⟨0, _⟩ => rfl
  | ⟨1, _⟩ => rfl

/-- The plain product of an [m, k] rectangle with the transpose of an [n, k] one reads, at (p, q), the sum
    over the shared axis of the products of the two rows' entries. -/
theorem dot_transpose_apply {d : DotDims ⟨2, ![m, k]⟩ ⟨2, ![k, n]⟩ ⟨2, ![m, n]⟩} (hd : PlainDot.IsPlain d)
    (prec : Option ContractPrecision) (ht : (⟨2, ![n, k]⟩ : Shape).Transposes [1, 0] ⟨2, ![k, n]⟩)
    (l : FVec Ideal ⟨2, ![m, k]⟩ .f32) (r : FVec Ideal ⟨2, ![n, k]⟩ .f32) (p : Fin m) (q : Fin n) :
    Host.dotGeneral d prec l (transpose ⟨2, ![k, n]⟩ [1, 0] r ht) (ix2 p q) = ∑ c : Fin k, l (ix2 p c) * r (ix2 q c) := by
  refine (PlainDot.dotGeneral_apply hd prec _ l _ p q).trans ?_
  exact Finset.sum_congr rfl fun c _ => congrArg (l (ix2 p c) * ·) (transpose_swap_apply ht r c q)

end Cert.ReferenceIdeal.Hand

end
-- ==== Proof.VarLaw.lean ====
/-
  The one algebraic law of this certificate, on the extended reals: on FINITE data (every entry the coercion of a
  real) a column's variance computed as the second moment minus the squared mean, E[h²] − (E h)², equals its mean
  squared deviation, Σ (h − E h)² / n.

  With real witnesses every expression is the coercion of a real expression, and over the reals the identity is
      Σᵢ (hᵢ − μ)² = Σᵢ hᵢ² − 2 μ Σᵢ hᵢ + n μ² = Σᵢ hᵢ² − n μ²        (μ = Σᵢ hᵢ / n, n ≠ 0),
  divided by n. The sums stay abstract (a finite type of cardinality n); the count 8192 enters only as a real
  number that is not zero.

  * `c8192_eq`                   the float literal 8192.0 denotes the real 8192
  * `coe_finsetSum`              the coercion ℝ → EReal commutes with finite sums
  * `real_var_identity`          the identity over the reals
  * `varMoment_eq_varCentred`    the two variances agree on finite data
  * `hid_finite`                 the hidden layer of finite arguments is finite
  * `embKernel_eq_embReference`  hence the two embeddings agree on finite arguments
-/
import proofs.«121768_j5368709120801_1_alg».proof.Proof.Spec
import Mathlib.Data.EReal.Inv
import Mathlib.Algebra.BigOperators.Ring.Finset
import Mathlib.Tactic.Ring
import Mathlib.Tactic.FieldSimp
import Mathlib.Tactic.NormNum

noncomputable section

namespace Cert.Spec

open Idealize.ShloMosaic
open scoped BigOperators

/-- The f32 word `0x46000000` (sign 0, exponent 140 = 127 + 13, fraction 0) denotes 2¹³ = 8192. -/
theorem c8192_eq : c8192 = ((8192 : ℝ) : EReal) := by
  unfold c8192
  simp [Ideal.ofBits, Ideal.ieee, -EReal.coe_mul]; norm_num

/-- The coercion of a finite sum of reals is the sum of the coercions. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the second moment minus the squared mean is the mean squared deviation, for a family
    indexed by a finite type whose cardinality is the nonzero real `n`. Division is written as the product
    with the reciprocal `1 / n`, the form the extended-real division takes off zero. -/
theorem real_var_identity {ι : Type} [Fintype ι] (f : ι → ℝ) (n : ℝ) (hn : n ≠ 0)
    (hcard : (Fintype.card ι : ℝ) = n) :
    (∑ i, f i * f i) * (1 / n) - ((∑ i, f i) * (1 / n)) * ((∑ i, f i) * (1 / n))
      = (∑ i, (f i - (∑ i, f i) * (1 / n)) * (f i - (∑ i, f i) * (1 / n))) * (1 / n) := by
  generalize hμ : (∑ i, f i) * (1 / n) = μ
  -- expand the square termwise and sum: Σ (fᵢ − μ)² = Σ fᵢ² − 2 μ Σ fᵢ + n μ²
  have hsq : ∀ i, (f i - μ) * (f i - μ) = f i * f i - 2 * μ * f i + μ * μ := fun i => by ring
  have hexp : (∑ i, (f i - μ) * (f i - μ)) = (∑ i, f i * f i) - 2 * μ * (∑ i, f i) + n * (μ * μ) := by
    simp only [hsq]
    rw [Finset.sum_add_distrib, Finset.sum_sub_distrib, ← Finset.mul_sum, Finset.sum_const, Finset.card_univ,
      nsmul_eq_mul, hcard]
  -- Σ fᵢ = n μ
  have hS : (∑ i, f i) = n * μ := by rw [← hμ]; field_simp
  rw [hexp, hS]
  field_simp
  ring

/-- The two variances agree on finite data. -/
theorem varMoment_eq_varCentred (h : Fin 8192 → Fin 512 → EReal)
    (hfin : ∀ i j, ∃ r : ℝ, h i j = (r : EReal)) : varMoment h = varCentred h := by
  choose hr hh using hfin
  funext j
  have hne : (8192 : ℝ) ≠ 0 := by norm_num
  have hcard : (Fintype.card (Fin 8192) : ℝ) = 8192 := by rw [Fintype.card_fin]; norm_num
  -- the column sum, the column sum of squares and the mean are coercions of the real ones
  have hS : colSum h j = ((∑ i, hr i j : ℝ) : EReal) := by
    rw [coe_finsetSum]; exact Finset.sum_congr rfl (fun i _ => hh i j)
  have hQ : colSumSq h j = ((∑ i, hr i j * hr i j : ℝ) : EReal) := by
    rw [coe_finsetSum]
    exact Finset.sum_congr rfl (fun i _ => by rw [hh i j, EReal.coe_mul])
  have hmean : mean h j = (((∑ i, hr i j) * (1 / 8192) : ℝ) : EReal) := by
    rw [mean, hS, c8192_eq, Ideal.div_coe hne, ← EReal.coe_mul]
  -- so is the sum of the squared deviations
  have hC : (∑ i, (h i j - mean h j) * (h i j - mean h j))
      = ((∑ i, (hr i j - (∑ i, hr i j) * (1 / 8192)) * (hr i j - (∑ i, hr i j) * (1 / 8192)) : ℝ) : EReal) := by
    rw [coe_finsetSum, hmean]
    exact Finset.sum_congr rfl (fun i _ => by rw [hh i j, ← EReal.coe_sub, ← EReal.coe_mul])
  have hl : varMoment h j
      = (((∑ i, hr i j * hr i j) * (1 / 8192)
          - ((∑ i, hr i j) * (1 / 8192)) * ((∑ i, hr i j) * (1 / 8192)) : ℝ) : EReal) := by
    show Ideal.div (colSumSq h j) c8192 - mean h j * mean h j = _
    rw [hQ, hmean, c8192_eq, Ideal.div_coe hne, ← EReal.coe_mul, ← EReal.coe_mul, ← EReal.coe_sub]
  have hrt : varCentred h j
      = (((∑ i, (hr i j - (∑ i, hr i j) * (1 / 8192)) * (hr i j - (∑ i, hr i j) * (1 / 8192))) * (1 / 8192) : ℝ)
          : EReal) := by
    show Ideal.div (∑ i, (h i j - mean h j) * (h i j - mean h j)) (c8192 - (0 : EReal)) = _
    rw [hC, sub_zero, c8192_eq, Ideal.div_coe hne, ← EReal.coe_mul]
  rw [hl, hrt, real_var_identity (fun i => hr i j) 8192 hne hcard]

/-- The hidden layer of finite arguments is finite. -/
theorem hid_finite (x : Fin 8192 → Fin 256 → EReal) (w1 : Fin 512 → Fin 256 → EReal) (b1 : Fin 512 → EReal)
    (hx : ∀ i k, ∃ r : ℝ, x i k = (r : EReal)) (hw : ∀ j k, ∃ r : ℝ, w1 j k = (r : EReal))
    (hb : ∀ j, ∃ r : ℝ, b1 j = (r : EReal)) : ∀ i j, ∃ r : ℝ, hid x w1 b1 i j = (r : EReal) := by
  choose xr hxr using hx
  choose wr hwr using hw
  choose br hbr using hb
  intro i j
  refine ⟨(∑ k, xr i k * wr j k) + br j, ?_⟩
  show (∑ k : Fin 256, x i k * w1 j k) + b1 j = _
  rw [EReal.coe_add, coe_finsetSum, hbr j]
  congr 1
  exact Finset.sum_congr rfl (fun k _ => by rw [hxr i k, hwr j k, EReal.coe_mul])

/-- On finite arguments the kernel's embedding (variance by moments) is the reference's (variance by squared
    deviations): the two differ only in the variance of the hidden layer, which is finite. -/
theorem embKernel_eq_embReference (x : Fin 8192 → Fin 256 → EReal) (w1 : Fin 512 → Fin 256 → EReal)
    (b1 g b : Fin 512 → EReal) (w2 : Fin 128 → Fin 512 → EReal) (b2 : Fin 128 → EReal)
    (hx : ∀ i k, ∃ r : ℝ, x i k = (r : EReal)) (hw : ∀ j k, ∃ r : ℝ, w1 j k = (r : EReal))
    (hb : ∀ j, ∃ r : ℝ, b1 j = (r : EReal)) :
    embKernel x w1 b1 g b w2 b2 = embReference x w1 b1 g b w2 b2 := by
  unfold embKernel embReference
  rw [varMoment_eq_varCentred (hid x w1 b1) (hid_finite x w1 b1 hx hw hb)]

end Cert.Spec

end
-- ==== Proof.RefValue.lean ====
/-
  The reference's stages read at an index on the extended reals: the hidden layer, its column mean, its variance
  by squared deviations, the activations and the embedding, each equal to the specification's function of the
  argument arrays read entry by entry.
-/
import proofs.«121768_j5368709120801_1_alg».proof.Proof.RefStages
import proofs.«121768_j5368709120801_1_alg».proof.Proof.RefRead
import proofs.«121768_j5368709120801_1_alg».proof.Proof.VarLaw

noncomputable section

namespace Cert.ReferenceIdeal.Hand

open Cert.ReferenceIdeal Cert.ReferenceIdeal.Gen Idealize.ShloMosaic Idealize.ShloMosaic.ValueIdx
open scoped BigOperators

/-- The column-sum shape fact in the form that names the inserted row coordinate. -/
theorem reduces_rows : S8192x512.Reduces [0] S512 := by decide

/-! ## The hidden layer -/

/-- The hidden layer at (i, j): the row of the input against the row of the first weight, plus the bias. -/
theorem hStage_apply (a0 : FVec Ideal S8192x256 .f32) (a2 : FVec Ideal S512x256 .f32) (a3 : FVec Ideal S512 .f32)
    (i : Fin 8192) (j : Fin 512) :
    hStage (F := Ideal) a0 a2 a3 (ix2 i j)
      = Cert.Spec.hid (fun (a : Fin 8192) (k : Fin 256) => a0 (ix2 a k)) (fun (j : Fin 512) (k : Fin 256) => a2 (ix2 j k))
          (fun j => a3 (ix1 j)) i j := by
  unfold hStage Cert.Spec.hid
  rw [addf_apply]
  refine congrArg₂ (· + ·) ?_ ?_
  · exact dot_transpose_apply (d := dot_S8192x256_S256x512_S8192x512_1_0_0_1_n_n) ⟨rfl, rfl, rfl, rfl, rfl, rfl⟩ none
      transposes_S512x256_S256x512_1_0 a0 a2 i j
  · exact bcast_rows_apply bcast_S512_S1x512_1 bcast_S1x512_S8192x512_0_1 a3 i j

/-! ## The column mean -/

/-- The column sums over the rows, from the zero word, at column j. -/
theorem colSum_apply (h : FVec Ideal S8192x512 .f32) (j : Fin 512) :
    Host.reduceAdd h (constant (F := Ideal) S_ .f32 0x00000000#32) reducesTo_S8192x512_S512_d0 h_S_ (ix1 j)
      = ∑ i : Fin 8192, h (ix2 i j) := by
  rw [reduceRows_apply h _ reducesTo_S8192x512_S512_d0 h_S_ reduces_rows j, constant_apply, Ideal.ofBits_zero_f32, zero_add]

/-- The column mean at j, over the array read entry by entry. -/
theorem meanStage_apply' (h : FVec Ideal S8192x512 .f32) (j : Fin 512) :
    meanStage (F := Ideal) h (ix1 j) = Cert.Spec.mean (fun i j => h (ix2 i j)) j := by
  unfold meanStage Cert.Spec.mean Cert.Spec.colSum Cert.Spec.c8192
  rw [hostDivf_apply, colSum_apply, broadcastInDim_scalar_apply, constant_apply]

/-- The column mean at j, for an array whose entries are given by H. -/
theorem meanStage_apply (h : FVec Ideal S8192x512 .f32) (H : Fin 8192 → Fin 512 → EReal)
    (hH : ∀ i j, h (ix2 i j) = H i j) (j : Fin 512) :
    meanStage (F := Ideal) h (ix1 j) = Cert.Spec.mean H j := by
  rw [meanStage_apply', show (fun i j => h (ix2 i j)) = H from funext fun i => funext fun j => hH i j]

/-! ## The variance by squared deviations -/

/-- The divisor: the count 8192.0 minus the integer zero converted. -/
theorem varDivisor_apply : varDivisor (F := Ideal) ix0 = Cert.Spec.c8192 - (0 : EReal) := by
  unfold varDivisor Cert.Spec.c8192
  rw [subf_apply, constant_apply]
  refine congrArg (Ideal.ofBits .f32 0x46000000#32 - ·) ?_
  show (((0#32 : BitVec 32).toInt : ℝ) : EReal) = 0
  simp

/-- The divisor is positive. -/
theorem varDivisor_pos : Ideal.ofBits .f32 0x00000000#32 < Cert.Spec.c8192 - (0 : EReal) := by
  rw [Ideal.ofBits_zero_f32, sub_zero, Cert.Spec.c8192_eq]
  exact_mod_cast (by norm_num : (0 : ℝ) < 8192)

/-- A squared deviation at (i, j): the entry minus its column's mean, times itself. -/
theorem varDevSq_apply (h : FVec Ideal S8192x512 .f32) (i : Fin 8192) (j : Fin 512) :
    varDevSq (F := Ideal) h (ix2 i j)
      = (h (ix2 i j) - Cert.Spec.mean (fun i j => h (ix2 i j)) j) * (h (ix2 i j) - Cert.Spec.mean (fun i j => h (ix2 i j)) j) := by
  have e : broadcastInDim S8192x512 ![0, 1] bcast_S1x512_S8192x512_0_1
        (Host.divf
          (broadcastInDim S1x512 ![1] bcast_S512_S1x512_1
            (Host.reduceAdd h (constant (F := Ideal) S_ .f32 0x00000000#32) reducesTo_S8192x512_S512_d0 h_S_))
          (broadcastInDim S1x512 ![] bcast_S_S1x512 (constant (F := Ideal) S_ .f32 0x46000000#32))) (ix2 i j)
      = Cert.Spec.mean (fun i j => h (ix2 i j)) j := by
    unfold Cert.Spec.mean Cert.Spec.colSum Cert.Spec.c8192
    rw [broadcastInDim_oneRow_apply, hostDivf_apply, bcast_row_apply, colSum_apply, broadcastInDim_scalar_apply, constant_apply]
  unfold varDevSq
  rw [mulf_apply, subf_apply, e]

/-- The variance at column j, over the array read entry by entry. -/
theorem varStage_apply' (h : FVec Ideal S8192x512 .f32) (j : Fin 512) :
    varStage (F := Ideal) h (ix1 j) = Cert.Spec.varCentred (fun i j => h (ix2 i j)) j := by
  unfold varStage Cert.Spec.varCentred
  rw [select_apply, broadcastInDim_scalar_apply, cmpf_apply, varDivisor_apply, constant_apply]
  have hc : FloatOps.cmpf (F := Ideal) .ogt (Cert.Spec.c8192 - (0 : EReal)) (Ideal.ofBits .f32 0x00000000#32) = 1#1 := by
    show BitVec.ofBool (decide (Ideal.ofBits .f32 0x00000000#32 < Cert.Spec.c8192 - (0 : EReal))) = 1#1
    rw [decide_eq_true varDivisor_pos]; rfl
  rw [hc, select_one, hostDivf_apply, broadcastInDim_scalar_apply, varDivisor_apply,
    reduceRows_apply (varDevSq h) _ reducesTo_S8192x512_S512_d0 h_S_ reduces_rows j, constant_apply, Ideal.ofBits_zero_f32,
    zero_add]
  exact congrArg (Ideal.div · (Cert.Spec.c8192 - (0 : EReal))) (Finset.sum_congr rfl fun i _ => varDevSq_apply h i j)

/-- The variance at column j, for an array whose entries are given by H. -/
theorem varStage_apply (h : FVec Ideal S8192x512 .f32) (H : Fin 8192 → Fin 512 → EReal)
    (hH : ∀ i j, h (ix2 i j) = H i j) (j : Fin 512) :
    varStage (F := Ideal) h (ix1 j) = Cert.Spec.varCentred H j := by
  rw [varStage_apply', show (fun i j => h (ix2 i j)) = H from funext fun i => funext fun j => hH i j]

/-! ## The activations and the embedding -/

/-- The activations at (i, j): the entry minus the mean, times the reciprocal root of the variance plus the small
    literal, times the scale, plus the shift, and the maximum with zero. -/
theorem actStage_apply (h : FVec Ideal S8192x512 .f32) (mean var a4 a5 : FVec Ideal S512 .f32) (i : Fin 8192) (j : Fin 512) :
    actStage (F := Ideal) h mean var a4 a5 (ix2 i j)
      = Cert.Spec.act (fun i j => h (ix2 i j)) (fun j => mean (ix1 j)) (Cert.Spec.istd fun j => var (ix1 j))
          (fun j => a4 (ix1 j)) (fun j => a5 (ix1 j)) i j := by
  unfold actStage Cert.Spec.act Cert.Spec.istd Cert.Spec.eps Cert.Spec.zero
  rw [maximumf_apply, addf_apply, mulf_apply, mulf_apply, subf_apply, bcast_rows_apply, bcast_rows_apply, bcast_rows_apply,
    bcast_rows_apply, broadcastInDim_scalar_apply, constant_apply]
  show max ((h (ix2 i j) - mean (ix1 j)) * Ideal.rsqrt (var (ix1 j) + broadcastInDim S512 ![] bcast_S_S512
      (constant (F := Ideal) S_ .f32 0x3727C5AC#32) (ix1 j)) * a4 (ix1 j) + a5 (ix1 j)) _ = _
  rw [broadcastInDim_scalar_apply, constant_apply]

/-- The embedding at (i, o): the row of the activations against the row of the second weight, plus the bias. -/
theorem embStage_apply (act : FVec Ideal S8192x512 .f32) (a6 : FVec Ideal S128x512 .f32) (a7 : FVec Ideal S128 .f32)
    (i : Fin 8192) (o : Fin 128) :
    embStage (F := Ideal) act a6 a7 (ix2 i o)
      = Cert.Spec.emb (fun i j => act (ix2 i j)) (fun (o : Fin 128) (j : Fin 512) => a6 (ix2 o j)) (fun o => a7 (ix1 o)) i o := by
  unfold embStage Cert.Spec.emb
  rw [addf_apply]
  refine congrArg₂ (· + ·) ?_ ?_
  · exact dot_transpose_apply (d := dot_S8192x512_S512x128_S8192x128_1_0_0_1_n_n) ⟨rfl, rfl, rfl, rfl, rfl, rfl⟩ none
      transposes_S128x512_S512x128_1_0 act a6 i o
  · exact bcast_rows_apply bcast_S128_S1x128_1 bcast_S1x128_S8192x128_0_1 a7 i o

/-- The reference's embedding of the arguments at (i, o). -/
theorem embRef_apply (a0 : FVec Ideal S8192x256 .f32) (a2 : FVec Ideal S512x256 .f32) (a3 a4 a5 : FVec Ideal S512 .f32)
    (a6 : FVec Ideal S128x512 .f32) (a7 : FVec Ideal S128 .f32) (i : Fin 8192) (o : Fin 128) :
    embStage (F := Ideal)
        (actStage (hStage a0 a2 a3) (meanStage (hStage a0 a2 a3)) (varStage (hStage a0 a2 a3)) a4 a5) a6 a7 (ix2 i o)
      = Cert.Spec.embReference (fun (a : Fin 8192) (k : Fin 256) => a0 (ix2 a k)) (fun (j : Fin 512) (k : Fin 256) => a2 (ix2 j k))
          (fun j => a3 (ix1 j)) (fun j => a4 (ix1 j)) (fun j => a5 (ix1 j))
          (fun (o : Fin 128) (j : Fin 512) => a6 (ix2 o j)) (fun o => a7 (ix1 o)) i o := by
  have hh : (fun (i : Fin 8192) (j : Fin 512) => hStage (F := Ideal) a0 a2 a3 (ix2 i j))
      = Cert.Spec.hid (fun (a : Fin 8192) (k : Fin 256) => a0 (ix2 a k)) (fun (j : Fin 512) (k : Fin 256) => a2 (ix2 j k))
          (fun j => a3 (ix1 j)) := funext fun i => funext fun j => hStage_apply a0 a2 a3 i j
  have hm : (fun j : Fin 512 => meanStage (F := Ideal) (hStage a0 a2 a3) (ix1 j))
      = Cert.Spec.mean (fun (i : Fin 8192) (j : Fin 512) => hStage (F := Ideal) a0 a2 a3 (ix2 i j)) :=
    funext fun j => meanStage_apply' _ j
  have hv : (fun j : Fin 512 => varStage (F := Ideal) (hStage a0 a2 a3) (ix1 j))
      = Cert.Spec.varCentred (fun (i : Fin 8192) (j : Fin 512) => hStage (F := Ideal) a0 a2 a3 (ix2 i j)) :=
    funext fun j => varStage_apply' _ j
  have ha : (fun (i : Fin 8192) (j : Fin 512) =>
        actStage (F := Ideal) (hStage a0 a2 a3) (meanStage (hStage a0 a2 a3)) (varStage (hStage a0 a2 a3)) a4 a5 (ix2 i j))
      = Cert.Spec.act (fun (i : Fin 8192) (j : Fin 512) => hStage (F := Ideal) a0 a2 a3 (ix2 i j))
          (fun j : Fin 512 => meanStage (F := Ideal) (hStage a0 a2 a3) (ix1 j))
          (Cert.Spec.istd fun j : Fin 512 => varStage (F := Ideal) (hStage a0 a2 a3) (ix1 j))
          (fun j => a4 (ix1 j)) (fun j => a5 (ix1 j)) := funext fun i => funext fun j => actStage_apply _ _ _ a4 a5 i j
  rw [embStage_apply, ha, hm, hv, hh]
  rfl

end Cert.ReferenceIdeal.Hand

end
-- ==== Proof.RefAdj.lean ====
/-
  The reference's adjacency stage read at an entry, on the extended reals.

  At (i, j) the stage computes the logistic of the Gram entry Σₖ e(i,k) · e(j,k), spelt 1 / (1 + exp (−s)),
  keeps it where the row index is strictly below the column index and the logistic is at least 1/2, and
  writes zero elsewhere. The upper-triangle mask is computed on 32-bit words: "row index + 0 ≥ column index"
  as a signed comparison of two words below 8192, which order as their values; the mask is false there and
  true elsewhere, so it holds exactly where i < j.

  * `sigStage_apply`   the logistic stage at (i, j) is the logistic of the Gram entry
  * `triuStage_apply`  the mask at (i, j) is set exactly where i < j
  * `adjStage_apply`   the adjacency stage at (i, j) is the dense adjacency of the embedding
-/
import proofs.«121768_j5368709120801_1_alg».proof.ReferenceIdeal
import proofs.«121768_j5368709120801_1_alg».proof.Proof.Gen.ReferenceIdeal
import proofs.«121768_j5368709120801_1_alg».proof.Proof.Spec
import proofs.«121768_j5368709120801_1_alg».proof.Proof.LibPlainDot
import proofs.«121768_j5368709120801_1_alg».proof.Proof.RefStages
import Idealize.ShloMosaic.Lib.ValueIdx
import Idealize.ShloMosaic.Lib.ValueLayout
import Idealize.ShloMosaic.Lib.IdealHost
import Idealize.ShloMosaic.Lib.StableHlo.Predicate

noncomputable section

namespace Cert.ReferenceIdeal.Hand

open Cert.ReferenceIdeal Cert.ReferenceIdeal.Gen Idealize.ShloMosaic Idealize.ShloMosaic.ValueIdx
open scoped BigOperators

/-- The Gram matrix e · eᵀ read at (i, j): the sum over the shared axis of the products of rows i and j. -/
theorem gram_apply (e : FVec Ideal S8192x128 .f32) (i j : Fin 8192) :
    Host.dotGeneral dot_S8192x128_S128x8192_S8192x8192_1_0_0_1_n_n none e
        (transpose S128x8192 [1, 0] e transposes_S8192x128_S128x8192_1_0) (ix2 i j)
      = Cert.Spec.score (fun r k => e (ix2 r k)) i j := by
  refine (PlainDot.dotGeneral_apply ⟨rfl, rfl, rfl, rfl, rfl, rfl⟩ none _ e _ i j).trans ?_
  exact Finset.sum_congr rfl fun k _ =>
    congrArg (e (ix2 i k) * ·) (transpose_ix2_apply e transposes_S8192x128_S128x8192_1_0 k j)

/-- The logistic stage at (i, j): 1 / (1 + exp (−s)) at the Gram entry s, which is the logistic's definition. -/
theorem sigStage_apply (e : FVec Ideal S8192x128 .f32) (i j : Fin 8192) :
    sigStage (F := Ideal) e (ix2 i j) = Ideal.logistic (Cert.Spec.score (fun r k => e (ix2 r k)) i j) := by
  have hg := gram_apply e i j
  generalize hG : Host.dotGeneral dot_S8192x128_S128x8192_S8192x8192_1_0_0_1_n_n none e
      (transpose S128x8192 [1, 0] e transposes_S8192x128_S128x8192_1_0) = G at hg
  have h : sigStage (F := Ideal) e (ix2 i j)
      = Ideal.div (Ideal.ofBits .f32 0x3F800000#32) (Ideal.ofBits .f32 0x3F800000#32 + Ideal.exp (-(G (ix2 i j)))) := by
    unfold sigStage; rw [hG]; rfl
  rw [h, hg, Ideal.ofBits_one_f32]
  rfl

/-- A word built from a number below 8192 has that number as its value. -/
private theorem toNat_ofNat_small (a : Fin 8192) : (BitVec.ofNat 32 a.val).toNat = a.val := by
  rw [BitVec.toNat_ofNat]; exact Nat.mod_eq_of_lt (by have := a.isLt; omega)

/-- The upper-triangle mask at (i, j): cleared where j ≤ i (the signed comparison "i + 0 ≥ j" of two small
    words), set elsewhere. -/
theorem triuStage_apply (i j : Fin 8192) : triuStage (ix2 i j) = if i.val < j.val then 1#1 else 0#1 := by
  have h : triuStage (ix2 i j)
      = Scalar.select (IntOp.cmpi .sge (IntOp.addi (BitVec.ofNat 32 i.val) 0#32) (BitVec.ofNat 32 j.val)) 0#1 1#1 := rfl
  rw [h, show IntOp.addi (BitVec.ofNat 32 i.val) 0#32 = BitVec.ofNat 32 i.val from BitVec.add_zero _]
  have hi : (BitVec.ofNat 32 i.val).toNat < 2 ^ 31 := by rw [toNat_ofNat_small]; have := i.isLt; omega
  have hj : (BitVec.ofNat 32 j.val).toNat < 2 ^ 31 := by rw [toNat_ofNat_small]; have := j.isLt; omega
  have hc : IntOp.cmpi .sge (BitVec.ofNat 32 i.val) (BitVec.ofNat 32 j.val) = 1 ↔ j.val ≤ i.val := by
    have h0 := StableHlo.Predicate.sge_iff_toNat hi hj
    rw [toNat_ofNat_small, toNat_ofNat_small] at h0
    exact h0
  unfold Scalar.select
  by_cases hij : i.val < j.val
  · rw [if_pos hij, if_neg (fun h1 => absurd (hc.mp h1) (by omega))]
  · rw [if_neg hij, if_pos (hc.mpr (by omega))]

/-- The conjunction of two one-bit words, the second a decided proposition's bit, is set exactly where the first
    is set and the proposition holds. -/
private theorem andi_bit (a : BitVec 1) (p : Prop) [Decidable p] :
    IntOp.andi a (BitVec.ofBool (decide p)) = 1 ↔ (a = 1#1 ∧ p) := by
  rcases BitVec.eq_zero_or_eq_one a with h | h <;> by_cases hp : p <;> simp [IntOp.andi, h, hp]

/-- THE ADJACENCY STAGE AT (i, j): the logistic of the Gram entry where i < j and the logistic is at least 1/2,
    else zero: the dense adjacency of the embedding read by coordinates. -/
theorem adjStage_apply (e : FVec Ideal S8192x128 .f32) (i j : Fin 8192) :
    adjStage (F := Ideal) e (ix2 i j) = Cert.Spec.adj (fun r k => e (ix2 r k)) i j := by
  have hs := sigStage_apply e i j
  have ht := triuStage_apply i j
  generalize hS : sigStage (F := Ideal) e = S at hs
  generalize hT : triuStage = T at ht
  have h : adjStage (F := Ideal) e (ix2 i j)
      = Scalar.select
          (IntOp.andi (T (ix2 i j))
            (BitVec.ofBool (decide (Ideal.ofBits .f32 0x3F000000#32 ≤ S (ix2 i j)))))
          (S (ix2 i j)) (Ideal.ofBits .f32 0x00000000#32) := by
    unfold adjStage; rw [hS, hT]; rfl
  rw [h, hs, ht]
  unfold Cert.Spec.adj Scalar.select Cert.Spec.half Cert.Spec.zero
  refine if_congr ?_ rfl rfl
  rw [andi_bit]
  refine and_congr ?_ Iff.rfl
  by_cases hij : i.val < j.val
  · simp [hij]
  · simp [hij]

end Cert.ReferenceIdeal.Hand

end
-- ==== Proof.Finite.lean ====
import proofs.«121768_j5368709120801_1_alg».proof.Pre_finite_inputs
import proofs.«121768_j5368709120801_1_alg».proof.Proof.Gen.Pre_finite_inputs
import Idealize.ShloMosaic.Lib.ReduceAll
import Idealize.ShloMosaic.Lib.ValueIdx
import Idealize.ShloMosaic.PureOps.Ideal
import Mathlib.Data.EReal.Basic

/-!
# Finiteness of the float arguments

The precondition is a conjunction of seven statements "every entry of the array has absolute
value below +∞", one per float argument. On the extended reals an entry whose absolute value
max x (-x) is below ⊤ is neither ⊤ nor ⊥, hence the coercion of a real number. This module
reads that fact off the printed predicate, entry by entry.
-/

namespace Cert.FiniteIn

open Idealize.ShloMosaic Cert.Pre_finite_inputs

/-- The rank-0 shape has one index. -/
instance subsingleton_scalar_idx : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the comparison |x| < +∞ answering 1 makes x a real number. -/
theorem real_of_cmp (x : Ideal .f32)
    (h : FloatOps.cmpf (F := Ideal) (φ := .f32) .olt (FloatOps.hostAbsf x) (FloatOps.ofBits .f32 0x7F800000#32) = 1#1) :
    ∃ r : ℝ, x = (r : EReal) := by
  refine real_of_abs_lt_top x ?_
  have h' : Ideal.cmp .olt (max x (-x)) (Ideal.ofBits .f32 0x7F800000#32) = 1#1 := h
  rw [ofBits_inf] at h'
  simpa [Ideal.cmp, ofBool_eq_one] using h'

/-- One conjunct of the precondition, for an array of any shape: if the conjunction over all
    entries of "|a i| < +∞" is 1, every entry of a is a real number. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32)))
          init hr hu ValueIdx.ix0 = 1#1) :
    ∀ i, ∃ r : ℝ, a i = (r : EReal) := fun i =>
  real_of_cmp (a i) (Host.reduce_andi_all _ init hr hu ValueIdx.ix0 e i)

/-- The conjunction of two one-bit scalars, read at an index. -/
theorem andi_apply {s : Shape} (x y : IVec s 1) (j : s.Idx) : andi x y j = IntOp.andi (x j) (y j) := rfl

/-- Under the precondition every entry of every float argument is a real number. -/
theorem finite_of_pre [Cert.Pre_finite_inputs.Facts]
    (a0 : FVec Ideal S8192x256 .f32) (a1 : IVec S2x131072 32) (a2 : FVec Ideal S512x256 .f32)
    (a3 a4 a5 : FVec Ideal S512 .f32) (a6 : FVec Ideal S128x512 .f32) (a7 : FVec Ideal S128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) := by
  have h0 := congrFun h ValueIdx.ix0
  dsimp only [fn, fn_part1] at h0
  simp only [andi_apply, IntOp.andi_eq_one] at h0
  obtain ⟨⟨⟨⟨⟨⟨e0, e2⟩, e3⟩, e4⟩, e5⟩, e6⟩, e7⟩ := h0
  exact ⟨all_real a0 _ _ _ _ e0, all_real a2 _ _ _ _ e2, all_real a3 _ _ _ _ e3, all_real a4 _ _ _ _ e4,
    all_real a5 _ _ _ _ e5, all_real a6 _ _ _ _ e6, all_real a7 _ _ _ _ e7⟩

end Cert.FiniteIn
-- ==== Proof.Claims.lean ====
/-
  The five claims of the certificate, assembled.

  The two kernel programs (the word-level one and its reading on the extended reals) run, region by region, to a
  final state in which every unscoped buffer holds the last boundary's contents; the argument arrays are among the
  buffers nothing writes, which is each program's frame. The reference's run ends with its result at the composed
  stages of its operations and its arguments as launched, which is its frame.

  For the equivalence: the kernel's returned array is the closing stretch (the edge list written into the dense
  adjacency) applied to the adjacency its third region leaves, and the reference's is the same closing stretch
  applied to its own adjacency. Index by index both adjacencies are the thresholded, strictly upper-triangular
  sigmoid of emb · embᵀ, where emb is the second linear layer of the rectified batch-normalised first layer; the
  two differ only in how the batch variance of a column is computed — second moment minus squared mean in the
  kernel, mean squared deviation in the reference — and those agree because every entry of the first layer is
  finite, a sum of products of finite inputs plus a finite bias.
-/
import proofs.«121768_j5368709120801_1_alg».proof.Defs
import proofs.«121768_j5368709120801_1_alg».proof.Proof.Run
import proofs.«121768_j5368709120801_1_alg».proof.Proof.Bits.Run
import proofs.«121768_j5368709120801_1_alg».proof.Proof.KernelValue
import proofs.«121768_j5368709120801_1_alg».proof.Proof.TailEq
import proofs.«121768_j5368709120801_1_alg».proof.Proof.RefRun
import proofs.«121768_j5368709120801_1_alg».proof.Proof.RefValue
import proofs.«121768_j5368709120801_1_alg».proof.Proof.RefAdj
import proofs.«121768_j5368709120801_1_alg».proof.Proof.VarLaw
import proofs.«121768_j5368709120801_1_alg».proof.Proof.Finite

noncomputable section

namespace Cert.Proof.Claims

open Idealize.ShloMosaic Idealize.ShloMosaic.TcCoe Idealize.SL.Sem Idealize.ShloMosaic.ValueIdx

/-- The word-level kernel program runs and leaves its arguments as launched. -/
theorem frame_k : Cert.frame_Kernel := fun m ρ _ =>
  (θ_run Cert.Kernel.defs _ _).mono (fun r h c => ⟨
      (h c _ (Cert.Kernel.Hand.mem_uc Cert.Kernel.main_arg0 (by decide))).trans (Cert.Kernel.Hand.W6_main_arg0 m c),
      (h c _ (Cert.Kernel.Hand.mem_uc Cert.Kernel.main_arg1 (by decide))).trans (Cert.Kernel.Hand.W6_main_arg1 m c),
      (h c _ (Cert.Kernel.Hand.mem_uc Cert.Kernel.main_arg2 (by decide))).trans (Cert.Kernel.Hand.W6_main_arg2 m c),
      (h c _ (Cert.Kernel.Hand.mem_uc Cert.Kernel.main_arg3 (by decide))).trans (Cert.Kernel.Hand.W6_main_arg3 m c),
      (h c _ (Cert.Kernel.Hand.mem_uc Cert.Kernel.main_arg4 (by decide))).trans (Cert.Kernel.Hand.W6_main_arg4 m c),
      (h c _ (Cert.Kernel.Hand.mem_uc Cert.Kernel.main_arg5 (by decide))).trans (Cert.Kernel.Hand.W6_main_arg5 m c),
      (h c _ (Cert.Kernel.Hand.mem_uc Cert.Kernel.main_arg6 (by decide))).trans (Cert.Kernel.Hand.W6_main_arg6 m c),
      (h c _ (Cert.Kernel.Hand.mem_uc Cert.Kernel.main_arg7 (by decide))).trans (Cert.Kernel.Hand.W6_main_arg7 m c)⟩)
    (Cert.Kernel.Hand.run_main (F := Bits) m ρ)

/-- The kernel program on the extended reals runs and leaves its arguments as launched. -/
theorem frame_ki : Cert.frame_KernelIdeal := fun m ρ _ =>
  (θ_run Cert.KernelIdeal.defs _ _).mono (fun r h c => ⟨
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c)⟩)
    (Cert.KernelIdeal.Hand.run_main (F := Ideal) m ρ)

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The reference's result as a function of eight arrays of which the first, third and fourth are finite: the closing
    stretch applied to the adjacency of the embedding computed with the KERNEL's variance. -/
theorem ref_out (a0 : FVec Ideal Cert.ReferenceIdeal.S8192x256 .f32) (a1 : IVec Cert.ReferenceIdeal.S2x131072 32)
    (a2 : FVec Ideal Cert.ReferenceIdeal.S512x256 .f32) (a3 a4 a5 : FVec Ideal Cert.ReferenceIdeal.S512 .f32)
    (a6 : FVec Ideal Cert.ReferenceIdeal.S128x512 .f32) (a7 : FVec Ideal Cert.ReferenceIdeal.S128 .f32)
    (h0 : ∀ i, ∃ r : ℝ, a0 i = (r : EReal)) (h2 : ∀ i, ∃ r : ℝ, a2 i = (r : EReal)) (h3 : ∀ i, ∃ r : ℝ, a3 i = (r : EReal))
    (adjK : FVec Ideal Cert.KernelIdeal.S8192x8192 .f32)
    (hadj : ∀ i j : Fin 8192, adjK (ix2 i j) = Cert.Spec.adj (Cert.Spec.embKernel (fun a k => a0 (ix2 a k)) (fun j k => a2 (ix2 j k))
      (fun j => a3 (ix1 j)) (fun j => a4 (ix1 j)) (fun j => a5 (ix1 j)) (fun o j => a6 (ix2 o j)) (fun o => a7 (ix1 o))) i j) :
    Cert.ReferenceIdeal.Hand.outStage (F := Ideal) a0 a1 a2 a3 a4 a5 a6 a7 = Cert.KernelIdeal.Hand.tailK (F := Ideal) adjK a1 := by
  unfold Cert.ReferenceIdeal.Hand.outStage
  rw [Cert.Hand.tail_eq]
  refine congrArg (fun A => Cert.KernelIdeal.Hand.tailK (F := Ideal) A a1) ?_
  funext idx
  obtain ⟨i, j, rfl⟩ : ∃ (i j : Fin 8192), idx = ix2 i j := ⟨idx 0, idx 1, eq_ix2 idx⟩
  rw [Cert.ReferenceIdeal.Hand.adjStage_apply, hadj]
  refine congrArg (fun e => Cert.Spec.adj e i j) ?_
  funext r k
  rw [Cert.ReferenceIdeal.Hand.embRef_apply]
  exact congrFun (congrFun (Cert.Spec.embKernel_eq_embReference _ _ _ _ _ _ _ (fun i k => h0 (ix2 i k)) (fun j k => h2 (ix2 j k))
    (fun j => h3 (ix1 j))).symm r) k

/-- From memories agreeing on the arguments the two programs on the extended reals end with equal results. -/
theorem algebraic : Cert.algebraic_KernelIdeal_ReferenceIdeal := by
  intro m ρ m' ρ' hpre hagree
  refine ⟨fun c => Cert.KernelIdeal.Hand.W6 (F := Ideal) m c (Proc.devRef .tc Cert.KernelIdeal.main_v36), ?_, ?_⟩
  · exact (θ_run Cert.KernelIdeal.defs _ _).mono (fun r h c => ⟨
      h c _ (Cert.KernelIdeal.Hand.mem_uc Cert.KernelIdeal.main_v36 (by decide)),
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c)⟩)
      (Cert.KernelIdeal.Hand.run_main (F := Ideal) m ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7⟩ := hagree c
    obtain ⟨f0, f2, f3, -⟩ := Cert.FiniteIn.finite_of_pre _ _ _ _ _ _ _ _ (hpre c)
    rw [e0, e1, e2, e3, e4, e5, e6, e7]
    show _ = Cert.KernelIdeal.Hand.W6 (F := Ideal) m c (Proc.devRef .tc Cert.KernelIdeal.main_v36)
    rw [Cert.KernelIdeal.Hand.kernel_out m c]
    exact ref_out _ _ _ _ _ _ _ _ f0 f2 f3 _ (Cert.KernelIdeal.Hand.kernel_adj m c)

end Cert.Proof.Claims

end
-- ==== Proof.lean ====
/-
  The certificate: a graph-construction step — a two-layer perceptron with batch normalisation, pairwise sigmoid
  scores kept strictly above the diagonal where they reach one half, then a given edge list written in with weight
  one — as three pipelined kernels between stretches of host operations, against its plain array-language reference.
  Both programs run, fault nowhere and leave their arguments as launched; read on the extended reals, under finite
  float inputs, they return the same array. The one point where they differ is the batch variance (second moment
  minus squared mean against mean squared deviation), equal on finite data. The claims are proved in Proof/Claims.lean.
-/
import proofs.«121768_j5368709120801_1_alg».proof.Defs
import proofs.«121768_j5368709120801_1_alg».proof.Proof.Gen.Kernel
import proofs.«121768_j5368709120801_1_alg».proof.Proof.Gen.KernelIdeal
import proofs.«121768_j5368709120801_1_alg».proof.Proof.Gen.ReferenceIdeal
import proofs.«121768_j5368709120801_1_alg».proof.Proof.Gen.Pre_finite_inputs
import proofs.«121768_j5368709120801_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
